-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v70)) (v1 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_v71) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v266) = v0 c
          ∧ r.2.mem ((c.tc : Thread Cert.ReferenceIdeal.nD Cert.ReferenceIdeal.τ).loc Cert.ReferenceIdeal.main_v275) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x64 : Shape := ⟨2, ![128, 64]⟩
abbrev S64 : Shape := ⟨1, ![64]⟩
abbrev S384x64 : Shape := ⟨2, ![384, 64]⟩
abbrev S64x2 : Shape := ⟨2, ![64, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S384x64 : S_.BroadcastsInDim S384x64 (![] : Fin 0 → Fin S384x64.rank)
  reducesTo_S384x64_S_d0_1 : S384x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_
  bcast_S_S800000 : S_.BroadcastsInDim S800000 (![] : Fin 0 → Fin S800000.rank)
  reducesTo_S800000_S_d0 : S800000.ReducesTo [0] S_

variable [Facts]

def fn_part3 {F : FTy → Type} [FloatOps F] (main_arg5 : IVec S800000 32) (main_v48 : IVec S_ 1) (main_v50 : IVec S800000 1) : IVec S_ 1 :=
  let main_c_19 : IVec S_ 1 := constantI S_ 1 1#1
  let main_v51 : IVec S_ 1 := (fun x v => Host.reduce IntOp.andi x v reducesTo_S800000_S_d0 h_S_) main_v50 main_c_19
  let main_v52 : IVec S_ 1 := andi main_v48 main_v51
  let main_c_20 : IVec S_ 32 := constantI S_ 32 0#32
  let main_v53 : IVec S800000 32 := broadcastInDim S800000 ![] bcast_S_S800000 main_c_20
  let main_v54 : IVec S800000 1 := cmpi .sge main_arg5 main_v53
  let main_c_21 : IVec S_ 1 := constantI S_ 1 1#1
  let main_v55 : IVec S_ 1 := (fun x v => Host.reduce IntOp.andi x v reducesTo_S800000_S_d0 h_S_) main_v54 main_c_21
  let main_v56 : IVec S_ 1 := andi main_v52 main_v55
  main_v56

def fn_part2 {F : FTy → Type} [FloatOps F] (main_arg3 : IVec S800000 32) (main_arg5 : IVec S800000 32) (main_arg11 : FVec F S64 .f32) (main_arg12 : FVec F S64x2 .f32) (main_arg13 : FVec F S2 .f32) (main_v33 : IVec S_ 1) : IVec S_ 1 :=
  let main_v34 : FVec F S64 .f32 := Host.absf main_arg11
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x2 .f32 := Host.absf main_arg12
  let main_cst_14 : FVec F S_ .f32 := constant S_ .f32 0x7F800000#32
  let main_v40 : FVec F S64x2 .f32 := broadcastInDim S64x2 ![] bcast_S_S64x2 main_cst_14
  let main_v41 : IVec S64x2 1 := cmpf .olt main_v39 main_v40
  let main_c_15 : IVec S_ 1 := constantI S_ 1 1#1
  let main_v42 : IVec S_ 1 := (fun x v => Host.reduce IntOp.andi x v reducesTo_S64x2_S_d0_1 h_S_) main_v41 main_c_15
  let main_v43 : IVec S_ 1 := andi main_v38 main_v42
  let main_v44 : FVec F S2 .f32 := Host.absf main_arg13
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  let main_c_18 : IVec S_ 32 := constantI S_ 32 0#32
  let main_v49 : IVec S800000 32 := broadcastInDim S800000 ![] bcast_S_S800000 main_c_18
  let main_v50 : IVec S800000 1 := cmpi .sge main_arg3 main_v49
  fn_part3 (F := F) main_arg5 main_v48 main_v50

def fn_part1 {F : FTy → Type} [FloatOps F] (main_arg3 : IVec S800000 32) (main_arg5 : IVec S800000 32) (main_arg8 : FVec F S128x64 .f32) (main_arg9 : FVec F S64 .f32) (main_arg10 : FVec F S384x64 .f32) (main_arg11 : FVec F S64 .f32) (main_arg12 : FVec F S64x2 .f32) (main_arg13 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg8
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg9
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S384x64 .f32 := Host.absf main_arg10
  let main_cst_10 : FVec F S_ .f32 := constant S_ .f32 0x7F800000#32
  let main_v30 : FVec F S384x64 .f32 := broadcastInDim S384x64 ![] bcast_S_S384x64 main_cst_10
  let main_v31 : IVec S384x64 1 := cmpf .olt main_v29 main_v30
  let main_c_11 : IVec S_ 1 := constantI S_ 1 1#1
  let main_v32 : IVec S_ 1 := (fun x v => Host.reduce IntOp.andi x v reducesTo_S384x64_S_d0_1 h_S_) main_v31 main_c_11
  let main_v33 : IVec S_ 1 := andi main_v28 main_v32
  fn_part2 (F := F) main_arg3 main_arg5 main_arg11 main_arg12 main_arg13 main_v33

def fn {F : FTy → Type} [FloatOps F] (main_arg0 : FVec F S50000x128 .f32) (main_arg1 : FVec F S50000x128 .f32) (main_arg2 : IVec S800000 32) (main_arg3 : IVec S800000 32) (main_arg4 : IVec S800000 32) (main_arg5 : IVec S800000 32) (main_arg6 : FVec F S128x64 .f32) (main_arg7 : FVec F S64 .f32) (main_arg8 : FVec F S128x64 .f32) (main_arg9 : FVec F S64 .f32) (main_arg10 : FVec F S384x64 .f32) (main_arg11 : FVec F S64 .f32) (main_arg12 : FVec F S64x2 .f32) (main_arg13 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x64 .f32 := Host.absf main_arg6
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg7
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg3 main_arg5 main_arg8 main_arg9 main_arg10 main_arg11 main_arg12 main_arg13 main_v13 main_v16
-- ==== Kernel.lean ====
abbrev S50000x128 : Shape := ⟨2, ![50000, 128]⟩
abbrev S800000 : Shape := ⟨1, ![800000]⟩
abbrev S128x64 : Shape := ⟨2, ![128, 64]⟩
abbrev S64 : Shape := ⟨1, ![64]⟩
abbrev S384x64 : Shape := ⟨2, ![384, 64]⟩
abbrev S64x2 : Shape := ⟨2, ![64, 2]⟩
abbrev S2 : Shape := ⟨1, ![2]⟩
abbrev S1x64 : Shape := ⟨2, ![1, 64]⟩
abbrev S1x2 : Shape := ⟨2, ![1, 2]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x64 : Shape := ⟨2, ![50000, 64]⟩
abbrev S2000x128 : Shape := ⟨2, ![2000, 128]⟩
abbrev S2000x64 : Shape := ⟨2, ![2000, 64]⟩
abbrev S800000x64 : Shape := ⟨2, ![800000, 64]⟩
abbrev S50000x192 : Shape := ⟨2, ![50000, 192]⟩
abbrev S2000x192 : Shape := ⟨2, ![2000, 192]⟩
abbrev S50000x384 : Shape := ⟨2, ![50000, 384]⟩
abbrev S50000x2 : Shape := ⟨2, ![50000, 2]⟩
abbrev S2000x384 : Shape := ⟨2, ![2000, 384]⟩
abbrev S2000x2 : Shape := ⟨2, ![2000, 2]⟩

abbrev nBuf : Space → Nat
  | .hbm => 116
  | .vmem => 84
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S800000, .i32⟩
  | .hbm, ⟨3, _⟩ => ⟨S800000, .i32⟩
  | .hbm, ⟨4, _⟩ => ⟨S800000, .i32⟩
  | .hbm, ⟨5, _⟩ => ⟨S800000, .i32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S384x64, .f32⟩
  | .hbm, ⟨11, _⟩ => ⟨S64, .f32⟩
  | .hbm, ⟨12, _⟩ => ⟨S64x2, .f32⟩
  | .hbm, ⟨13, _⟩ => ⟨S2, .f32⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S1x2, .f32⟩
  | .hbm, ⟨18, _⟩ => ⟨S_, .f32⟩
  | .hbm, ⟨19, _⟩ => ⟨S800000, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x64, .f32⟩
  | .hbm, ⟨33, _⟩ => ⟨S50000x64, .f32⟩
  | .hbm, ⟨34, _⟩ => ⟨S50000x64, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x64, .f32⟩
  | .hbm, ⟨44, _⟩ => ⟨S_, .f32⟩
  | .hbm, ⟨45, _⟩ => ⟨S50000x64, .f32⟩
  | .hbm, ⟨46, _⟩ => ⟨S800000x1, .i32⟩
  | .hbm, ⟨47, _⟩ => ⟨S50000x64, .f32⟩
  | .hbm, ⟨48, _⟩ => ⟨S50000x64, .f32⟩
  | .hbm, ⟨49, _⟩ => ⟨S50000x64, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x64, .f32⟩
  | .hbm, ⟨59, _⟩ => ⟨S_, .f32⟩
  | .hbm, ⟨60, _⟩ => ⟨S50000x64, .f32⟩
  | .hbm, ⟨61, _⟩ => ⟨S800000x1, .i32⟩
  | .hbm, ⟨62, _⟩ => ⟨S50000x64, .f32⟩
  | .hbm, ⟨63, _⟩ => ⟨S50000x64, .f32⟩
  | .hbm, ⟨64, _⟩ => ⟨S50000x64, .f32⟩
  | .hbm, ⟨65, _⟩ => ⟨S50000x192, .f32⟩
  | .hbm, ⟨66, _⟩ => ⟨S_, .f32⟩
  | .hbm, ⟨67, _⟩ => ⟨S800000, .f32⟩
  | .hbm, ⟨68, _⟩ => ⟨S_, .f32⟩
  | .hbm, ⟨69, _⟩ => ⟨S50000, .f32⟩
  | .hbm, ⟨70, _⟩ => ⟨S800000x1, .i32⟩
  | .hbm, ⟨71, _⟩ => ⟨S50000, .f32⟩
  | .hbm, ⟨72, _⟩ => ⟨S_, .f32⟩
  | .hbm, ⟨73, _⟩ => ⟨S_, .f32⟩
  | .hbm, ⟨74, _⟩ => ⟨S50000, .f32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .f32⟩
  | .hbm, ⟨79, _⟩ => ⟨S50000x1, .f32⟩
  | .hbm, ⟨80, _⟩ => ⟨S50000x64, .f32⟩
  | .hbm, ⟨81, _⟩ => ⟨S50000x64, .f32⟩
  | .hbm, ⟨82, _⟩ => ⟨S50000x64, .f32⟩
  | .hbm, ⟨83, _⟩ => ⟨S_, .i32⟩
  | .hbm, ⟨84, _⟩ => ⟨S800000, .i32⟩
  | .hbm, ⟨85, _⟩ => ⟨S800000, .i1⟩
  | .hbm, ⟨86, _⟩ => ⟨S_, .i32⟩
  | .hbm, ⟨87, _⟩ => ⟨S800000, .i32⟩
  | .hbm, ⟨88, _⟩ => ⟨S800000, .i32⟩
  | .hbm, ⟨89, _⟩ => ⟨S800000, .i32⟩
  | .hbm, ⟨90, _⟩ => ⟨S800000x1, .i32⟩
  | .hbm, ⟨91, _⟩ => ⟨S800000x64, .f32⟩
  | .hbm, ⟨92, _⟩ => ⟨S_, .f32⟩
  | .hbm, ⟨93, _⟩ => ⟨S50000x64, .f32⟩
  | .hbm, ⟨94, _⟩ => ⟨S800000x1, .i32⟩
  | .hbm, ⟨95, _⟩ => ⟨S50000x64, .f32⟩
  | .hbm, ⟨96, _⟩ => ⟨S50000x64, .f32⟩
  | .hbm, ⟨97, _⟩ => ⟨S50000x64, .f32⟩
  | .hbm, ⟨98, _⟩ => ⟨S_, .i32⟩
  | .hbm, ⟨99, _⟩ => ⟨S800000, .i32⟩
  | .hbm, ⟨100, _⟩ => ⟨S800000, .i1⟩
  | .hbm, ⟨101, _⟩ => ⟨S_, .i32⟩
  | .hbm, ⟨102, _⟩ => ⟨S800000, .i32⟩
  | .hbm, ⟨103, _⟩ => ⟨S800000, .i32⟩
  | .hbm, ⟨104, _⟩ => ⟨S800000, .i32⟩
  | .hbm, ⟨105, _⟩ => ⟨S800000x1, .i32⟩
  | .hbm, ⟨106, _⟩ => ⟨S800000x64, .f32⟩
  | .hbm, ⟨107, _⟩ => ⟨S_, .f32⟩
  | .hbm, ⟨108, _⟩ => ⟨S50000x64, .f32⟩
  | .hbm, ⟨109, _⟩ => ⟨S800000x1, .i32⟩
  | .hbm, ⟨110, _⟩ => ⟨S50000x64, .f32⟩
  | .hbm, ⟨111, _⟩ => ⟨S50000x64, .f32⟩
  | .hbm, ⟨112, _⟩ => ⟨S50000x64, .f32⟩
  | .hbm, ⟨113, _⟩ => ⟨S50000x192, .f32⟩
  | .hbm, ⟨114, _⟩ => ⟨S50000x384, .f32⟩
  | .hbm, ⟨115, _⟩ => ⟨S50000x2, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S1x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S2000x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S2000x192, .f32⟩
  | .local _ .vmem, ⟨37, _⟩ => ⟨S2000x192, .f32⟩
  | .local _ .vmem, ⟨38, _⟩ => ⟨S2000x128, .f32⟩
  | .local _ .vmem, ⟨39, _⟩ => ⟨S2000x128, .f32⟩
  | .local _ .vmem, ⟨40, _⟩ => ⟨S128x64, .f32⟩
  | .local _ .vmem, ⟨41, _⟩ => ⟨S1x64, .f32⟩
  | .local _ .vmem, ⟨42, _⟩ => ⟨S2000x64, .f32⟩
  | .local _ .vmem, ⟨43, _⟩ => ⟨S2000x64, .f32⟩
  | .local _ .vmem, ⟨44, _⟩ => ⟨S2000x64, .f32⟩
  | .local _ .vmem, ⟨45, _⟩ => ⟨S2000x64, .f32⟩
  | .local _ .vmem, ⟨46, _⟩ => ⟨S2000x64, .f32⟩
  | .local _ .vmem, ⟨47, _⟩ => ⟨S2000x64, .f32⟩
  | .local _ .vmem, ⟨48, _⟩ => ⟨S2000x64, .f32⟩
  | .local _ .vmem, ⟨49, _⟩ => ⟨S2000x64, .f32⟩
  | .local _ .vmem, ⟨50, _⟩ => ⟨S2000x64, .f32⟩
  | .local _ .vmem, ⟨51, _⟩ => ⟨S2000x64, .f32⟩
  | .local _ .vmem, ⟨52, _⟩ => ⟨S2000x64, .f32⟩
  | .local _ .vmem, ⟨53, _⟩ => ⟨S2000x64, .f32⟩
  | .local _ .vmem, ⟨54, _⟩ => ⟨S2000x64, .f32⟩
  | .local _ .vmem, ⟨55, _⟩ => ⟨S2000x64, .f32⟩
  | .local _ .vmem, ⟨56, _⟩ => ⟨S2000x64, .f32⟩
  | .local _ .vmem, ⟨57, _⟩ => ⟨S2000x64, .f32⟩
  | .local _ .vmem, ⟨58, _⟩ => ⟨S2000x64, .f32⟩
  | .local _ .vmem, ⟨59, _⟩ => ⟨S2000x64, .f32⟩
  | .local _ .vmem, ⟨60, _⟩ => ⟨S2000x64, .f32⟩
  | .local _ .vmem, ⟨61, _⟩ => ⟨S2000x64, .f32⟩
  | .local _ .vmem, ⟨62, _⟩ => ⟨S2000x64, .f32⟩
  | .local _ .vmem, ⟨63, _⟩ => ⟨S2000x64, .f32⟩
  | .local _ .vmem, ⟨64, _⟩ => ⟨S2000x64, .f32⟩
  | .local _ .vmem, ⟨65, _⟩ => ⟨S2000x64, .f32⟩
  | .local _ .vmem, ⟨66, _⟩ => ⟨S2000x64, .f32⟩
  | .local _ .vmem, ⟨67, _⟩ => ⟨S2000x64, .f32⟩
  | .local _ .vmem, ⟨68, _⟩ => ⟨S2000x64, .f32⟩
  | .local _ .vmem, ⟨69, _⟩ => ⟨S2000x64, .f32⟩
  | .local _ .vmem, ⟨70, _⟩ => ⟨S2000x64, .f32⟩
  | .local _ .vmem, ⟨71, _⟩ => ⟨S2000x64, .f32⟩
  | .local _ .vmem, ⟨72, _⟩ => ⟨S2000x64, .f32⟩
  | .local _ .vmem, ⟨73, _⟩ => ⟨S2000x64, .f32⟩
  | .local _ .vmem, ⟨74, _⟩ => ⟨S2000x192, .f32⟩
  | .local _ .vmem, ⟨75, _⟩ => ⟨S2000x192, .f32⟩
  | .local _ .vmem, ⟨76, _⟩ => ⟨S2000x384, .f32⟩
  | .local _ .vmem, ⟨77, _⟩ => ⟨S2000x384, .f32⟩
  | .local _ .vmem, ⟨78, _⟩ => ⟨S384x64, .f32⟩
  | .local _ .vmem, ⟨79, _⟩ => ⟨S1x64, .f32⟩
  | .local _ .vmem, ⟨80, _⟩ => ⟨S64x2, .f32⟩
  | .local _ .vmem, ⟨81, _⟩ => ⟨S1x2, .f32⟩
  | .local _ .vmem, ⟨82, _⟩ => ⟨S2000x2, .f32⟩
  | .local _ .vmem, ⟨83, _⟩ => ⟨S2000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_v8 : Ref sig .tc := ⟨.hbm, 27, rfl⟩
abbrev main_cst_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13_0 : Ref sig .tc := ⟨.hbm, 33, rfl⟩
abbrev main_v13_1 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_3 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_4 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24_0 : Ref sig .tc := ⟨.hbm, 48, rfl⟩
abbrev main_v24_1 : Ref sig .tc := ⟨.hbm, 49, rfl⟩
abbrev main_c_5 : Ref sig .tc := ⟨.hbm, 50, rfl⟩
abbrev main_v25 : Ref sig .tc := ⟨.hbm, 51, rfl⟩
abbrev main_v26 : Ref sig .tc := ⟨.hbm, 52, rfl⟩
abbrev main_c_6 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_7 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35_0 : Ref sig .tc := ⟨.hbm, 63, rfl⟩
abbrev main_v35_1 : Ref sig .tc := ⟨.hbm, 64, rfl⟩
abbrev main_v36 : Ref sig .tc := ⟨.hbm, 65, rfl⟩
abbrev main_cst_8 : Ref sig .tc := ⟨.hbm, 66, rfl⟩
abbrev main_v37 : Ref sig .tc := ⟨.hbm, 67, rfl⟩
abbrev main_cst_9 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_10 : Ref sig .tc := ⟨.hbm, 72, rfl⟩
abbrev main_call1_v0 : Ref sig .tc := ⟨.hbm, 73, rfl⟩
abbrev main_call1_v1 : Ref sig .tc := ⟨.hbm, 74, rfl⟩
abbrev main_v41 : Ref sig .tc := ⟨.hbm, 75, rfl⟩
abbrev main_cst_11 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46_0 : Ref sig .tc := ⟨.hbm, 81, rfl⟩
abbrev main_v46_1 : Ref sig .tc := ⟨.hbm, 82, rfl⟩
abbrev main_c_12 : Ref sig .tc := ⟨.hbm, 83, rfl⟩
abbrev main_v47 : Ref sig .tc := ⟨.hbm, 84, rfl⟩
abbrev main_v48 : Ref sig .tc := ⟨.hbm, 85, rfl⟩
abbrev main_c_13 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_cst_14 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57_0 : Ref sig .tc := ⟨.hbm, 96, rfl⟩
abbrev main_v57_1 : Ref sig .tc := ⟨.hbm, 97, rfl⟩
abbrev main_c_15 : Ref sig .tc := ⟨.hbm, 98, rfl⟩
abbrev main_v58 : Ref sig .tc := ⟨.hbm, 99, rfl⟩
abbrev main_v59 : Ref sig .tc := ⟨.hbm, 100, rfl⟩
abbrev main_c_16 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst_17 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68_0 : Ref sig .tc := ⟨.hbm, 111, rfl⟩
abbrev main_v68_1 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg3_1 : Ref sig .tc := ⟨.vmem, 43, rfl⟩
abbrev cc4_stg4_0 : Ref sig .tc := ⟨.vmem, 44, rfl⟩
abbrev cc4_stg4_1 : Ref sig .tc := ⟨.vmem, 45, rfl⟩
abbrev cc4_stg5_0 : Ref sig .tc := ⟨.vmem, 46, rfl⟩
abbrev cc4_stg5_1 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg1_1 : Ref sig .tc := ⟨.vmem, 51, rfl⟩
abbrev cc5_stg2_0 : Ref sig .tc := ⟨.vmem, 52, rfl⟩
abbrev cc5_stg2_1 : Ref sig .tc := ⟨.vmem, 53, rfl⟩
abbrev cc5_stg3_0 : Ref sig .tc := ⟨.vmem, 54, rfl⟩
abbrev cc5_stg3_1 : Ref sig .tc := ⟨.vmem, 55, rfl⟩
abbrev cc5_stg4_0 : Ref sig .tc := ⟨.vmem, 56, rfl⟩
abbrev cc5_stg4_1 : Ref sig .tc := ⟨.vmem, 57, rfl⟩
abbrev cc6_stg0_0 : Ref sig .tc := ⟨.vmem, 58, rfl⟩
abbrev cc6_stg0_1 : Ref sig .tc := ⟨.vmem, 59, rfl⟩
abbrev cc6_stg1_0 : Ref sig .tc := ⟨.vmem, 60, rfl⟩
abbrev cc6_stg1_1 : Ref sig .tc := ⟨.vmem, 61, rfl⟩
abbrev cc6_stg2_0 : Ref sig .tc := ⟨.vmem, 62, rfl⟩
abbrev cc6_stg2_1 : Ref sig .tc := ⟨.vmem, 63, rfl⟩
abbrev cc6_stg3_0 : Ref sig .tc := ⟨.vmem, 64, rfl⟩
abbrev cc6_stg3_1 : Ref sig .tc := ⟨.vmem, 65, rfl⟩
abbrev cc6_stg4_0 : Ref sig .tc := ⟨.vmem, 66, rfl⟩
abbrev cc6_stg4_1 : Ref sig .tc := ⟨.vmem, 67, rfl⟩
abbrev cc7_stg0_0 : Ref sig .tc := ⟨.vmem, 68, rfl⟩
abbrev cc7_stg0_1 : Ref sig .tc := ⟨.vmem, 69, rfl⟩
abbrev cc7_stg1_0 : Ref sig .tc := ⟨.vmem, 70, rfl⟩
abbrev cc7_stg1_1 : Ref sig .tc := ⟨.vmem, 71, rfl⟩
abbrev cc7_stg2_0 : Ref sig .tc := ⟨.vmem, 72, rfl⟩
abbrev cc7_stg2_1 : Ref sig .tc := ⟨.vmem, 73, rfl⟩
abbrev cc7_stg3_0 : Ref sig .tc := ⟨.vmem, 74, rfl⟩
abbrev cc7_stg3_1 : Ref sig .tc := ⟨.vmem, 75, rfl⟩
abbrev cc8_stg0_0 : Ref sig .tc := ⟨.vmem, 76, rfl⟩
abbrev cc8_stg0_1 : Ref sig .tc := ⟨.vmem, 77, rfl⟩
abbrev cc8_stg1_0 : Ref sig .tc := ⟨.vmem, 78, rfl⟩
abbrev cc8_stg2_0 : Ref sig .tc := ⟨.vmem, 79, rfl⟩
abbrev cc8_stg3_0 : Ref sig .tc := ⟨.vmem, 80, rfl⟩
abbrev cc8_stg4_0 : Ref sig .tc := ⟨.vmem, 81, rfl⟩
abbrev cc8_stg5_0 : Ref sig .tc := ⟨.vmem, 82, rfl⟩
abbrev cc8_stg5_1 : Ref sig .tc := ⟨.vmem, 83, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc4_sem0_0 : DmaSem sig := 38
abbrev cc4_sem0_1 : DmaSem sig := 39
abbrev cc4_sem1_0 : DmaSem sig := 40
abbrev cc4_sem2_0 : DmaSem sig := 41
abbrev cc4_sem3_0 : DmaSem sig := 42
abbrev cc4_sem3_1 : DmaSem sig := 43
abbrev cc4_sem4_0 : DmaSem sig := 44
abbrev cc4_sem4_1 : DmaSem sig := 45
abbrev cc4_sem5_0 : DmaSem sig := 46
abbrev cc4_sem5_1 : DmaSem sig := 47
abbrev cc5_sem0_0 : DmaSem sig := 48
abbrev cc5_sem0_1 : DmaSem sig := 49
abbrev cc5_sem1_0 : DmaSem sig := 50
abbrev cc5_sem1_1 : DmaSem sig := 51
abbrev cc5_sem2_0 : DmaSem sig := 52
abbrev cc5_sem2_1 : DmaSem sig := 53
abbrev cc5_sem3_0 : DmaSem sig := 54
abbrev cc5_sem3_1 : DmaSem sig := 55
abbrev cc5_sem4_0 : DmaSem sig := 56
abbrev cc5_sem4_1 : DmaSem sig := 57
abbrev cc6_sem0_0 : DmaSem sig := 58
abbrev cc6_sem0_1 : DmaSem sig := 59
abbrev cc6_sem1_0 : DmaSem sig := 60
abbrev cc6_sem1_1 : DmaSem sig := 61
abbrev cc6_sem2_0 : DmaSem sig := 62
abbrev cc6_sem2_1 : DmaSem sig := 63
abbrev cc6_sem3_0 : DmaSem sig := 64
abbrev cc6_sem3_1 : DmaSem sig := 65
abbrev cc6_sem4_0 : DmaSem sig := 66
abbrev cc6_sem4_1 : DmaSem sig := 67
abbrev cc7_sem0_0 : DmaSem sig := 68
abbrev cc7_sem0_1 : DmaSem sig := 69
abbrev cc7_sem1_0 : DmaSem sig := 70
abbrev cc7_sem1_1 : DmaSem sig := 71
abbrev cc7_sem2_0 : DmaSem sig := 72
abbrev cc7_sem2_1 : DmaSem sig := 73
abbrev cc7_sem3_0 : DmaSem sig := 74
abbrev cc7_sem3_1 : DmaSem sig := 75
abbrev cc8_sem0_0 : DmaSem sig := 76
abbrev cc8_sem0_1 : DmaSem sig := 77
abbrev cc8_sem1_0 : DmaSem sig := 78
abbrev cc8_sem2_0 : DmaSem sig := 79
abbrev cc8_sem3_0 : DmaSem sig := 80
abbrev cc8_sem4_0 : DmaSem sig := 81
abbrev cc8_sem5_0 : DmaSem sig := 82
abbrev cc8_sem5_1 : DmaSem sig := 83

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x192 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S2000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S2000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S2000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S2000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S2000x192 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x384 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S384x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S64x2 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x2 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S2000x2 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

class Facts₀ : Prop where
  shapeCasts_S64_S1x64 : S64.ShapeCasts S1x64
  shapeCasts_S2_S1x2 : S2.ShapeCasts S1x2
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bcast_S_S50000x64 : S_.BroadcastsInDim S50000x64 (![] : Fin 0 → Fin S50000x64.rank)
  inb_S2000x192_S2000x64_0_0 : ∀ a, (![0, 0] : Fin 2 → Nat) a + S2000x64.size a ≤ S2000x192.size a
  inb_S2000x192_S2000x64_0_64 : ∀ a, (![0, 64] : Fin 2 → Nat) a + S2000x64.size a ≤ S2000x192.size a
  inb_S2000x192_S2000x64_0_128 : ∀ a, (![0, 128] : Fin 2 → Nat) a + S2000x64.size a ≤ S2000x192.size a
  concatenates_S50000x192_S50000x192_S50000x384_d1 : Shape.Concatenates [S50000x192, S50000x192] S50000x384 1
  inb_S2000x384_S2000x384_0_0 : ∀ a, (![0, 0] : Fin 2 → Nat) a + S2000x384.size a ≤ S2000x384.size a
  h_S2000x384 : 0 < S2000x384.numel
  shapeCasts_S2000x384_S2000x384 : S2000x384.ShapeCasts S2000x384
  inb_S384x64_S384x64_0_0 : ∀ a, (![0, 0] : Fin 2 → Nat) a + S384x64.size a ≤ S384x64.size a
  h_S384x64 : 0 < S384x64.numel
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  scatter_S50000_S800000x1_S800000_n_0_0_1_wf : ScatterDims.WF S50000 S800000x1 S800000 [] [0] [0] 1
  dot_S2000x128_S128x64_S2000x64_1_0_0_1_n_n_wf : DotDims.WF S2000x128 S128x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x384_S384x64_S2000x64_1_0_0_1_n_n_wf : DotDims.WF S2000x384 S384x64 S2000x64 [1] [0] [0] [1] [] []
  dot_S2000x64_S64x2_S2000x2_1_0_0_1_n_n_wf : DotDims.WF S2000x64 S64x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S50000x64.size a
  hwx0_3 : ∀ i : grid0.Coords, EltTy.bits .f32 = 32 ∨ (Rect.block (s := S50000x64) S2000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x64.size a ≤ S50000x64.size a
  hwx0_4 : ∀ i : grid0.Coords, EltTy.bits .f32 = 32 ∨ (Rect.block (s := S50000x64) S2000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S50000x64.size a
  hwx0_5 : ∀ i : grid0.Coords, EltTy.bits .f32 = 32 ∨ (Rect.block (s := S50000x64) S2000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S50000x64.size a
  hwx1_3 : ∀ i : grid1.Coords, EltTy.bits .f32 = 32 ∨ (Rect.block (s := S50000x64) S2000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S50000x64.size a
  hwx1_4 : ∀ i : grid1.Coords, EltTy.bits .f32 = 32 ∨ (Rect.block (s := S50000x64) S2000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S50000x64.size a
  hwx2_1 : ∀ i : grid2.Coords, EltTy.bits .f32 = 32 ∨ (Rect.block (s := S50000x64) S2000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S50000x64.size a
  hwx2_3 : ∀ i : grid2.Coords, EltTy.bits .f32 = 32 ∨ (Rect.block (s := S50000x64) S2000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x64.size a ≤ S50000x64.size a
  hwx2_4 : ∀ i : grid2.Coords, EltTy.bits .f32 = 32 ∨ (Rect.block (s := S50000x64) S2000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S50000x64.size a
  hwx3_1 : ∀ i : grid3.Coords, EltTy.bits .f32 = 32 ∨ (Rect.block (s := S50000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x192.size a ≤ S50000x192.size a
  hwx3_3 : ∀ i : grid3.Coords, EltTy.bits .f32 = 32 ∨ (Rect.block (s := S50000x192) S2000x192.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x64.size a ≤ S50000x64.size a
  hwx4_3 : ∀ i : grid4.Coords, EltTy.bits .f32 = 32 ∨ (Rect.block (s := S50000x64) S2000x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x64.size a ≤ S50000x64.size a
  hwx4_4 : ∀ i : grid4.Coords, EltTy.bits .f32 = 32 ∨ (Rect.block (s := S50000x64) S2000x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x64.size a ≤ S50000x64.size a
  hwx4_5 : ∀ i : grid4.Coords, EltTy.bits .f32 = 32 ∨ (Rect.block (s := S50000x64) S2000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x64.size a ≤ S50000x64.size a
  hwx5_1 : ∀ i : grid5.Coords, EltTy.bits .f32 = 32 ∨ (Rect.block (s := S50000x64) S2000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x64.size a ≤ S50000x64.size a
  hwx5_2 : ∀ i : grid5.Coords, EltTy.bits .f32 = 32 ∨ (Rect.block (s := S50000x64) S2000x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x64.size a ≤ S50000x64.size a
  hwx5_3 : ∀ i : grid5.Coords, EltTy.bits .f32 = 32 ∨ (Rect.block (s := S50000x64) S2000x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x64.size a ≤ S50000x64.size a
  hwx5_4 : ∀ i : grid5.Coords, EltTy.bits .f32 = 32 ∨ (Rect.block (s := S50000x64) S2000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S50000x64.size a
  hwx6_0 : ∀ i : grid6.Coords, EltTy.bits .f32 = 32 ∨ (Rect.block (s := S50000x64) S2000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x64.size a ≤ S50000x64.size a
  hwx6_1 : ∀ i : grid6.Coords, EltTy.bits .f32 = 32 ∨ (Rect.block (s := S50000x64) S2000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x64.size a ≤ S50000x64.size a
  hwx6_2 : ∀ i : grid6.Coords, EltTy.bits .f32 = 32 ∨ (Rect.block (s := S50000x64) S2000x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x64.size a ≤ S50000x64.size a
  hwx6_3 : ∀ i : grid6.Coords, EltTy.bits .f32 = 32 ∨ (Rect.block (s := S50000x64) S2000x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x64.size a ≤ S50000x64.size a
  hwx6_4 : ∀ i : grid6.Coords, EltTy.bits .f32 = 32 ∨ (Rect.block (s := S50000x64) S2000x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x64.size a ≤ S50000x64.size a
  hwx7_0 : ∀ i : grid7.Coords, EltTy.bits .f32 = 32 ∨ (Rect.block (s := S50000x64) S2000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x64.size a ≤ S50000x64.size a
  hwx7_1 : ∀ i : grid7.Coords, EltTy.bits .f32 = 32 ∨ (Rect.block (s := S50000x64) S2000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x64.size a ≤ S50000x64.size a
  hwx7_2 : ∀ i : grid7.Coords, EltTy.bits .f32 = 32 ∨ (Rect.block (s := S50000x64) S2000x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x192.size a ≤ S50000x192.size a
  hwx7_3 : ∀ i : grid7.Coords, EltTy.bits .f32 = 32 ∨ (Rect.block (s := S50000x192) S2000x192.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x384.size a ≤ S50000x384.size a
  hwx8_0 : ∀ i : grid8.Coords, EltTy.bits .f32 = 32 ∨ (Rect.block (s := S50000x384) S2000x384.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S384x64.size a ≤ S384x64.size a
  hwx8_1 : ∀ i : grid8.Coords, EltTy.bits .f32 = 32 ∨ (Rect.block (s := S384x64) S384x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64x2.size a ≤ S64x2.size a
  hwx8_3 : ∀ i : grid8.Coords, EltTy.bits .f32 = 32 ∨ (Rect.block (s := S64x2) S64x2.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x2.size a ≤ S1x2.size a
  hwx8_4 : ∀ i : grid8.Coords, EltTy.bits .f32 = 32 ∨ (Rect.block (s := S1x2) S1x2.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S2000x2.size a ≤ S50000x2.size a
  hwx8_5 : ∀ i : grid8.Coords, EltTy.bits .f32 = 32 ∨ (Rect.block (s := S50000x2) S2000x2.size (cc8_transform_5 i) (hinb8_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x384_S384x64_S2000x64_1_0_0_1_n_n : DotDims S2000x384 S384x64 S2000x64 where
  lhsContracting := [1]
  rhsContracting := [0]
  lhsNonContracting := [0]
  rhsNonContracting := [1]
  lhsBatch := []
  rhsBatch := []
  wf := dot_S2000x384_S384x64_S2000x64_1_0_0_1_n_n_wf
def dot_S2000x64_S64x2_S2000x2_1_0_0_1_n_n : DotDims S2000x64 S64x2 S2000x2 where
  lhsContracting := [1]
  rhsContracting := [0]
  lhsNonContracting := [0]
  rhsNonContracting := [1]
  lhsBatch := []
  rhsBatch := []
  wf := dot_S2000x64_S64x2_S2000x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S2000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13_0) S2000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13_1) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v13_0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24_0) S2000x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v24_1) S2000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v24_0) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v34) S2000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35_0) S2000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v35_1) S2000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v13_0) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v24_0) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v35_0) S2000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v36) S2000x192.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg1) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v1) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v45) S2000x64.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v46_0) S2000x64.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v46_1) S2000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v46_0) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v45) S2000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v56) S2000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v57_0) S2000x64.size cc5_transform_3 reads5_3 true false 2 stage5_3 sem5_3
    hrank5 hreads5_3 hinb5_3 nbuf5_3 (Memref.isWhole_whole _) hwx5_3 hstage5_3

abbrev win5_4 : Pipeline.Window sig grid5 :=
  Pipeline.Window.ofSpec (Memref.whole main_v57_1) S2000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v57_0) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v45) S2000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v67) S2000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v68_0) S2000x64.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v68_1) S2000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v46_0) S2000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v57_0) S2000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v68_0) S2000x64.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v69) S2000x192.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v70) S2000x384.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg10) S384x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v2) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg12) S64x2.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v3) S1x2.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v71) S2000x2.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

class Facts : Prop extends Facts₀ where

variable [Facts]
-- ==== ReferenceIdeal.lean ====
abbrev S50000x128 : Shape := ⟨2, ![50000, 128]⟩
abbrev S800000 : Shape := ⟨1, ![800000]⟩
abbrev S128x64 : Shape := ⟨2, ![128, 64]⟩
abbrev S64 : Shape := ⟨1, ![64]⟩
abbrev S384x64 : Shape := ⟨2, ![384, 64]⟩
abbrev S64x2 : Shape := ⟨2, ![64, 2]⟩
abbrev S2 : Shape := ⟨1, ![2]⟩
abbrev S50000x64 : Shape := ⟨2, ![50000, 64]⟩
abbrev S1x64 : Shape := ⟨2, ![1, 64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S50000x192 : Shape := ⟨2, ![50000, 192]⟩
abbrev S50000x384 : Shape := ⟨2, ![50000, 384]⟩
abbrev S50000x2 : Shape := ⟨2, ![50000, 2]⟩
abbrev S1x2 : Shape := ⟨2, ![1, 2]⟩

abbrev nBuf : Space → Nat
  | .hbm => 366
  | .vmem => 0
  | .smem => 0
  | _ => 0

abbrev hbmTy0_0 (i : Nat) : BufTy := match i % 128 with
  | 0 => ⟨S50000x128, .f32⟩
  | 1 => ⟨S50000x128, .f32⟩
  | 2 => ⟨S800000, .i32⟩
  | 3 => ⟨S800000, .i32⟩
  | 4 => ⟨S800000, .i32⟩
  | 5 => ⟨S800000, .i32⟩
  | 6 => ⟨S128x64, .f32⟩
  | 7 => ⟨S64, .f32⟩
  | 8 => ⟨S128x64, .f32⟩
  | 9 => ⟨S64, .f32⟩
  | 10 => ⟨S384x64, .f32⟩
  | 11 => ⟨S64, .f32⟩
  | 12 => ⟨S64x2, .f32⟩
  | 13 => ⟨S2, .f32⟩
  | 14 => ⟨S50000x64, .f32⟩
  | 15 => ⟨S1x64, .f32⟩
  | 16 => ⟨S50000x64, .f32⟩
  | 17 => ⟨S50000x64, .f32⟩
  | 18 => ⟨S_, .f32⟩
  | 19 => ⟨S50000x64, .f32⟩
  | 20 => ⟨S50000x64, .f32⟩
  | 21 => ⟨S_, .f32⟩
  | 22 => ⟨S50000, .f32⟩
  | 23 => ⟨S_, .f32⟩
  | 24 => ⟨S800000, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S50000, .f32⟩
  | 34 => ⟨S_, .f32⟩
  | 35 => ⟨S_, .f32⟩
  | 36 => ⟨S50000, .f32⟩
  | 37 => ⟨S50000, .f32⟩
  | 38 => ⟨S_, .f32⟩
  | 39 => ⟨S50000, .f32⟩
  | 40 => ⟨S50000, .f32⟩
  | 41 => ⟨S50000x1, .f32⟩
  | 42 => ⟨S_, .f32⟩
  | 43 => ⟨S50000x64, .f32⟩
  | 44 => ⟨S50000x64, .f32⟩
  | 45 => ⟨S50000x64, .f32⟩
  | 46 => ⟨S50000x64, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x64, .f32⟩
  | 56 => ⟨S_, .f32⟩
  | 57 => ⟨S50000x64, .f32⟩
  | 58 => ⟨S800000x1, .i32⟩
  | 59 => ⟨S50000x64, .f32⟩
  | 60 => ⟨S50000x64, .f32⟩
  | 61 => ⟨S50000x64, .f32⟩
  | 62 => ⟨S50000x64, .f32⟩
  | 63 => ⟨S_, .f32⟩
  | 64 => ⟨S50000x64, .f32⟩
  | 65 => ⟨S50000x64, .f32⟩
  | 66 => ⟨S50000x64, .f32⟩
  | 67 => ⟨S50000x64, .f32⟩
  | 68 => ⟨S50000x64, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x64, .f32⟩
  | 78 => ⟨S_, .f32⟩
  | 79 => ⟨S50000x64, .f32⟩
  | 80 => ⟨S800000x1, .i32⟩
  | 81 => ⟨S50000x64, .f32⟩
  | 82 => ⟨S50000x64, .f32⟩
  | 83 => ⟨S50000x64, .f32⟩
  | 84 => ⟨S50000x64, .f32⟩
  | 85 => ⟨S_, .f32⟩
  | 86 => ⟨S50000x64, .f32⟩
  | 87 => ⟨S50000x64, .f32⟩
  | 88 => ⟨S50000x64, .f32⟩
  | 89 => ⟨S_, .f32⟩
  | 90 => ⟨S50000x64, .f32⟩
  | 91 => ⟨S50000x64, .f32⟩
  | 92 => ⟨S50000x64, .f32⟩
  | 93 => ⟨S50000x64, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x64, .f32⟩
  | 103 => ⟨S_, .f32⟩
  | 104 => ⟨S50000x64, .f32⟩
  | 105 => ⟨S800000x1, .i32⟩
  | 106 => ⟨S50000x64, .f32⟩
  | 107 => ⟨S50000x64, .f32⟩
  | 108 => ⟨S50000x64, .f32⟩
  | 109 => ⟨S50000x64, .f32⟩
  | 110 => ⟨S_, .f32⟩
  | 111 => ⟨S50000x64, .f32⟩
  | 112 => ⟨S50000x64, .f32⟩
  | 113 => ⟨S50000x64, .f32⟩
  | 114 => ⟨S50000x64, .f32⟩
  | 115 => ⟨S50000x64, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000x64, .f32⟩
  | 125 => ⟨S_, .f32⟩
  | 126 => ⟨S50000x64, .f32⟩
  | 127 => ⟨S800000x1, .i32⟩
  | _ => ⟨S50000x128, .f32⟩

abbrev hbmTy0_1 (i : Nat) : BufTy := match i % 128 with
  | 0 => ⟨S50000x64, .f32⟩
  | 1 => ⟨S50000x64, .f32⟩
  | 2 => ⟨S50000x64, .f32⟩
  | 3 => ⟨S50000x64, .f32⟩
  | 4 => ⟨S_, .f32⟩
  | 5 => ⟨S50000x64, .f32⟩
  | 6 => ⟨S50000x64, .f32⟩
  | 7 => ⟨S50000x64, .f32⟩
  | 8 => ⟨S_, .f32⟩
  | 9 => ⟨S50000x64, .f32⟩
  | 10 => ⟨S50000x64, .f32⟩
  | 11 => ⟨S50000x64, .f32⟩
  | 12 => ⟨S50000x64, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x64, .f32⟩
  | 22 => ⟨S_, .f32⟩
  | 23 => ⟨S50000x64, .f32⟩
  | 24 => ⟨S800000x1, .i32⟩
  | 25 => ⟨S50000x64, .f32⟩
  | 26 => ⟨S50000x64, .f32⟩
  | 27 => ⟨S50000x64, .f32⟩
  | 28 => ⟨S50000x64, .f32⟩
  | 29 => ⟨S_, .f32⟩
  | 30 => ⟨S50000x64, .f32⟩
  | 31 => ⟨S50000x64, .f32⟩
  | 32 => ⟨S50000x64, .f32⟩
  | 33 => ⟨S50000x64, .f32⟩
  | 34 => ⟨S50000x64, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x64, .f32⟩
  | 44 => ⟨S_, .f32⟩
  | 45 => ⟨S50000x64, .f32⟩
  | 46 => ⟨S800000x1, .i32⟩
  | 47 => ⟨S50000x64, .f32⟩
  | 48 => ⟨S50000x64, .f32⟩
  | 49 => ⟨S50000x64, .f32⟩
  | 50 => ⟨S50000x64, .f32⟩
  | 51 => ⟨S_, .f32⟩
  | 52 => ⟨S50000x64, .f32⟩
  | 53 => ⟨S50000x64, .f32⟩
  | 54 => ⟨S50000x64, .f32⟩
  | 55 => ⟨S50000x192, .f32⟩
  | 56 => ⟨S50000x64, .f32⟩
  | 57 => ⟨S1x64, .f32⟩
  | 58 => ⟨S50000x64, .f32⟩
  | 59 => ⟨S50000x64, .f32⟩
  | 60 => ⟨S_, .f32⟩
  | 61 => ⟨S50000x64, .f32⟩
  | 62 => ⟨S50000x64, .f32⟩
  | 63 => ⟨S_, .f32⟩
  | 64 => ⟨S50000, .f32⟩
  | 65 => ⟨S_, .f32⟩
  | 66 => ⟨S800000, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S50000, .f32⟩
  | 76 => ⟨S_, .f32⟩
  | 77 => ⟨S_, .f32⟩
  | 78 => ⟨S50000, .f32⟩
  | 79 => ⟨S50000, .f32⟩
  | 80 => ⟨S_, .f32⟩
  | 81 => ⟨S50000, .f32⟩
  | 82 => ⟨S50000, .f32⟩
  | 83 => ⟨S50000x1, .f32⟩
  | 84 => ⟨S_, .f32⟩
  | 85 => ⟨S50000x64, .f32⟩
  | 86 => ⟨S50000x64, .f32⟩
  | 87 => ⟨S50000x64, .f32⟩
  | 88 => ⟨S50000x64, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x64, .f32⟩
  | 98 => ⟨S_, .f32⟩
  | 99 => ⟨S50000x64, .f32⟩
  | 100 => ⟨S800000x1, .i32⟩
  | 101 => ⟨S50000x64, .f32⟩
  | 102 => ⟨S50000x64, .f32⟩
  | 103 => ⟨S50000x64, .f32⟩
  | 104 => ⟨S50000x64, .f32⟩
  | 105 => ⟨S_, .f32⟩
  | 106 => ⟨S50000x64, .f32⟩
  | 107 => ⟨S50000x64, .f32⟩
  | 108 => ⟨S50000x64, .f32⟩
  | 109 => ⟨S50000x64, .f32⟩
  | 110 => ⟨S50000x64, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x64, .f32⟩
  | 120 => ⟨S_, .f32⟩
  | 121 => ⟨S50000x64, .f32⟩
  | 122 => ⟨S800000x1, .i32⟩
  | 123 => ⟨S50000x64, .f32⟩
  | 124 => ⟨S50000x64, .f32⟩
  | 125 => ⟨S50000x64, .f32⟩
  | 126 => ⟨S50000x64, .f32⟩
  | 127 => ⟨S_, .f32⟩
  | _ => ⟨S50000x128, .f32⟩

abbrev hbmTy0_2 (i : Nat) : BufTy := match i % 128 with
  | 0 => ⟨S50000x64, .f32⟩
  | 1 => ⟨S50000x64, .f32⟩
  | 2 => ⟨S50000x64, .f32⟩
  | 3 => ⟨S_, .f32⟩
  | 4 => ⟨S50000x64, .f32⟩
  | 5 => ⟨S50000x64, .f32⟩
  | 6 => ⟨S50000x64, .f32⟩
  | 7 => ⟨S50000x64, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000x64, .f32⟩
  | 17 => ⟨S_, .f32⟩
  | 18 => ⟨S50000x64, .f32⟩
  | 19 => ⟨S800000x1, .i32⟩
  | 20 => ⟨S50000x64, .f32⟩
  | 21 => ⟨S50000x64, .f32⟩
  | 22 => ⟨S50000x64, .f32⟩
  | 23 => ⟨S50000x64, .f32⟩
  | 24 => ⟨S_, .f32⟩
  | 25 => ⟨S50000x64, .f32⟩
  | 26 => ⟨S50000x64, .f32⟩
  | 27 => ⟨S50000x64, .f32⟩
  | 28 => ⟨S50000x64, .f32⟩
  | 29 => ⟨S50000x64, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x64, .f32⟩
  | 39 => ⟨S_, .f32⟩
  | 40 => ⟨S50000x64, .f32⟩
  | 41 => ⟨S800000x1, .i32⟩
  | 42 => ⟨S50000x64, .f32⟩
  | 43 => ⟨S50000x64, .f32⟩
  | 44 => ⟨S50000x64, .f32⟩
  | 45 => ⟨S50000x64, .f32⟩
  | 46 => ⟨S_, .f32⟩
  | 47 => ⟨S50000x64, .f32⟩
  | 48 => ⟨S50000x64, .f32⟩
  | 49 => ⟨S50000x64, .f32⟩
  | 50 => ⟨S_, .f32⟩
  | 51 => ⟨S50000x64, .f32⟩
  | 52 => ⟨S50000x64, .f32⟩
  | 53 => ⟨S50000x64, .f32⟩
  | 54 => ⟨S50000x64, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x64, .f32⟩
  | 64 => ⟨S_, .f32⟩
  | 65 => ⟨S50000x64, .f32⟩
  | 66 => ⟨S800000x1, .i32⟩
  | 67 => ⟨S50000x64, .f32⟩
  | 68 => ⟨S50000x64, .f32⟩
  | 69 => ⟨S50000x64, .f32⟩
  | 70 => ⟨S50000x64, .f32⟩
  | 71 => ⟨S_, .f32⟩
  | 72 => ⟨S50000x64, .f32⟩
  | 73 => ⟨S50000x64, .f32⟩
  | 74 => ⟨S50000x64, .f32⟩
  | 75 => ⟨S50000x64, .f32⟩
  | 76 => ⟨S50000x64, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x64, .f32⟩
  | 86 => ⟨S_, .f32⟩
  | 87 => ⟨S50000x64, .f32⟩
  | 88 => ⟨S800000x1, .i32⟩
  | 89 => ⟨S50000x64, .f32⟩
  | 90 => ⟨S50000x64, .f32⟩
  | 91 => ⟨S50000x64, .f32⟩
  | 92 => ⟨S50000x64, .f32⟩
  | 93 => ⟨S_, .f32⟩
  | 94 => ⟨S50000x64, .f32⟩
  | 95 => ⟨S50000x64, .f32⟩
  | 96 => ⟨S50000x64, .f32⟩
  | 97 => ⟨S50000x192, .f32⟩
  | 98 => ⟨S50000x384, .f32⟩
  | 99 => ⟨S50000x64, .f32⟩
  | 100 => ⟨S1x64, .f32⟩
  | 101 => ⟨S50000x64, .f32⟩
  | 102 => ⟨S50000x64, .f32⟩
  | 103 => ⟨S_, .f32⟩
  | 104 => ⟨S50000x64, .f32⟩
  | 105 => ⟨S50000x64, .f32⟩
  | 106 => ⟨S50000x2, .f32⟩
  | 107 => ⟨S1x2, .f32⟩
  | 108 => ⟨S50000x2, .f32⟩
  | 109 => ⟨S50000x2, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_c : Ref sig .tc := ⟨.hbm, 25, rfl⟩
abbrev main_v7 : Ref sig .tc := ⟨.hbm, 26, rfl⟩
abbrev main_v8 : Ref sig .tc := ⟨.hbm, 27, rfl⟩
abbrev main_c_1 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_call1_v0 : Ref sig .tc := ⟨.hbm, 35, rfl⟩
abbrev main_call1_v1 : Ref sig .tc := ⟨.hbm, 36, rfl⟩
abbrev main_v14 : Ref sig .tc := ⟨.hbm, 37, rfl⟩
abbrev main_cst_3 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_4 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_5 : Ref sig .tc := ⟨.hbm, 47, rfl⟩
abbrev main_v22 : Ref sig .tc := ⟨.hbm, 48, rfl⟩
abbrev main_v23 : Ref sig .tc := ⟨.hbm, 49, rfl⟩
abbrev main_c_6 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_7 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_8 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_c_9 : Ref sig .tc := ⟨.hbm, 69, rfl⟩
abbrev main_v40 : Ref sig .tc := ⟨.hbm, 70, rfl⟩
abbrev main_v41 : Ref sig .tc := ⟨.hbm, 71, rfl⟩
abbrev main_c_10 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_11 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_12 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_13 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_c_14 : Ref sig .tc := ⟨.hbm, 94, rfl⟩
abbrev main_v60 : Ref sig .tc := ⟨.hbm, 95, rfl⟩
abbrev main_v61 : Ref sig .tc := ⟨.hbm, 96, rfl⟩
abbrev main_c_15 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_16 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_17 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_c_18 : Ref sig .tc := ⟨.hbm, 116, rfl⟩
abbrev main_v78 : Ref sig .tc := ⟨.hbm, 117, rfl⟩
abbrev main_v79 : Ref sig .tc := ⟨.hbm, 118, rfl⟩
abbrev main_c_19 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_20 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_21 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_22 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_c_23 : Ref sig .tc := ⟨.hbm, 141, rfl⟩
abbrev main_v98 : Ref sig .tc := ⟨.hbm, 142, rfl⟩
abbrev main_v99 : Ref sig .tc := ⟨.hbm, 143, rfl⟩
abbrev main_c_24 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_cst_25 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_cst_26 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_c_27 : Ref sig .tc := ⟨.hbm, 163, rfl⟩
abbrev main_v116 : Ref sig .tc := ⟨.hbm, 164, rfl⟩
abbrev main_v117 : Ref sig .tc := ⟨.hbm, 165, rfl⟩
abbrev main_c_28 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_cst_29 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_cst_30 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_call2_cst : Ref sig .tc := ⟨.hbm, 188, rfl⟩
abbrev main_call2_v0 : Ref sig .tc := ⟨.hbm, 189, rfl⟩
abbrev main_v137 : Ref sig .tc := ⟨.hbm, 190, rfl⟩
abbrev main_cst_31 : Ref sig .tc := ⟨.hbm, 191, rfl⟩
abbrev main_v138 : Ref sig .tc := ⟨.hbm, 192, rfl⟩
abbrev main_cst_32 : Ref sig .tc := ⟨.hbm, 193, rfl⟩
abbrev main_v139 : Ref sig .tc := ⟨.hbm, 194, rfl⟩
abbrev main_c_33 : Ref sig .tc := ⟨.hbm, 195, rfl⟩
abbrev main_v140 : Ref sig .tc := ⟨.hbm, 196, rfl⟩
abbrev main_v141 : Ref sig .tc := ⟨.hbm, 197, rfl⟩
abbrev main_c_34 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_cst_35 : Ref sig .tc := ⟨.hbm, 204, rfl⟩
abbrev main_call3_v0 : Ref sig .tc := ⟨.hbm, 205, rfl⟩
abbrev main_call3_v1 : Ref sig .tc := ⟨.hbm, 206, rfl⟩
abbrev main_v147 : Ref sig .tc := ⟨.hbm, 207, rfl⟩
abbrev main_cst_36 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_cst_37 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_c_38 : Ref sig .tc := ⟨.hbm, 217, rfl⟩
abbrev main_v155 : Ref sig .tc := ⟨.hbm, 218, rfl⟩
abbrev main_v156 : Ref sig .tc := ⟨.hbm, 219, rfl⟩
abbrev main_c_39 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_cst_40 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_cst_41 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_c_42 : Ref sig .tc := ⟨.hbm, 239, rfl⟩
abbrev main_v173 : Ref sig .tc := ⟨.hbm, 240, rfl⟩
abbrev main_v174 : Ref sig .tc := ⟨.hbm, 241, rfl⟩
abbrev main_c_43 : Ref sig .tc := ⟨.hbm, 242, rfl⟩
abbrev main_v175 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩
abbrev main_cst_44 : Ref sig .tc := ⟨.hbm, 248, rfl⟩
abbrev main_v180 : Ref sig .tc := ⟨.hbm, 249, rfl⟩
abbrev main_v181 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_cst_45 : Ref sig .tc := ⟨.hbm, 255, rfl⟩
abbrev main_v186 : Ref sig .tc := ⟨.hbm, 256, rfl⟩
abbrev main_v187 : Ref sig .tc := ⟨.hbm, 257, rfl⟩
abbrev main_v188 : Ref sig .tc := ⟨.hbm, 258, rfl⟩
abbrev main_cst_46 : Ref sig .tc := ⟨.hbm, 259, rfl⟩
abbrev main_v189 : Ref sig .tc := ⟨.hbm, 260, rfl⟩
abbrev main_v190 : Ref sig .tc := ⟨.hbm, 261, rfl⟩
abbrev main_v191 : Ref sig .tc := ⟨.hbm, 262, rfl⟩
abbrev main_v192 : Ref sig .tc := ⟨.hbm, 263, rfl⟩
abbrev main_c_47 : Ref sig .tc := ⟨.hbm, 264, rfl⟩
abbrev main_v193 : Ref sig .tc := ⟨.hbm, 265, rfl⟩
abbrev main_v194 : Ref sig .tc := ⟨.hbm, 266, rfl⟩
abbrev main_c_48 : Ref sig .tc := ⟨.hbm, 267, rfl⟩
abbrev main_v195 : Ref sig .tc := ⟨.hbm, 268, rfl⟩
abbrev main_v196 : Ref sig .tc := ⟨.hbm, 269, rfl⟩
abbrev main_v197 : Ref sig .tc := ⟨.hbm, 270, rfl⟩
abbrev main_v198 : Ref sig .tc := ⟨.hbm, 271, rfl⟩
abbrev main_v199 : Ref sig .tc := ⟨.hbm, 272, rfl⟩
abbrev main_cst_49 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_v205 : Ref sig .tc := ⟨.hbm, 279, rfl⟩
abbrev main_cst_50 : Ref sig .tc := ⟨.hbm, 280, rfl⟩
abbrev main_v206 : Ref sig .tc := ⟨.hbm, 281, rfl⟩
abbrev main_v207 : Ref sig .tc := ⟨.hbm, 282, rfl⟩
abbrev main_v208 : Ref sig .tc := ⟨.hbm, 283, rfl⟩
abbrev main_v209 : Ref sig .tc := ⟨.hbm, 284, rfl⟩
abbrev main_v210 : Ref sig .tc := ⟨.hbm, 285, rfl⟩
abbrev main_c_51 : Ref sig .tc := ⟨.hbm, 286, rfl⟩
abbrev main_v211 : Ref sig .tc := ⟨.hbm, 287, rfl⟩
abbrev main_v212 : Ref sig .tc := ⟨.hbm, 288, rfl⟩
abbrev main_c_52 : Ref sig .tc := ⟨.hbm, 289, rfl⟩
abbrev main_v213 : Ref sig .tc := ⟨.hbm, 290, rfl⟩
abbrev main_v214 : Ref sig .tc := ⟨.hbm, 291, rfl⟩
abbrev main_v215 : Ref sig .tc := ⟨.hbm, 292, rfl⟩
abbrev main_v216 : Ref sig .tc := ⟨.hbm, 293, rfl⟩
abbrev main_v217 : Ref sig .tc := ⟨.hbm, 294, rfl⟩
abbrev main_cst_53 : Ref sig .tc := ⟨.hbm, 295, rfl⟩
abbrev main_v218 : Ref sig .tc := ⟨.hbm, 296, rfl⟩
abbrev main_v219 : Ref sig .tc := ⟨.hbm, 297, rfl⟩
abbrev main_v220 : Ref sig .tc := ⟨.hbm, 298, rfl⟩
abbrev main_v221 : Ref sig .tc := ⟨.hbm, 299, rfl⟩
abbrev main_v222 : Ref sig .tc := ⟨.hbm, 300, rfl⟩
abbrev main_v223 : Ref sig .tc := ⟨.hbm, 301, rfl⟩
abbrev main_cst_54 : Ref sig .tc := ⟨.hbm, 302, rfl⟩
abbrev main_v224 : Ref sig .tc := ⟨.hbm, 303, rfl⟩
abbrev main_v225 : Ref sig .tc := ⟨.hbm, 304, rfl⟩
abbrev main_v226 : Ref sig .tc := ⟨.hbm, 305, rfl⟩
abbrev main_cst_55 : Ref sig .tc := ⟨.hbm, 306, rfl⟩
abbrev main_v227 : Ref sig .tc := ⟨.hbm, 307, rfl⟩
abbrev main_v228 : Ref sig .tc := ⟨.hbm, 308, rfl⟩
abbrev main_v229 : Ref sig .tc := ⟨.hbm, 309, rfl⟩
abbrev main_v230 : Ref sig .tc := ⟨.hbm, 310, rfl⟩
abbrev main_c_56 : Ref sig .tc := ⟨.hbm, 311, rfl⟩
abbrev main_v231 : Ref sig .tc := ⟨.hbm, 312, rfl⟩
abbrev main_v232 : Ref sig .tc := ⟨.hbm, 313, rfl⟩
abbrev main_c_57 : Ref sig .tc := ⟨.hbm, 314, rfl⟩
abbrev main_v233 : Ref sig .tc := ⟨.hbm, 315, rfl⟩
abbrev main_v234 : Ref sig .tc := ⟨.hbm, 316, rfl⟩
abbrev main_v235 : Ref sig .tc := ⟨.hbm, 317, rfl⟩
abbrev main_v236 : Ref sig .tc := ⟨.hbm, 318, rfl⟩
abbrev main_v237 : Ref sig .tc := ⟨.hbm, 319, rfl⟩
abbrev main_cst_58 : Ref sig .tc := ⟨.hbm, 320, rfl⟩
abbrev main_v238 : Ref sig .tc := ⟨.hbm, 321, rfl⟩
abbrev main_v239 : Ref sig .tc := ⟨.hbm, 322, rfl⟩
abbrev main_v240 : Ref sig .tc := ⟨.hbm, 323, rfl⟩
abbrev main_v241 : Ref sig .tc := ⟨.hbm, 324, rfl⟩
abbrev main_v242 : Ref sig .tc := ⟨.hbm, 325, rfl⟩
abbrev main_v243 : Ref sig .tc := ⟨.hbm, 326, rfl⟩
abbrev main_cst_59 : Ref sig .tc := ⟨.hbm, 327, rfl⟩
abbrev main_v244 : Ref sig .tc := ⟨.hbm, 328, rfl⟩
abbrev main_v245 : Ref sig .tc := ⟨.hbm, 329, rfl⟩
abbrev main_v246 : Ref sig .tc := ⟨.hbm, 330, rfl⟩
abbrev main_v247 : Ref sig .tc := ⟨.hbm, 331, rfl⟩
abbrev main_v248 : Ref sig .tc := ⟨.hbm, 332, rfl⟩
abbrev main_c_60 : Ref sig .tc := ⟨.hbm, 333, rfl⟩
abbrev main_v249 : Ref sig .tc := ⟨.hbm, 334, rfl⟩
abbrev main_v250 : Ref sig .tc := ⟨.hbm, 335, rfl⟩
abbrev main_c_61 : Ref sig .tc := ⟨.hbm, 336, rfl⟩
abbrev main_v251 : Ref sig .tc := ⟨.hbm, 337, rfl⟩
abbrev main_v252 : Ref sig .tc := ⟨.hbm, 338, rfl⟩
abbrev main_v253 : Ref sig .tc := ⟨.hbm, 339, rfl⟩
abbrev main_v254 : Ref sig .tc := ⟨.hbm, 340, rfl⟩
abbrev main_v255 : Ref sig .tc := ⟨.hbm, 341, rfl⟩
abbrev main_cst_62 : Ref sig .tc := ⟨.hbm, 342, rfl⟩
abbrev main_v256 : Ref sig .tc := ⟨.hbm, 343, rfl⟩
abbrev main_v257 : Ref sig .tc := ⟨.hbm, 344, rfl⟩
abbrev main_v258 : Ref sig .tc := ⟨.hbm, 345, rfl⟩
abbrev main_v259 : Ref sig .tc := ⟨.hbm, 346, rfl⟩
abbrev main_v260 : Ref sig .tc := ⟨.hbm, 347, rfl⟩
abbrev main_v261 : Ref sig .tc := ⟨.hbm, 348, rfl⟩
abbrev main_cst_63 : Ref sig .tc := ⟨.hbm, 349, rfl⟩
abbrev main_v262 : Ref sig .tc := ⟨.hbm, 350, rfl⟩
abbrev main_v263 : Ref sig .tc := ⟨.hbm, 351, rfl⟩
abbrev main_v264 : Ref sig .tc := ⟨.hbm, 352, rfl⟩
abbrev main_v265 : Ref sig .tc := ⟨.hbm, 353, rfl⟩
abbrev main_v266 : Ref sig .tc := ⟨.hbm, 354, rfl⟩
abbrev main_v267 : Ref sig .tc := ⟨.hbm, 355, rfl⟩
abbrev main_v268 : Ref sig .tc := ⟨.hbm, 356, rfl⟩
abbrev main_v269 : Ref sig .tc := ⟨.hbm, 357, rfl⟩
abbrev main_v270 : Ref sig .tc := ⟨.hbm, 358, rfl⟩
abbrev main_call4_cst : Ref sig .tc := ⟨.hbm, 359, rfl⟩
abbrev main_call4_v0 : Ref sig .tc := ⟨.hbm, 360, rfl⟩
abbrev main_v271 : Ref sig .tc := ⟨.hbm, 361, rfl⟩
abbrev main_v272 : Ref sig .tc := ⟨.hbm, 362, rfl⟩
abbrev main_v273 : Ref sig .tc := ⟨.hbm, 363, rfl⟩
abbrev main_v274 : Ref sig .tc := ⟨.hbm, 364, rfl⟩
abbrev main_v275 : Ref sig .tc := ⟨.hbm, 365, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x64_S50000x64_S50000x192_d1 : Shape.Concatenates [S50000x64, S50000x64, S50000x64] S50000x192 1
  concatenates_S50000x192_S50000x192_S50000x384_d1 : Shape.Concatenates [S50000x192, S50000x192] S50000x384 1
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  dot_S50000x128_S128x64_S50000x64_1_0_0_1_n_n_wf : DotDims.WF S50000x128 S128x64 S50000x64 [1] [0] [0] [1] [] []
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x384_S384x64_S50000x64_1_0_0_1_n_n_wf : DotDims.WF S50000x384 S384x64 S50000x64 [1] [0] [0] [1] [] []
  dot_S50000x64_S64x2_S50000x2_1_0_0_1_n_n_wf : DotDims.WF S50000x64 S64x2 S50000x2 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x384_S384x64_S50000x64_1_0_0_1_n_n : DotDims S50000x384 S384x64 S50000x64 where
  lhsContracting := [1]
  rhsContracting := [0]
  lhsNonContracting := [0]
  rhsNonContracting := [1]
  lhsBatch := []
  rhsBatch := []
  wf := dot_S50000x384_S384x64_S50000x64_1_0_0_1_n_n_wf
def dot_S50000x64_S64x2_S50000x2_1_0_0_1_n_n : DotDims S50000x64 S64x2 S50000x2 where
  lhsContracting := [1]
  rhsContracting := [0]
  lhsNonContracting := [0]
  rhsNonContracting := [1]
  lhsBatch := []
  rhsBatch := []
  wf := dot_S50000x64_S64x2_S50000x2_1_0_0_1_n_n_wf

class Facts : Prop extends Facts₀ where

variable [Facts]
-- ==== Proof.Spec.lean ====
/-
  The two programs' shared mathematics, stated once as whole-array functions (generic in the float family).

  A node feature table `h : [50000, 64]` is propagated over a graph of 800000 edges `(src e → dst e)`:
  with `deg v` the number of edges whose destination is `v` and `dinv v = max(1, deg v)^(-1/2)`,
  one propagation step is `f ↦ f - dinv · A (dinv · f)`, where `(A g) v = Σ_{e : dst e = v} g (src e)`
  (a row gather by `src`, with negative indices wrapped as array indexing does, then a scatter-add by `dst`).
  From `f0 = h`, `f1`, `f2` three linear combinations `θ_i0 f0 + θ_i1 f1 + θ_i2 f2` are laid side by side
  (192 columns); two such branches side by side give the 384 columns of the first result, and a two-layer
  perceptron over those columns gives the second.
-/
import proofs.«149625_j6124623364543_1_alg».proof.ReferenceIdeal
import proofs.«149625_j6124623364543_1_alg».proof.Proof.Gen.ReferenceIdeal
import Idealize.ShloMosaic.PureOps.Ideal

noncomputable section

namespace Cert.Spec

open Idealize.ShloMosaic Cert.ReferenceIdeal Cert.ReferenceIdeal.Facts₀ Cert.ReferenceIdeal.Facts

variable {F : FTy → Type} [FloatOps F]

/-- The constant table of value `w` (a bit pattern) over the feature shape. -/
def cst64 (w : BitVec 32) : FVec F S50000x64 .f32 :=
  broadcastInDim S50000x64 ![] bcast_S_S50000x64 (constant S_ .f32 w)

/-- A bias vector as one row. -/
def row64 (b : FVec F S64 .f32) : FVec F S1x64 .f32 := broadcastInDim S1x64 ![1] bcast_S64_S1x64_1 b
def row2 (b : FVec F S2 .f32) : FVec F S1x2 .f32 := broadcastInDim S1x2 ![1] bcast_S2_S1x2_1 b

/-- `relu (x · W + b)`, the bias given as one row. -/
def lin (x : FVec F S50000x128 .f32) (W : FVec F S128x64 .f32) (b : FVec F S1x64 .f32) : FVec F S50000x64 .f32 :=
  maximumf (addf (Host.dotGeneral dot_S50000x128_S128x64_S50000x64_1_0_0_1_n_n none x W)
    (broadcastInDim S50000x64 ![0, 1] bcast_S1x64_S50000x64_0_1 b)) (cst64 0x00000000#32)

/-- An index vector as one column. -/
def col (ix : IVec S800000 32) : IVec S800000x1 32 := broadcastInDim S800000x1 ![0] bcast_S800000_S800000x1_0 ix

/-- Array indexing's treatment of a negative index: `i < 0 ↦ i + 50000`. -/
def wrap (ix : IVec S800000 32) : IVec S800000 32 :=
  select (cmpi .slt ix (broadcastInDim S800000 ![] bcast_S_S800000 (constantI S_ 32 0#32)))
    (addi ix (broadcastInDim S800000 ![] bcast_S_S800000 (constantI S_ 32 50000#32))) ix

/-- In-degrees: ones scatter-added at the column of destination indices `ixc`. -/
def deg (ixc : IVec S800000x1 32) : FVec F S50000 .f32 :=
  Host.scatterAdd scatter_S50000_S800000x1_S800000_n_0_0_1
    (broadcastInDim S50000 ![] bcast_S_S50000 (constant S_ .f32 0x00000000#32)) ixc
    (broadcastInDim S800000 ![] bcast_S_S800000 (constant S_ .f32 0x3F800000#32))

/-- `max(1, deg)^(-1/2)`, one value per node, repeated along the 64 features. -/
def dinvb (d : FVec F S50000 .f32) : FVec F S50000x64 .f32 :=
  broadcastInDim S50000x64 ![0, 1] bcast_S50000x1_S50000x64_0_1
    (broadcastInDim S50000x1 ![0] bcast_S50000_S50000x1_0
      (Host.powf (maximumf (broadcastInDim S50000 ![] bcast_S_S50000 (constant S_ .f32 0x3F800000#32)) d)
        (broadcastInDim S50000 ![] bcast_S_S50000 (constant S_ .f32 0xBF000000#32))))

/-- The aggregation `A g`: rows of `g` gathered by `src` (wrapped), scatter-added by `dst`. -/
def agg (src dst : IVec S800000 32) (g : FVec F S50000x64 .f32) : FVec F S50000x64 .f32 :=
  Host.scatterAdd scatter_S50000x64_S800000x1_S800000x64_1_0_0_1 (cst64 0x00000000#32) (col dst)
    (Host.gather gather_S50000x64_S800000x1_S800000x64_1_0_n_n_0_1_164 g (col (wrap src)))

/-- `f · dinv` and one propagation step `f - a · dinv`. -/
def scale (f dinv : FVec F S50000x64 .f32) : FVec F S50000x64 .f32 := mulf f dinv
def step (f dinv a : FVec F S50000x64 .f32) : FVec F S50000x64 .f32 := subf f (mulf a dinv)

/-- `f1`, `f2` of the recurrence from `h`. -/
def f1 (h dinv : FVec F S50000x64 .f32) (src dst : IVec S800000 32) : FVec F S50000x64 .f32 :=
  step h dinv (agg src dst (scale h dinv))
def f2 (h dinv : FVec F S50000x64 .f32) (src dst : IVec S800000 32) : FVec F S50000x64 .f32 :=
  step (f1 h dinv src dst) dinv (agg src dst (scale (f1 h dinv src dst) dinv))

/-- `c0 f0 + c1 f1 + c2 f2`, grouped to the left. -/
def comb (c0 c1 c2 : BitVec 32) (g0 g1 g2 : FVec F S50000x64 .f32) : FVec F S50000x64 .f32 :=
  addf (addf (mulf (cst64 c0) g0) (mulf (cst64 c1) g1)) (mulf (cst64 c2) g2)

/-- Three feature tables side by side; two 192-column tables side by side. -/
def cat3 (a b c : FVec F S50000x64 .f32) : FVec F S50000x192 .f32 :=
  concatenate S50000x192 1 [⟨S50000x64, a⟩, ⟨S50000x64, b⟩, ⟨S50000x64, c⟩] concatenates_S50000x64_S50000x64_S50000x64_S50000x192_d1
def cat2 (a b : FVec F S50000x192 .f32) : FVec F S50000x384 .f32 :=
  concatenate S50000x384 1 [⟨S50000x192, a⟩, ⟨S50000x192, b⟩] concatenates_S50000x192_S50000x192_S50000x384_d1

/-- The first branch's three combinations (3, -3, 3/4 | 0, 3, -3/2 | 0, 0, 3/4) and the second's (all 4). -/
def combO (g0 g1 g2 : FVec F S50000x64 .f32) : FVec F S50000x192 .f32 :=
  cat3 (comb 0x40400000#32 0xC0400000#32 0x3F400000#32 g0 g1 g2)
       (comb 0x00000000#32 0x40400000#32 0xBFC00000#32 g0 g1 g2)
       (comb 0x00000000#32 0x00000000#32 0x3F400000#32 g0 g1 g2)
def combS (g0 g1 g2 : FVec F S50000x64 .f32) : FVec F S50000x192 .f32 :=
  cat3 (comb 0x40800000#32 0x40800000#32 0x40800000#32 g0 g1 g2)
       (comb 0x40800000#32 0x40800000#32 0x40800000#32 g0 g1 g2)
       (comb 0x40800000#32 0x40800000#32 0x40800000#32 g0 g1 g2)

/-- A whole branch from `h` and `dinv`. -/
def branchO (h dinv : FVec F S50000x64 .f32) (src dst : IVec S800000 32) : FVec F S50000x192 .f32 :=
  combO h (f1 h dinv src dst) (f2 h dinv src dst)
def branchS (h dinv : FVec F S50000x64 .f32) (src dst : IVec S800000 32) : FVec F S50000x192 .f32 :=
  combS h (f1 h dinv src dst) (f2 h dinv src dst)

/-- The perceptron `relu (h · W1 + b1) · W2 + b2`, the biases given as rows. -/
def mlp (h : FVec F S50000x384 .f32) (W1 : FVec F S384x64 .f32) (b1 : FVec F S1x64 .f32) (W2 : FVec F S64x2 .f32)
    (b2 : FVec F S1x2 .f32) : FVec F S50000x2 .f32 :=
  addf (Host.dotGeneral dot_S50000x64_S64x2_S50000x2_1_0_0_1_n_n none
      (maximumf (addf (Host.dotGeneral dot_S50000x384_S384x64_S50000x64_1_0_0_1_n_n none h W1)
        (broadcastInDim S50000x64 ![0, 1] bcast_S1x64_S50000x64_0_1 b1)) (cst64 0x00000000#32)) W2)
    (broadcastInDim S50000x2 ![0, 1] bcast_S1x2_S50000x2_0_1 b2)

/-- The first result: both branches side by side, `dinv` from a column of destination indices per branch
    (`dc`, `dc'`: the two programs differ in how they make that column). -/
def hall (x x' : FVec F S50000x128 .f32) (src dst src' dst' : IVec S800000 32) (dc dc' : IVec S800000x1 32)
    (W : FVec F S128x64 .f32) (b : FVec F S1x64 .f32) (W' : FVec F S128x64 .f32) (b' : FVec F S1x64 .f32) :
    FVec F S50000x384 .f32 :=
  cat2 (branchO (lin x W b) (dinvb (deg dc)) src dst) (branchS (lin x' W' b') (dinvb (deg dc')) src' dst')

end Cert.Spec

end
-- ==== Proof.KReg0.lean ====
import proofs.«149625_j6124623364543_1_alg».proof.Proof.Gen.KernelIdeal.Frame
import proofs.«149625_j6124623364543_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.KV

open Idealize.ShloMosaic Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! Region 0: `h = relu (x · W + b)` and `h · dinv`, by row blocks of 2000.

Both sides are read at one index as the same extended real: at row `r = 2000 t + p` and column `q`,
`max ((∑ k, x (r, k) · W (k, q)) + b (0, q)) 0`, times `dinv (r, q)` for the scaled array. The kernel's block
product accumulates into zero and its format changes are the identity on extended reals; the whole-array product
is the same sum. Every row lies in the block of point `r / 2000`, so the blocks written back make up the array. -/

/-- The matmul's left operand index on the row axis is the output's row. -/
theorem reg0_lhs_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
/-- … and on the contracted axis the contraction coordinate. -/
theorem reg0_lhs_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
/-- The right operand index on the contracted axis is the contraction coordinate … -/
theorem reg0_rhs_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
/-- … and on the column axis the output's column. -/
theorem reg0_rhs_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The block product into a zero accumulator, read at row `p`, column `q`: the sum over the 128 contracted
    coordinates of the left block's row times the right block's column. -/
theorem reg0_mm_apply (a : FVec Ideal S2000x128 .bf16) (b : FVec Ideal S128x64 .bf16) (p : Fin 2000) (q : Fin 64) :
    matmul dot_S2000x128_S128x64_S2000x64_1_0_0_1_n_n none a b (constant (F := Ideal) S2000x64 .f32 0x00000000#32) (ValueIdx.ix2 p q)
      = ∑ k : Fin 128, a (ValueIdx.ix2 p k) * b (ValueIdx.ix2 k q) := by
  simp only [matmul]
  rw [Ideal.matmul_constant_zero_apply, ← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx (ValueIdx.ix2 p q) ((ValueIdx.contrEquiv1 dot_S2000x128_S128x64_S2000x64_1_0_0_1_n_n 128 rfl rfl).symm k) = ValueIdx.ix2 p k := funext fun a => Fin.ext (by
    match a with
    | ⟨0, _⟩ => exact reg0_lhs_0 _ _
    | ⟨1, _⟩ => exact (reg0_lhs_1 _ _).trans hk)
  have er : dot_S2000x128_S128x64_S2000x64_1_0_0_1_n_n.rhsIdx (ValueIdx.ix2 p q) ((ValueIdx.contrEquiv1 dot_S2000x128_S128x64_S2000x64_1_0_0_1_n_n 128 rfl rfl).symm k) = ValueIdx.ix2 k q := funext fun a => Fin.ext (by
    match a with
    | ⟨0, _⟩ => exact (reg0_rhs_0 _ _).trans hk
    | ⟨1, _⟩ => exact reg0_rhs_1 _ _)
  rw [el, er]

/-- What the body stores into the `h` block, read at row `p`, column `q`: the positive part of the row of the
    left block times the column of the right block plus the bias row's entry at `q`. -/
theorem reg0_pay1_apply (x0 : Vec Ideal S2000x128 .f32) (x1 : Vec Ideal S128x64 .f32) (x2 : Vec Ideal S1x64 .f32)
    (p : Fin 2000) (q : Fin 64) :
    k0_pay1 x0 x1 x2 (ValueIdx.ix2 p q)
      = max ((∑ k : Fin 128, x0 (ValueIdx.ix2 p k) * x1 (ValueIdx.ix2 k q)) + x2 (ValueIdx.ix2 (0 : Fin 1) q)) 0 := by
  unfold k0_pay1
  show max (matmul dot_S2000x128_S128x64_S2000x64_1_0_0_1_n_n none (truncf .bf16 x0 bitsLt_bf16_f32) (truncf .bf16 x1 bitsLt_bf16_f32)
        (constant (F := Ideal) S2000x64 .f32 0x00000000#32) (ValueIdx.ix2 p q)
      + broadcastTo S2000x64 (shapeCast S1x64 (shapeCast S1x64 x2 shapeCasts_S1x64_S1x64) shapeCasts_S1x64_S1x64) broadcasts_S1x64_S2000x64 (ValueIdx.ix2 p q))
      (Ideal.ofBits .f32 0x00000000#32) = _
  rw [reg0_mm_apply, shapeCast_self, shapeCast_self, Ideal.ofBits_zero_f32,
    broadcastTo_apply x2 broadcasts_S1x64_S2000x64 (ValueIdx.ix2 p q) (ValueIdx.ix2 (0 : Fin 1) q) (fun a => by
      match a with
      | ⟨0, _⟩ => show (0 : Nat) = if (1 : Nat) = 1 then 0 else _; rw [if_pos rfl]
      | ⟨1, _⟩ => show q.val = if (64 : Nat) = 1 then 0 else q.val; rw [if_neg (by decide)])]
  rfl

/-- The reference product's left operand index on the row axis is the output's row. -/
theorem reg0_hlhs_0 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x64_S50000x64_1_0_0_1_n_n.lhsBatch by decide), dif_pos (show (0 : Fin Cert.ReferenceIdeal.S50000x128.rank) ∈ Cert.ReferenceIdeal.dot_S50000x128_S128x64_S50000x64_1_0_0_1_n_n.lhsNonContracting by decide)]
  rfl
/-- … and on the contracted axis the contraction coordinate. -/
theorem reg0_hlhs_1 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.lhsIdx i q 1).val = (q ⟨0, by decide⟩).val :=
  Cert.ReferenceIdeal.dot_S50000x128_S128x64_S50000x64_1_0_0_1_n_n.lhsIdx_val_of_single rfl i q
/-- Its right operand index on the contracted axis is the contraction coordinate … -/
theorem reg0_hrhs_0 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.rhsIdx i q 0).val = (q ⟨0, by decide⟩).val :=
  Cert.ReferenceIdeal.dot_S50000x128_S128x64_S50000x64_1_0_0_1_n_n.rhsIdx_val_of_single rfl i q
/-- … and on the column axis the output's column. -/
theorem reg0_hrhs_1 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.rhsIdx i q 1).val = (i 1).val := by
  unfold DotDims.rhsIdx
  rw [dif_neg (show ¬(1 : Fin Cert.ReferenceIdeal.S128x64.rank) ∈ Cert.ReferenceIdeal.dot_S50000x128_S128x64_S50000x64_1_0_0_1_n_n.rhsBatch by decide), dif_pos (show (1 : Fin Cert.ReferenceIdeal.S128x64.rank) ∈ Cert.ReferenceIdeal.dot_S50000x128_S128x64_S50000x64_1_0_0_1_n_n.rhsNonContracting by decide)]
  rfl

/-- The whole-array product read at row `r`, column `q`: the sum over the 128 contracted coordinates. -/
theorem reg0_dot_apply (x : FVec Ideal Cert.ReferenceIdeal.S50000x128 .f32) (W : FVec Ideal Cert.ReferenceIdeal.S128x64 .f32)
    (r : Fin 50000) (q : Fin 64) :
    Host.dotGeneral Cert.ReferenceIdeal.dot_S50000x128_S128x64_S50000x64_1_0_0_1_n_n none x W (ValueIdx.ix2 r q)
      = ∑ k : Fin 128, x (ValueIdx.ix2 r k) * W (ValueIdx.ix2 k q) := by
  simp only [Host.dotGeneral]
  rw [Ideal.dotGeneral_apply, ← Equiv.sum_comp (ValueIdx.contrEquiv1 Cert.ReferenceIdeal.dot_S50000x128_S128x64_S50000x64_1_0_0_1_n_n 128 rfl rfl).symm]
  refine Finset.sum_congr rfl fun k _ => ?_
  have hk := ValueIdx.contrEquiv1_symm_val Cert.ReferenceIdeal.dot_S50000x128_S128x64_S50000x64_1_0_0_1_n_n 128 rfl rfl k
  have el : Cert.ReferenceIdeal.dot_S50000x128_S128x64_S50000x64_1_0_0_1_n_n.lhsIdx (ValueIdx.ix2 r q) ((ValueIdx.contrEquiv1 Cert.ReferenceIdeal.dot_S50000x128_S128x64_S50000x64_1_0_0_1_n_n 128 rfl rfl).symm k) = ValueIdx.ix2 r k := funext fun a => Fin.ext (by
    match a with
    | ⟨0, _⟩ => exact reg0_hlhs_0 _ _
    | ⟨1, _⟩ => exact (reg0_hlhs_1 _ _).trans hk)
  have er : Cert.ReferenceIdeal.dot_S50000x128_S128x64_S50000x64_1_0_0_1_n_n.rhsIdx (ValueIdx.ix2 r q) ((ValueIdx.contrEquiv1 Cert.ReferenceIdeal.dot_S50000x128_S128x64_S50000x64_1_0_0_1_n_n 128 rfl rfl).symm k) = ValueIdx.ix2 k q := funext fun a => Fin.ext (by
    match a with
    | ⟨0, _⟩ => exact (reg0_hrhs_0 _ _).trans hk
    | ⟨1, _⟩ => exact reg0_hrhs_1 _ _)
  rw [el, er]

/-- The whole-array `relu (x · W + b)` read at row `r`, column `q`. -/
theorem reg0_lin_apply (x : FVec Ideal Cert.ReferenceIdeal.S50000x128 .f32) (W : FVec Ideal Cert.ReferenceIdeal.S128x64 .f32)
    (b : FVec Ideal Cert.ReferenceIdeal.S1x64 .f32) (r : Fin 50000) (q : Fin 64) :
    Cert.Spec.lin (F := Ideal) x W b (ValueIdx.ix2 r q)
      = max ((∑ k : Fin 128, x (ValueIdx.ix2 r k) * W (ValueIdx.ix2 k q)) + b (ValueIdx.ix2 (0 : Fin 1) q)) 0 := by
  unfold Cert.Spec.lin Cert.Spec.cst64
  show max (Host.dotGeneral Cert.ReferenceIdeal.dot_S50000x128_S128x64_S50000x64_1_0_0_1_n_n none x W (ValueIdx.ix2 r q)
      + broadcastInDim Cert.ReferenceIdeal.S50000x64 ![0, 1] _ b (ValueIdx.ix2 r q))
      (broadcastInDim Cert.ReferenceIdeal.S50000x64 ![] _ (constant (F := Ideal) Cert.ReferenceIdeal.S_ .f32 0x00000000#32) (ValueIdx.ix2 r q)) = _
  rw [reg0_dot_apply,
    broadcastInDim_apply _ _ b (ValueIdx.ix2 r q) (ValueIdx.ix2 (0 : Fin 1) q) (fun a => by
      match a with
      | ⟨0, _⟩ => show (0 : Nat) = if (1 : Nat) = 1 then 0 else _; rw [if_pos rfl]
      | ⟨1, _⟩ => show q.val = if (64 : Nat) = 1 then 0 else q.val; rw [if_neg (by decide)]),
    broadcastInDim_apply _ _ (constant (F := Ideal) Cert.ReferenceIdeal.S_ .f32 0x00000000#32) (ValueIdx.ix2 r q) (fun a => a.elim0) (fun a => a.elim0)]
  show max _ (Ideal.ofBits .f32 0x00000000#32) = _
  rw [Ideal.ofBits_zero_f32]

theorem reg0_hz : (![0, 0] : Fin 2 → Nat) = fun _ => 0 := funext fun a => by fin_cases a <;> rfl

/-- The block index maps over the grid: the row-blocked windows are at block `t` of the rows, the whole-array
    windows at block 0. -/
theorem reg0_idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row `p` of block `t` is a row of the array. -/
theorem reg0_row_lt (t : Fin cfg0.N) (p : Fin 2000) : 2000 * t.val + p.val < 50000 := by
  have ht : t.val < 25 := Nat.lt_of_lt_of_eq t.isLt (N_0 : cfg0.N = 25)
  have := p.isLt
  omega

/-- The block of `x` at point `t` is rows `2000 t … 2000 t + 1999` of `x`. -/
theorem reg0_blk0_apply (c : Dev nD) (t : Fin cfg0.N) (p : Fin 2000) (k : Fin 128) :
    (iblk0 V c 0 t : Vec Ideal S2000x128 .f32) (ValueIdx.ix2 p k)
      = (V c main_arg0 : S50000x128.Idx → Ideal .f32) (ValueIdx.ix2 ⟨2000 * t.val + p.val, reg0_row_lt t p⟩ k) := by
  obtain ⟨e0, e1, -⟩ := reg0_idx_facts t
  unfold iblk0
  rw [View.read_apply]
  show V c main_arg0 _ = V c main_arg0 _
  congr 1
  funext a
  apply Fin.ext
  match a with
  | ⟨0, _⟩ => show win0_0.index t (0 : Fin 2) * 2000 + 1 * p.val = 2000 * t.val + p.val; rw [e0]; omega
  | ⟨1, _⟩ => show win0_0.index t (1 : Fin 2) * 128 + 1 * k.val = k.val; rw [e1]; omega

/-- The block of `W` at every point is `W`. -/
theorem reg0_blk1_apply (c : Dev nD) (t : Fin cfg0.N) (k : Fin 128) (q : Fin 64) :
    (iblk0 V c 1 t : Vec Ideal S128x64 .f32) (ValueIdx.ix2 k q)
      = (V c main_arg6 : S128x64.Idx → Ideal .f32) (ValueIdx.ix2 k q) := by
  obtain ⟨-, -, e0, e1, -⟩ := reg0_idx_facts t
  unfold iblk0
  rw [View.read_apply]
  show V c main_arg6 _ = V c main_arg6 _
  congr 1
  funext a
  apply Fin.ext
  match a with
  | ⟨0, _⟩ => show win0_1.index t (0 : Fin 2) * 128 + 1 * k.val = k.val; rw [e0]; omega
  | ⟨1, _⟩ => show win0_1.index t (1 : Fin 2) * 64 + 1 * q.val = q.val; rw [e1]; omega

/-- The block of the bias row at every point is the bias row. -/
theorem reg0_blk2_apply (c : Dev nD) (t : Fin cfg0.N) (z : Fin 1) (q : Fin 64) :
    (iblk0 V c 2 t : Vec Ideal S1x64 .f32) (ValueIdx.ix2 z q)
      = (V c main_v0 : S1x64.Idx → Ideal .f32) (ValueIdx.ix2 z q) := by
  obtain ⟨-, -, -, -, e0, e1, -⟩ := reg0_idx_facts t
  unfold iblk0
  rw [View.read_apply]
  show V c main_v0 _ = V c main_v0 _
  congr 1
  funext a
  apply Fin.ext
  match a with
  | ⟨0, _⟩ => show win0_2.index t (0 : Fin 2) * 1 + 1 * z.val = z.val; rw [e0]; omega
  | ⟨1, _⟩ => show win0_2.index t (1 : Fin 2) * 64 + 1 * q.val = q.val; rw [e1]; omega

/-- The block of `dinv` at point `t` is rows `2000 t … 2000 t + 1999` of `dinv`. -/
theorem reg0_blk3_apply (c : Dev nD) (t : Fin cfg0.N) (p : Fin 2000) (q : Fin 64) :
    (iblk0 V c 3 t : Vec Ideal S2000x64 .f32) (ValueIdx.ix2 p q)
      = (V c main_v12 : S50000x64.Idx → Ideal .f32) (ValueIdx.ix2 ⟨2000 * t.val + p.val, reg0_row_lt t p⟩ q) := by
  obtain ⟨-, -, -, -, -, -, e0, e1, -⟩ := reg0_idx_facts t
  unfold iblk0
  rw [View.read_apply]
  show V c main_v12 _ = V c main_v12 _
  congr 1
  funext a
  apply Fin.ext
  match a with
  | ⟨0, _⟩ => show win0_3.index t (0 : Fin 2) * 2000 + 1 * p.val = 2000 * t.val + p.val; rw [e0]; omega
  | ⟨1, _⟩ => show win0_3.index t (1 : Fin 2) * 64 + 1 * q.val = q.val; rw [e1]; omega

/-- WHAT POINT `t` WRITES BACK to `h` is block `t` of `relu (x · W + b)` of the arrays as the region finds them. -/
theorem reg0_flushed_h (c : Dev nD) (t : Fin cfg0.N) :
    (dat0 V c).flushed 4 t = ((cfg0.win 4).blk t).view.read (Elt Ideal)
      (Cert.Spec.lin (F := Ideal) (V c main_arg0) (V c main_arg6) (V c main_v0)) := by
  show (cfg0.win 4).cut (grid0.coords t) ((dat0 V c).after 4 t) = _
  rw [after0_4]
  unfold out0_4
  rw [View.canon_unit_zero reg0_hz]
  simp only [View.ld_unit_zero (S := S2000x128) reg0_hz, View.ld_unit_zero (S := S128x64) reg0_hz, View.ld_unit_zero (S := S1x64) reg0_hz]
  funext y
  obtain ⟨p, q, rfl⟩ : ∃ (p : Fin 2000) (q : Fin 64), y = ValueIdx.ix2 p q := ⟨y 0, y 1, ValueIdx.eq_ix2 y⟩
  obtain ⟨-, -, -, -, -, -, -, -, e0, e1, -⟩ := reg0_idx_facts t
  have hemb : ((cfg0.win 4).blk t).view.emb (ValueIdx.ix2 p q) = ValueIdx.ix2 ⟨2000 * t.val + p.val, reg0_row_lt t p⟩ q := by
    funext a
    apply Fin.ext
    match a with
    | ⟨0, _⟩ => show win0_4.index t (0 : Fin 2) * 2000 + 1 * p.val = 2000 * t.val + p.val; rw [e0]; omega
    | ⟨1, _⟩ => show win0_4.index t (1 : Fin 2) * 64 + 1 * q.val = q.val; rw [e1]; omega
  refine (reg0_pay1_apply (iblk0 V c 0 t) (iblk0 V c 1 t) (iblk0 V c 2 t) p q).trans ?_
  show _ = Cert.Spec.lin (F := Ideal) (V c main_arg0) (V c main_arg6) (V c main_v0) (((cfg0.win 4).blk t).view.emb (ValueIdx.ix2 p q))
  rw [hemb, reg0_lin_apply, reg0_blk2_apply]
  simp only [reg0_blk0_apply, reg0_blk1_apply]

/-- An index of the array is in point `t`'s block of `h` iff each coordinate is in the block's range on its axis. -/
theorem reg0_mem_blk4 (t : Fin cfg0.N) (i : S50000x64.Idx) :
    i ∈ ((cfg0.win 4).blk t).view.set ↔ ∀ a : Fin 2, win0_4.index t a * S2000x64.size a ≤ (i a).val ∧ (i a).val < win0_4.index t a * S2000x64.size a + S2000x64.size a := by
  show i ∈ ((View.whole main_v13_0).slice (win0_4.rect t)).set ↔ _
  rw [View.set_slice_whole, Rect.mem_set_unit]
  exact Iff.rfl

/-- Every row `r` of `h` is in the block of point `r / 2000`. -/
theorem reg0_cover4 (i : S50000x64.Idx) :
    ∃ t : Fin cfg0.N, (cfg0.win 4).flush t = true ∧ i ∈ ((cfg0.win 4).blk t).view.set := by
  have hi0 : (i 0).val < 50000 := (i 0).isLt
  have hi1 : (i 1).val < 64 := (i 1).isLt
  have hN : cfg0.N = 25 := N_0
  have ht : (i 0).val / 2000 < cfg0.N := by rw [hN]; omega
  obtain ⟨-, -, -, -, -, -, -, -, e0, e1, -⟩ := reg0_idx_facts ⟨(i 0).val / 2000, ht⟩
  refine ⟨⟨(i 0).val / 2000, ht⟩, flush0_4 _, ?_⟩
  rw [reg0_mem_blk4]
  intro a
  match a with
  | ⟨0, _⟩ =>
    show win0_4.index ⟨(i 0).val / 2000, ht⟩ (0 : Fin 2) * 2000 ≤ (i 0).val ∧ (i 0).val < win0_4.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_4.index ⟨(i 0).val / 2000, ht⟩ (1 : Fin 2) * 64 ≤ (i 1).val ∧ (i 1).val < win0_4.index ⟨(i 0).val / 2000, ht⟩ (1 : Fin 2) * 64 + 64
    rw [e1]; omega

/-- The `h` array after the region: `relu (x · W + b)` of the arrays as the region finds them. -/
theorem reg0_h (c : Dev nD) :
    (dat0 V c).arrAt 4 cfg0.N = Cert.Spec.lin (F := Ideal) (V c main_arg0) (V c main_arg6) (V c main_v0) :=
  (dat0 V c).arrAt_eq_of_cover 4 _ (fun t _ => reg0_flushed_h V c t) reg0_cover4

/-- What the body stores into the scaled block, read at row `p`, column `q`: the `h` block's entry times `dinv`'s. -/
theorem reg0_pay2_apply (x0 : Vec Ideal S2000x128 .f32) (x1 : Vec Ideal S128x64 .f32) (x2 : Vec Ideal S1x64 .f32)
    (x3 : Vec Ideal S2000x64 .f32) (p : Fin 2000) (q : Fin 64) :
    k0_pay2 x0 x1 x2 x3 (ValueIdx.ix2 p q)
      = max ((∑ k : Fin 128, x0 (ValueIdx.ix2 p k) * x1 (ValueIdx.ix2 k q)) + x2 (ValueIdx.ix2 (0 : Fin 1) q)) 0
        * x3 (ValueIdx.ix2 p q) := by
  unfold k0_pay2
  show k0_pay1 x0 x1 x2 (ValueIdx.ix2 p q) * shapeCast S2000x64 x3 shapeCasts_S2000x64_S2000x64 (ValueIdx.ix2 p q) = _
  rw [reg0_pay1_apply, shapeCast_self]

/-- WHAT POINT `t` WRITES BACK to the scaled array is block `t` of `relu (x · W + b) · dinv`. -/
theorem reg0_flushed_s (c : Dev nD) (t : Fin cfg0.N) :
    (dat0 V c).flushed 5 t = ((cfg0.win 5).blk t).view.read (Elt Ideal)
      (Cert.Spec.scale (F := Ideal) (Cert.Spec.lin (F := Ideal) (V c main_arg0) (V c main_arg6) (V c main_v0)) (V c main_v12)) := by
  show (cfg0.win 5).cut (grid0.coords t) ((dat0 V c).after 5 t) = _
  rw [after0_5]
  unfold out0_5
  rw [View.canon_unit_zero reg0_hz]
  simp only [View.ld_unit_zero (S := S2000x128) reg0_hz, View.ld_unit_zero (S := S128x64) reg0_hz, View.ld_unit_zero (S := S1x64) reg0_hz, View.ld_unit_zero (S := S2000x64) reg0_hz]
  funext y
  obtain ⟨p, q, rfl⟩ : ∃ (p : Fin 2000) (q : Fin 64), y = ValueIdx.ix2 p q := ⟨y 0, y 1, ValueIdx.eq_ix2 y⟩
  obtain ⟨-, -, -, -, -, -, -, -, -, -, e0, e1⟩ := reg0_idx_facts t
  have hemb : ((cfg0.win 5).blk t).view.emb (ValueIdx.ix2 p q) = ValueIdx.ix2 ⟨2000 * t.val + p.val, reg0_row_lt t p⟩ q := by
    funext a
    apply Fin.ext
    match a with
    | ⟨0, _⟩ => show win0_5.index t (0 : Fin 2) * 2000 + 1 * p.val = 2000 * t.val + p.val; rw [e0]; omega
    | ⟨1, _⟩ => show win0_5.index t (1 : Fin 2) * 64 + 1 * q.val = q.val; rw [e1]; omega
  refine (reg0_pay2_apply (iblk0 V c 0 t) (iblk0 V c 1 t) (iblk0 V c 2 t) (iblk0 V c 3 t) p q).trans ?_
  show _ = Cert.Spec.lin (F := Ideal) (V c main_arg0) (V c main_arg6) (V c main_v0) (((cfg0.win 5).blk t).view.emb (ValueIdx.ix2 p q))
      * (V c main_v12 : S50000x64.Idx → Ideal .f32) (((cfg0.win 5).blk t).view.emb (ValueIdx.ix2 p q))
  rw [hemb, reg0_lin_apply, reg0_blk2_apply, reg0_blk3_apply]
  simp only [reg0_blk0_apply, reg0_blk1_apply]

/-- An index of the array is in point `t`'s block of the scaled array iff each coordinate is in the block's range on its axis. -/
theorem reg0_mem_blk5 (t : Fin cfg0.N) (i : S50000x64.Idx) :
    i ∈ ((cfg0.win 5).blk t).view.set ↔ ∀ a : Fin 2, win0_5.index t a * S2000x64.size a ≤ (i a).val ∧ (i a).val < win0_5.index t a * S2000x64.size a + S2000x64.size a := by
  show i ∈ ((View.whole main_v13_1).slice (win0_5.rect t)).set ↔ _
  rw [View.set_slice_whole, Rect.mem_set_unit]
  exact Iff.rfl

/-- Every row `r` of the scaled array is in the block of point `r / 2000`. -/
theorem reg0_cover5 (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  have hN : cfg0.N = 25 := N_0
  have ht : (i 0).val / 2000 < cfg0.N := by rw [hN]; omega
  obtain ⟨-, -, -, -, -, -, -, -, -, -, e0, e1⟩ := reg0_idx_facts ⟨(i 0).val / 2000, ht⟩
  refine ⟨⟨(i 0).val / 2000, ht⟩, flush0_5 _, ?_⟩
  rw [reg0_mem_blk5]
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, ht⟩ (1 : Fin 2) * 64 ≤ (i 1).val ∧ (i 1).val < win0_5.index ⟨(i 0).val / 2000, ht⟩ (1 : Fin 2) * 64 + 64
    rw [e1]; omega

/-- The scaled array after the region: `relu (x · W + b) · dinv` of the arrays as the region finds them. -/
theorem reg0_s (c : Dev nD) :
    (dat0 V c).arrAt 5 cfg0.N = Cert.Spec.scale (F := Ideal) (Cert.Spec.lin (F := Ideal) (V c main_arg0) (V c main_arg6) (V c main_v0)) (V c main_v12) :=
  (dat0 V c).arrAt_eq_of_cover 5 _ (fun t _ => reg0_flushed_s V c t) reg0_cover5

end Cert.KernelIdeal.KV

end
-- ==== Proof.KReg1.lean ====
import proofs.«149625_j6124623364543_1_alg».proof.Proof.Gen.KernelIdeal.Frame
import proofs.«149625_j6124623364543_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.KV

open Idealize.ShloMosaic Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## Region 1: one propagation step, `f ↦ f - a · d`, and that times `d`, block by block

The grid has 25 points; at point `t` every window holds rows `2000 t … 2000 t + 1999` of its array (all 64 columns).
The body loads the three input blocks whole and stores `f - a · d` whole into the first output block and
`(f - a · d) · d` whole into the second. So what a point writes back is its block of the whole-array function, and
the 25 blocks tile the 50000 rows. -/

/-- The two zero offsets of a whole-block access, as the constant-zero function. -/
theorem reg1_zero : (![0, 0] : Fin 2 → Nat) = fun _ => 0 := funext fun a => by fin_cases a <;> rfl

/-- The first payload: its shape casts are between equal shapes, so it is `f - a · d` of the loaded blocks. -/
theorem reg1_pay_f (x0 x1 x2 : Vec Ideal S2000x64 .f32) : k1_pay2 x0 x1 x2 = subf x0 (mulf x2 x1) := by
  unfold k1_pay2 k1_pay1
  simp only [shapeCast_self]

/-- The second payload is the first times `d`. -/
theorem reg1_pay_s (x0 x1 x2 : Vec Ideal S2000x64 .f32) : k1_pay3 x0 x1 x2 = mulf (subf x0 (mulf x2 x1)) x1 := by
  unfold k1_pay3 k1_pay1
  rw [reg1_pay_f]
  simp only [shapeCast_self]

/-- All five windows walk the rows together: at grid point `t` each one's block index is `(t, 0)`
    (the printed index maps, evaluated at the 25 points). -/
theorem reg1_idx : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0) :=
  (by decide +kernel : ∀ t : Fin grid1.N, _)

/-- One element of a step: with the three arrays read at one and the same index, `f - a · d` there. -/
theorem reg1_pt_f (A B C : FVec Ideal S50000x64 .f32) (i0 i1 i2 i : S50000x64.Idx) (e0 : i0 = i) (e1 : i1 = i)
    (e2 : i2 = i) : (A i0 : EReal) - C i2 * B i1 = Cert.Spec.step (F := Ideal) A B C i := by
  subst e0 e1 e2; rfl

/-- One element of the scaled step: that difference times `d` at the same index. -/
theorem reg1_pt_s (A B C : FVec Ideal S50000x64 .f32) (i0 i1 i2 i : S50000x64.Idx) (e0 : i0 = i) (e1 : i1 = i)
    (e2 : i2 = i) :
    ((A i0 : EReal) - C i2 * B i1) * B i1 = Cert.Spec.scale (F := Ideal) (Cert.Spec.step (F := Ideal) A B C) B i := by
  subst e0 e1 e2; rfl

/-- What grid point `t` writes back to the first output array is block `t` of the whole-array step: each input
    block sits in its array exactly where the output block sits in its own. -/
theorem reg1_flushed_f (c : Dev nD) (t : Fin cfg1.N) :
    (dat1 V c).flushed 3 t = ((cfg1.win 3).blk t).view.read (Elt Ideal)
      (Cert.Spec.step (F := Ideal) (V c main_v13_0) (V c main_v12) (V c main_v23)) := by
  show (cfg1.win 3).cut (grid1.coords t) ((dat1 V c).after 3 t) = _
  rw [after1_3]
  unfold out1_3
  rw [View.canon_unit_zero reg1_zero]
  simp only [View.ld_unit_zero (S := S2000x64) reg1_zero]
  rw [reg1_pay_f]
  obtain ⟨⟨a0, b0⟩, ⟨a1, b1⟩, ⟨a2, b2⟩, ⟨a3, b3⟩, -⟩ := reg1_idx t
  funext j
  have h0 : ((cfg1.win 0).blk t).view.emb j = ((cfg1.win 3).blk t).view.emb j := by
    funext a; apply Fin.ext
    match a with
    | ⟨0, _⟩ => show win1_0.index t (0 : Fin 2) * 2000 + 1 * (j 0).val = win1_3.index t (0 : Fin 2) * 2000 + 1 * (j 0).val; omega
    | ⟨1, _⟩ => show win1_0.index t (1 : Fin 2) * 64 + 1 * (j 1).val = win1_3.index t (1 : Fin 2) * 64 + 1 * (j 1).val; omega
  have h1 : ((cfg1.win 1).blk t).view.emb j = ((cfg1.win 3).blk t).view.emb j := by
    funext a; apply Fin.ext
    match a with
    | ⟨0, _⟩ => show win1_1.index t (0 : Fin 2) * 2000 + 1 * (j 0).val = win1_3.index t (0 : Fin 2) * 2000 + 1 * (j 0).val; omega
    | ⟨1, _⟩ => show win1_1.index t (1 : Fin 2) * 64 + 1 * (j 1).val = win1_3.index t (1 : Fin 2) * 64 + 1 * (j 1).val; omega
  have h2 : ((cfg1.win 2).blk t).view.emb j = ((cfg1.win 3).blk t).view.emb j := by
    funext a; apply Fin.ext
    match a with
    | ⟨0, _⟩ => show win1_2.index t (0 : Fin 2) * 2000 + 1 * (j 0).val = win1_3.index t (0 : Fin 2) * 2000 + 1 * (j 0).val; omega
    | ⟨1, _⟩ => show win1_2.index t (1 : Fin 2) * 64 + 1 * (j 1).val = win1_3.index t (1 : Fin 2) * 64 + 1 * (j 1).val; omega
  exact reg1_pt_f (V c main_v13_0) (V c main_v12) (V c main_v23) _ _ _ _ h0 h1 h2

/-- Which indices of the first output array lie in grid point `t`'s block: those whose coordinates are in the
    block's range on each axis. -/
theorem reg1_mem_f (t : Fin cfg1.N) (i : S50000x64.Idx) :
    i ∈ ((cfg1.win 3).blk t).view.set ↔ ∀ a : Fin 2, win1_3.index t a * S2000x64.size a ≤ (i a).val
      ∧ (i a).val < win1_3.index t a * S2000x64.size a + S2000x64.size a := by
  show i ∈ ((View.whole main_v24_0).slice (win1_3.rect t)).set ↔ _
  rw [View.set_slice_whole, Rect.mem_set_unit]
  exact Iff.rfl

/-- The 25 blocks of 2000 rows tile the 50000 rows: row `r` is in the block of point `r / 2000`. -/
theorem reg1_cover_f (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 25 := N_1
  have ht : (i 0).val / 2000 < cfg1.N := by rw [hN]; omega
  obtain ⟨-, -, -, ⟨a3, b3⟩, -⟩ := reg1_idx ⟨(i 0).val / 2000, ht⟩
  have r0 : win1_3.index ⟨(i 0).val / 2000, ht⟩ (0 : Fin 2) = (i 0).val / 2000 := a3
  refine ⟨⟨(i 0).val / 2000, ht⟩, flush1_3 _, ?_⟩
  rw [reg1_mem_f]
  intro a
  match a with
  | ⟨0, _⟩ =>
    show win1_3.index ⟨(i 0).val / 2000, ht⟩ (0 : Fin 2) * 2000 ≤ (i 0).val
      ∧ (i 0).val < win1_3.index ⟨(i 0).val / 2000, ht⟩ (0 : Fin 2) * 2000 + 2000
    omega
  | ⟨1, _⟩ =>
    show win1_3.index ⟨(i 0).val / 2000, ht⟩ (1 : Fin 2) * 64 ≤ (i 1).val
      ∧ (i 1).val < win1_3.index ⟨(i 0).val / 2000, ht⟩ (1 : Fin 2) * 64 + 64
    omega

/-- Region 1 (one propagation step): its first output array ends at `f - a · dinv` of its three input arrays. -/
theorem reg1_f (c : Dev nD) :
    (dat1 V c).arrAt 3 cfg1.N = Cert.Spec.step (F := Ideal) (V c main_v13_0) (V c main_v12) (V c main_v23) :=
  (dat1 V c).arrAt_eq_of_cover 3 _ (fun t _ => reg1_flushed_f V c t) reg1_cover_f

/-- What grid point `t` writes back to the second output array is block `t` of the scaled step. -/
theorem reg1_flushed_s (c : Dev nD) (t : Fin cfg1.N) :
    (dat1 V c).flushed 4 t = ((cfg1.win 4).blk t).view.read (Elt Ideal)
      (Cert.Spec.scale (F := Ideal) (Cert.Spec.step (F := Ideal) (V c main_v13_0) (V c main_v12) (V c main_v23)) (V c main_v12)) := by
  show (cfg1.win 4).cut (grid1.coords t) ((dat1 V c).after 4 t) = _
  rw [after1_4]
  unfold out1_4
  rw [View.canon_unit_zero reg1_zero]
  simp only [View.ld_unit_zero (S := S2000x64) reg1_zero]
  rw [reg1_pay_s]
  obtain ⟨⟨a0, b0⟩, ⟨a1, b1⟩, ⟨a2, b2⟩, -, ⟨a4, b4⟩⟩ := reg1_idx t
  funext j
  have h0 : ((cfg1.win 0).blk t).view.emb j = ((cfg1.win 4).blk t).view.emb j := by
    funext a; apply Fin.ext
    match a with
    | ⟨0, _⟩ => show win1_0.index t (0 : Fin 2) * 2000 + 1 * (j 0).val = win1_4.index t (0 : Fin 2) * 2000 + 1 * (j 0).val; omega
    | ⟨1, _⟩ => show win1_0.index t (1 : Fin 2) * 64 + 1 * (j 1).val = win1_4.index t (1 : Fin 2) * 64 + 1 * (j 1).val; omega
  have h1 : ((cfg1.win 1).blk t).view.emb j = ((cfg1.win 4).blk t).view.emb j := by
    funext a; apply Fin.ext
    match a with
    | ⟨0, _⟩ => show win1_1.index t (0 : Fin 2) * 2000 + 1 * (j 0).val = win1_4.index t (0 : Fin 2) * 2000 + 1 * (j 0).val; omega
    | ⟨1, _⟩ => show win1_1.index t (1 : Fin 2) * 64 + 1 * (j 1).val = win1_4.index t (1 : Fin 2) * 64 + 1 * (j 1).val; omega
  have h2 : ((cfg1.win 2).blk t).view.emb j = ((cfg1.win 4).blk t).view.emb j := by
    funext a; apply Fin.ext
    match a with
    | ⟨0, _⟩ => show win1_2.index t (0 : Fin 2) * 2000 + 1 * (j 0).val = win1_4.index t (0 : Fin 2) * 2000 + 1 * (j 0).val; omega
    | ⟨1, _⟩ => show win1_2.index t (1 : Fin 2) * 64 + 1 * (j 1).val = win1_4.index t (1 : Fin 2) * 64 + 1 * (j 1).val; omega
  exact reg1_pt_s (V c main_v13_0) (V c main_v12) (V c main_v23) _ _ _ _ h0 h1 h2

/-- Which indices of the second output array lie in grid point `t`'s block. -/
theorem reg1_mem_s (t : Fin cfg1.N) (i : S50000x64.Idx) :
    i ∈ ((cfg1.win 4).blk t).view.set ↔ ∀ a : Fin 2, win1_4.index t a * S2000x64.size a ≤ (i a).val
      ∧ (i a).val < win1_4.index t a * S2000x64.size a + S2000x64.size a := by
  show i ∈ ((View.whole main_v24_1).slice (win1_4.rect t)).set ↔ _
  rw [View.set_slice_whole, Rect.mem_set_unit]
  exact Iff.rfl

/-- The second output's blocks tile its rows the same way. -/
theorem reg1_cover_s (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  have hN : cfg1.N = 25 := N_1
  have ht : (i 0).val / 2000 < cfg1.N := by rw [hN]; omega
  obtain ⟨-, -, -, -, ⟨a4, b4⟩⟩ := reg1_idx ⟨(i 0).val / 2000, ht⟩
  have r0 : win1_4.index ⟨(i 0).val / 2000, ht⟩ (0 : Fin 2) = (i 0).val / 2000 := a4
  refine ⟨⟨(i 0).val / 2000, ht⟩, flush1_4 _, ?_⟩
  rw [reg1_mem_s]
  intro a
  match a with
  | ⟨0, _⟩ =>
    show win1_4.index ⟨(i 0).val / 2000, ht⟩ (0 : Fin 2) * 2000 ≤ (i 0).val
      ∧ (i 0).val < win1_4.index ⟨(i 0).val / 2000, ht⟩ (0 : Fin 2) * 2000 + 2000
    omega
  | ⟨1, _⟩ =>
    show win1_4.index ⟨(i 0).val / 2000, ht⟩ (1 : Fin 2) * 64 ≤ (i 1).val
      ∧ (i 1).val < win1_4.index ⟨(i 0).val / 2000, ht⟩ (1 : Fin 2) * 64 + 64
    omega

/-- ... and its second output at that times `dinv`. -/
theorem reg1_s (c : Dev nD) :
    (dat1 V c).arrAt 4 cfg1.N = Cert.Spec.scale (F := Ideal) (Cert.Spec.step (F := Ideal) (V c main_v13_0) (V c main_v12) (V c main_v23)) (V c main_v12) :=
  (dat1 V c).arrAt_eq_of_cover 4 _ (fun t _ => reg1_flushed_s V c t) reg1_cover_s

end Cert.KernelIdeal.KV

end
-- ==== Proof.KReg2.lean ====
import proofs.«149625_j6124623364543_1_alg».proof.Proof.Gen.KernelIdeal.Frame
import proofs.«149625_j6124623364543_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.KV

open Idealize.ShloMosaic Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## Region 2: one propagation step, `f ↦ f - a · d`, block by block

The grid has 25 points; at point `t` every window holds rows `2000 t … 2000 t + 1999` of its array (all 64 columns).
The body loads the three input blocks whole and stores `f - a · d` whole into the first output block. So what a point
writes back there is its block of the whole-array function, and the 25 blocks tile the 50000 rows. (Only the first
output array is described here.) -/

/-- The two zero offsets of a whole-block access, as the constant-zero function. -/
theorem reg2_zero : (![0, 0] : Fin 2 → Nat) = fun _ => 0 := funext fun a => by fin_cases a <;> rfl

/-- The first payload: its shape casts are between equal shapes, so it is `f - a · d` of the loaded blocks. -/
theorem reg2_pay_f (x0 x1 x2 : Vec Ideal S2000x64 .f32) : k2_pay2 x0 x1 x2 = subf x0 (mulf x2 x1) := by
  unfold k2_pay2 k2_pay1
  simp only [shapeCast_self]

/-- The three input windows and the first output window walk the rows together: at grid point `t` each one's
    block index is `(t, 0)` (the printed index maps, evaluated at the 25 points). -/
theorem reg2_idx : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0) :=
  (by decide +kernel : ∀ t : Fin grid2.N, _)

/-- One element of a step: with the three arrays read at one and the same index, `f - a · d` there. -/
theorem reg2_pt_f (A B C : FVec Ideal S50000x64 .f32) (i0 i1 i2 i : S50000x64.Idx) (e0 : i0 = i) (e1 : i1 = i)
    (e2 : i2 = i) : (A i0 : EReal) - C i2 * B i1 = Cert.Spec.step (F := Ideal) A B C i := by
  subst e0 e1 e2; rfl

/-- What grid point `t` writes back to the first output array is block `t` of the whole-array step: each input
    block sits in its array exactly where the output block sits in its own. -/
theorem reg2_flushed_f (c : Dev nD) (t : Fin cfg2.N) :
    (dat2 V c).flushed 3 t = ((cfg2.win 3).blk t).view.read (Elt Ideal)
      (Cert.Spec.step (F := Ideal) (V c main_v24_0) (V c main_v12) (V c main_v34)) := by
  show (cfg2.win 3).cut (grid2.coords t) ((dat2 V c).after 3 t) = _
  rw [after2_3]
  unfold out2_3
  rw [View.canon_unit_zero reg2_zero]
  simp only [View.ld_unit_zero (S := S2000x64) reg2_zero]
  rw [reg2_pay_f]
  obtain ⟨⟨a0, b0⟩, ⟨a1, b1⟩, ⟨a2, b2⟩, ⟨a3, b3⟩⟩ := reg2_idx t
  funext j
  have h0 : ((cfg2.win 0).blk t).view.emb j = ((cfg2.win 3).blk t).view.emb j := by
    funext a; apply Fin.ext
    match a with
    | ⟨0, _⟩ => show win2_0.index t (0 : Fin 2) * 2000 + 1 * (j 0).val = win2_3.index t (0 : Fin 2) * 2000 + 1 * (j 0).val; omega
    | ⟨1, _⟩ => show win2_0.index t (1 : Fin 2) * 64 + 1 * (j 1).val = win2_3.index t (1 : Fin 2) * 64 + 1 * (j 1).val; omega
  have h1 : ((cfg2.win 1).blk t).view.emb j = ((cfg2.win 3).blk t).view.emb j := by
    funext a; apply Fin.ext
    match a with
    | ⟨0, _⟩ => show win2_1.index t (0 : Fin 2) * 2000 + 1 * (j 0).val = win2_3.index t (0 : Fin 2) * 2000 + 1 * (j 0).val; omega
    | ⟨1, _⟩ => show win2_1.index t (1 : Fin 2) * 64 + 1 * (j 1).val = win2_3.index t (1 : Fin 2) * 64 + 1 * (j 1).val; omega
  have h2 : ((cfg2.win 2).blk t).view.emb j = ((cfg2.win 3).blk t).view.emb j := by
    funext a; apply Fin.ext
    match a with
    | ⟨0, _⟩ => show win2_2.index t (0 : Fin 2) * 2000 + 1 * (j 0).val = win2_3.index t (0 : Fin 2) * 2000 + 1 * (j 0).val; omega
    | ⟨1, _⟩ => show win2_2.index t (1 : Fin 2) * 64 + 1 * (j 1).val = win2_3.index t (1 : Fin 2) * 64 + 1 * (j 1).val; omega
  exact reg2_pt_f (V c main_v24_0) (V c main_v12) (V c main_v34) _ _ _ _ h0 h1 h2

/-- Which indices of the first output array lie in grid point `t`'s block: those whose coordinates are in the
    block's range on each axis. -/
theorem reg2_mem_f (t : Fin cfg2.N) (i : S50000x64.Idx) :
    i ∈ ((cfg2.win 3).blk t).view.set ↔ ∀ a : Fin 2, win2_3.index t a * S2000x64.size a ≤ (i a).val
      ∧ (i a).val < win2_3.index t a * S2000x64.size a + S2000x64.size a := by
  show i ∈ ((View.whole main_v35_0).slice (win2_3.rect t)).set ↔ _
  rw [View.set_slice_whole, Rect.mem_set_unit]
  exact Iff.rfl

/-- The 25 blocks of 2000 rows tile the 50000 rows: row `r` is in the block of point `r / 2000`. -/
theorem reg2_cover_f (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 25 := N_2
  have ht : (i 0).val / 2000 < cfg2.N := by rw [hN]; omega
  obtain ⟨-, -, -, ⟨a3, b3⟩⟩ := reg2_idx ⟨(i 0).val / 2000, ht⟩
  have r0 : win2_3.index ⟨(i 0).val / 2000, ht⟩ (0 : Fin 2) = (i 0).val / 2000 := a3
  refine ⟨⟨(i 0).val / 2000, ht⟩, flush2_3 _, ?_⟩
  rw [reg2_mem_f]
  intro a
  match a with
  | ⟨0, _⟩ =>
    show win2_3.index ⟨(i 0).val / 2000, ht⟩ (0 : Fin 2) * 2000 ≤ (i 0).val
      ∧ (i 0).val < win2_3.index ⟨(i 0).val / 2000, ht⟩ (0 : Fin 2) * 2000 + 2000
    omega
  | ⟨1, _⟩ =>
    show win2_3.index ⟨(i 0).val / 2000, ht⟩ (1 : Fin 2) * 64 ≤ (i 1).val
      ∧ (i 1).val < win2_3.index ⟨(i 0).val / 2000, ht⟩ (1 : Fin 2) * 64 + 64
    omega

/-- Region 2 (one propagation step): its first output array ends at `f - a · dinv` of its three input arrays. -/
theorem reg2_f (c : Dev nD) :
    (dat2 V c).arrAt 3 cfg2.N = Cert.Spec.step (F := Ideal) (V c main_v24_0) (V c main_v12) (V c main_v34) :=
  (dat2 V c).arrAt_eq_of_cover 3 _ (fun t _ => reg2_flushed_f V c t) reg2_cover_f

end Cert.KernelIdeal.KV

end
-- ==== Proof.KReg3.lean ====
import proofs.«149625_j6124623364543_1_alg».proof.Proof.Gen.KernelIdeal.Frame
import proofs.«149625_j6124623364543_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.KV

open Idealize.ShloMosaic Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

open Idealize.ShloMosaic.ValueIdx

/-- One linear combination of the spec, read at an index: the three constants times the three tables there. -/
theorem reg3_comb_apply (w0 w1 w2 : BitVec 32) (g0 g1 g2 : FVec Ideal Cert.ReferenceIdeal.S50000x64 .f32)
    (i : Cert.ReferenceIdeal.S50000x64.Idx) :
    Cert.Spec.comb (F := Ideal) w0 w1 w2 g0 g1 g2 i
      = Ideal.ofBits .f32 w0 * g0 i + Ideal.ofBits .f32 w1 * g1 i + Ideal.ofBits .f32 w2 * g2 i := rfl

/-- Three tables side by side, read in the first table's columns. -/
theorem reg3_cat3_lo (a b d : FVec Ideal Cert.ReferenceIdeal.S50000x64 .f32) (r : Fin 50000) (q : Fin 64) (h : 0 + q.val < 192) :
    Cert.Spec.cat3 (F := Ideal) a b d (ix2 r (⟨0 + q.val, h⟩ : Fin 192)) = a (ix2 r q) := by
  unfold Cert.Spec.cat3
  refine concatenate_apply_piece (1 : Fin 2) [⟨Cert.ReferenceIdeal.S50000x64, a⟩, ⟨Cert.ReferenceIdeal.S50000x64, b⟩, ⟨Cert.ReferenceIdeal.S50000x64, d⟩] _
    (ix2 r (⟨0 + q.val, h⟩ : Fin 192)) 0 (by show (0 : ℕ) < 3; omega) Cert.ReferenceIdeal.S50000x64 a rfl rfl 0 rfl (ix2 r q) ?_ rfl
  intro b hb
  match b with
  | ⟨0, _⟩ => rfl
  | ⟨1, _⟩ => exact absurd rfl hb

/-- Three tables side by side, read in the second table's columns. -/
theorem reg3_cat3_mid (a b d : FVec Ideal Cert.ReferenceIdeal.S50000x64 .f32) (r : Fin 50000) (q : Fin 64) (h : 64 + q.val < 192) :
    Cert.Spec.cat3 (F := Ideal) a b d (ix2 r (⟨64 + q.val, h⟩ : Fin 192)) = b (ix2 r q) := by
  unfold Cert.Spec.cat3
  refine concatenate_apply_piece (1 : Fin 2) [⟨Cert.ReferenceIdeal.S50000x64, a⟩, ⟨Cert.ReferenceIdeal.S50000x64, b⟩, ⟨Cert.ReferenceIdeal.S50000x64, d⟩] _
    (ix2 r (⟨64 + q.val, h⟩ : Fin 192)) 1 (by show (1 : ℕ) < 3; omega) Cert.ReferenceIdeal.S50000x64 b rfl rfl 64 rfl (ix2 r q) ?_ rfl
  intro b hb
  match b with
  | ⟨0, _⟩ => rfl
  | ⟨1, _⟩ => exact absurd rfl hb

/-- Three tables side by side, read in the third table's columns. -/
theorem reg3_cat3_hi (a b d : FVec Ideal Cert.ReferenceIdeal.S50000x64 .f32) (r : Fin 50000) (q : Fin 64) (h : 128 + q.val < 192) :
    Cert.Spec.cat3 (F := Ideal) a b d (ix2 r (⟨128 + q.val, h⟩ : Fin 192)) = d (ix2 r q) := by
  unfold Cert.Spec.cat3
  refine concatenate_apply_piece (1 : Fin 2) [⟨Cert.ReferenceIdeal.S50000x64, a⟩, ⟨Cert.ReferenceIdeal.S50000x64, b⟩, ⟨Cert.ReferenceIdeal.S50000x64, d⟩] _
    (ix2 r (⟨128 + q.val, h⟩ : Fin 192)) 2 (by show (2 : ℕ) < 3; omega) Cert.ReferenceIdeal.S50000x64 d rfl rfl 128 rfl (ix2 r q) ?_ rfl
  intro b hb
  match b with
  | ⟨0, _⟩ => rfl
  | ⟨1, _⟩ => exact absurd rfl hb

/-- The body's three stored values at a block index: the same constants times the three loaded blocks there. -/
theorem reg3_pay4_apply (x0 x1 x2 : Vec Ideal S2000x64 .f32) (y : S2000x64.Idx) :
    k3_pay4 (F := Ideal) x0 x1 x2 y
      = Ideal.ofBits .f32 0x40400000#32 * x0 y + Ideal.ofBits .f32 0xC0400000#32 * x1 y + Ideal.ofBits .f32 0x3F400000#32 * x2 y := by
  unfold k3_pay4 k3_pay1 k3_pay2 k3_pay3
  simp only [shapeCast_self]
  rfl

theorem reg3_pay5_apply (x0 x1 x2 : Vec Ideal S2000x64 .f32) (y : S2000x64.Idx) :
    k3_pay5 (F := Ideal) x0 x1 x2 y
      = Ideal.ofBits .f32 0x00000000#32 * x0 y + Ideal.ofBits .f32 0x40400000#32 * x1 y + Ideal.ofBits .f32 0xBFC00000#32 * x2 y := by
  unfold k3_pay5 k3_pay1 k3_pay2 k3_pay3
  simp only [shapeCast_self]
  rfl

theorem reg3_pay6_apply (x0 x1 x2 : Vec Ideal S2000x64 .f32) (y : S2000x64.Idx) :
    k3_pay6 (F := Ideal) x0 x1 x2 y
      = Ideal.ofBits .f32 0x00000000#32 * x0 y + Ideal.ofBits .f32 0x00000000#32 * x1 y + Ideal.ofBits .f32 0x3F400000#32 * x2 y := by
  unfold k3_pay6 k3_pay1 k3_pay2 k3_pay3
  simp only [shapeCast_self]
  rfl

theorem reg3_hz : (![0, 0] : Fin 2 → Nat) = fun _ => 0 := funext fun a => by fin_cases a <;> rfl

/-- The four index maps over the grid: point `t` has block row `t` and block column 0 in every window. -/
theorem reg3_idx : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

theorem reg3_t_lt (t : Fin cfg3.N) : t.val < 25 := Nat.lt_of_lt_of_eq t.isLt N_3

/-- Row `p` of point `t`'s blocks is row `2000 t + p` of the arrays. -/
def reg3_row (t : Fin cfg3.N) (p : Fin 2000) : Fin 50000 := ⟨2000 * t.val + p.val, by have := reg3_t_lt t; omega⟩

/-- Each input block at `(p, q)` is its array at `(2000 t + p, q)`. -/
theorem reg3_iblk0_apply (c : Dev nD) (t : Fin cfg3.N) (p : Fin 2000) (q : Fin 64) :
    (iblk3 V c 0 t : Vec Ideal S2000x64 .f32) (ix2 p q) = V c main_v13_0 (ix2 (reg3_row t p) q) := by
  unfold iblk3
  rw [View.read_apply]
  show V c main_v13_0 _ = V c main_v13_0 _
  congr 1
  funext a
  apply Fin.ext
  obtain ⟨e0, e1, -⟩ := reg3_idx t
  match a with
  | ⟨0, _⟩ => show win3_0.index t (0 : Fin 2) * 2000 + 1 * p.val = 2000 * t.val + p.val; rw [e0]; omega
  | ⟨1, _⟩ => show win3_0.index t (1 : Fin 2) * 64 + 1 * q.val = q.val; rw [e1]; omega

theorem reg3_iblk1_apply (c : Dev nD) (t : Fin cfg3.N) (p : Fin 2000) (q : Fin 64) :
    (iblk3 V c 1 t : Vec Ideal S2000x64 .f32) (ix2 p q) = V c main_v24_0 (ix2 (reg3_row t p) q) := by
  unfold iblk3
  rw [View.read_apply]
  show V c main_v24_0 _ = V c main_v24_0 _
  congr 1
  funext a
  apply Fin.ext
  obtain ⟨-, -, e0, e1, -⟩ := reg3_idx t
  match a with
  | ⟨0, _⟩ => show win3_1.index t (0 : Fin 2) * 2000 + 1 * p.val = 2000 * t.val + p.val; rw [e0]; omega
  | ⟨1, _⟩ => show win3_1.index t (1 : Fin 2) * 64 + 1 * q.val = q.val; rw [e1]; omega

theorem reg3_iblk2_apply (c : Dev nD) (t : Fin cfg3.N) (p : Fin 2000) (q : Fin 64) :
    (iblk3 V c 2 t : Vec Ideal S2000x64 .f32) (ix2 p q) = V c main_v35_0 (ix2 (reg3_row t p) q) := by
  unfold iblk3
  rw [View.read_apply]
  show V c main_v35_0 _ = V c main_v35_0 _
  congr 1
  funext a
  apply Fin.ext
  obtain ⟨-, -, -, -, e0, e1, -⟩ := reg3_idx t
  match a with
  | ⟨0, _⟩ => show win3_2.index t (0 : Fin 2) * 2000 + 1 * p.val = 2000 * t.val + p.val; rw [e0]; omega
  | ⟨1, _⟩ => show win3_2.index t (1 : Fin 2) * 64 + 1 * q.val = q.val; rw [e1]; omega

/-- Where the element `(p, q)` of the slab stored at column offset `o` sits in the output array at point `t`. -/
theorem reg3_out_idx (t : Fin cfg3.N) (o : Nat) (ho : o + 64 ≤ 192) (inb) (p : Fin 2000) (q : Fin 64) :
    ((cfg3.win 3).blk t).view.emb ((Rect.unit (s := S2000x192) ![0, o] S2000x64.size inb).emb (ix2 p q))
      = (ix2 (reg3_row t p) (⟨o + q.val, by omega⟩ : Fin 192) : S50000x192.Idx) := by
  funext a
  apply Fin.ext
  obtain ⟨-, -, -, -, -, -, e0, e1⟩ := reg3_idx t
  match a with
  | ⟨0, _⟩ => show win3_3.index t (0 : Fin 2) * 2000 + 1 * (0 + 1 * p.val) = 2000 * t.val + p.val; rw [e0]; omega
  | ⟨1, _⟩ => show win3_3.index t (1 : Fin 2) * 192 + 1 * (o + 1 * q.val) = o + q.val; rw [e1]; omega

/-- The slab stored at columns [0, 64) is the first combination's rows of the point. -/
theorem reg3_piece_lo (c : Dev nD) (t : Fin cfg3.N) (p : Fin 2000) (q : Fin 64) :
    k3_pay4 (F := Ideal) (iblk3 V c 0 t) (iblk3 V c 1 t) (iblk3 V c 2 t) (ix2 p q)
      = Cert.Spec.combO (F := Ideal) (V c main_v13_0) (V c main_v24_0) (V c main_v35_0)
          (((cfg3.win 3).blk t).view.emb (r3_1.emb (ix2 p q))) := by
  refine Eq.trans ?_ (congrArg _ (reg3_out_idx t 0 (by omega) _ p q)).symm
  unfold Cert.Spec.combO
  rw [reg3_cat3_lo, reg3_comb_apply, reg3_pay4_apply, reg3_iblk0_apply, reg3_iblk1_apply, reg3_iblk2_apply]

/-- The slab stored at columns [64, 128) is the second combination's rows of the point. -/
theorem reg3_piece_mid (c : Dev nD) (t : Fin cfg3.N) (p : Fin 2000) (q : Fin 64) :
    k3_pay5 (F := Ideal) (iblk3 V c 0 t) (iblk3 V c 1 t) (iblk3 V c 2 t) (ix2 p q)
      = Cert.Spec.combO (F := Ideal) (V c main_v13_0) (V c main_v24_0) (V c main_v35_0)
          (((cfg3.win 3).blk t).view.emb (r3_2.emb (ix2 p q))) := by
  refine Eq.trans ?_ (congrArg _ (reg3_out_idx t 64 (by omega) _ p q)).symm
  unfold Cert.Spec.combO
  rw [reg3_cat3_mid, reg3_comb_apply, reg3_pay5_apply, reg3_iblk0_apply, reg3_iblk1_apply, reg3_iblk2_apply]

/-- The slab stored at columns [128, 192) is the third combination's rows of the point. -/
theorem reg3_piece_hi (c : Dev nD) (t : Fin cfg3.N) (p : Fin 2000) (q : Fin 64) :
    k3_pay6 (F := Ideal) (iblk3 V c 0 t) (iblk3 V c 1 t) (iblk3 V c 2 t) (ix2 p q)
      = Cert.Spec.combO (F := Ideal) (V c main_v13_0) (V c main_v24_0) (V c main_v35_0)
          (((cfg3.win 3).blk t).view.emb (r3_3.emb (ix2 p q))) := by
  refine Eq.trans ?_ (congrArg _ (reg3_out_idx t 128 (by omega) _ p q)).symm
  unfold Cert.Spec.combO
  rw [reg3_cat3_hi, reg3_comb_apply, reg3_pay6_apply, reg3_iblk0_apply, reg3_iblk1_apply, reg3_iblk2_apply]

/-- What point `t` writes back is its block of the spec's array. -/
theorem reg3_flushed (c : Dev nD) (t : Fin cfg3.N) :
    (dat3 V c).flushed 3 t = ((cfg3.win 3).blk t).view.read (Elt Ideal)
      (Cert.Spec.combO (F := Ideal) (V c main_v13_0) (V c main_v24_0) (V c main_v35_0)) := by
  show (cfg3.win 3).cut (grid3.coords t) ((dat3 V c).after 3 t) = _
  rw [after3_3]
  unfold out3_3
  simp only [View.ld_unit_zero (S := S2000x64) reg3_hz]
  funext y
  rw [View.read_apply]
  refine View.canon_apply_of_pieces (Val := Elt Ideal) (S := S2000x192) (e := .f32)
    (fun y => Cert.Spec.combO (F := Ideal) (V c main_v13_0) (V c main_v24_0) (V c main_v35_0) (((cfg3.win 3).blk t).view.emb y))
    _ ?_ y (cover3_3 _ _ _ y)
  intro pc hpc x
  simp only [List.mem_cons, List.not_mem_nil, or_false] at hpc
  rcases hpc with rfl | rfl | rfl
  · obtain ⟨p, q, rfl⟩ : ∃ (p : Fin 2000) (q : Fin 64), x = ix2 p q := ⟨x 0, x 1, eq_ix2 x⟩
    exact reg3_piece_hi V c t p q
  · obtain ⟨p, q, rfl⟩ : ∃ (p : Fin 2000) (q : Fin 64), x = ix2 p q := ⟨x 0, x 1, eq_ix2 x⟩
    exact reg3_piece_mid V c t p q
  · obtain ⟨p, q, rfl⟩ : ∃ (p : Fin 2000) (q : Fin 64), x = ix2 p q := ⟨x 0, x 1, eq_ix2 x⟩
    exact reg3_piece_lo V c t p q

/-- An index of the output array is in point `t`'s block iff each coordinate is in the block's range on its axis. -/
theorem reg3_mem_blk (t : Fin cfg3.N) (i : S50000x192.Idx) :
    i ∈ ((cfg3.win 3).blk t).view.set ↔ ∀ a : Fin 2, win3_3.index t a * S2000x192.size a ≤ (i a).val ∧ (i a).val < win3_3.index t a * S2000x192.size a + S2000x192.size a := by
  show i ∈ ((View.whole main_v36).slice (win3_3.rect t)).set ↔ _
  rw [View.set_slice_whole, Rect.mem_set_unit]
  exact Iff.rfl

/-- Every index of the output array is in the block of the point its row falls in. -/
theorem reg3_cover (i : S50000x192.Idx) :
    ∃ t : Fin cfg3.N, (cfg3.win 3).flush t = true ∧ i ∈ ((cfg3.win 3).blk t).view.set := by
  have h0 : (i 0).val < 50000 := (i 0).isLt
  have h1 : (i 1).val < 192 := (i 1).isLt
  let t : Fin cfg3.N := ⟨(i 0).val / 2000, Nat.lt_of_lt_of_eq (show (i 0).val / 2000 < 25 by omega) N_3.symm⟩
  refine ⟨t, flush3_3 t, ?_⟩
  rw [reg3_mem_blk]
  obtain ⟨-, -, -, -, -, -, e0, e1⟩ := reg3_idx t
  intro a
  match a with
  | ⟨0, _⟩ =>
    show win3_3.index t (0 : Fin 2) * 2000 ≤ (i 0).val ∧ (i 0).val < win3_3.index t (0 : Fin 2) * 2000 + 2000
    rw [e0]; show (i 0).val / 2000 * 2000 ≤ (i 0).val ∧ (i 0).val < (i 0).val / 2000 * 2000 + 2000; omega
  | ⟨1, _⟩ =>
    show win3_3.index t (1 : Fin 2) * 192 ≤ (i 1).val ∧ (i 1).val < win3_3.index t (1 : Fin 2) * 192 + 192
    rw [e1]; omega

theorem reg3 (c : Dev nD) :
    (dat3 V c).arrAt 3 cfg3.N = Cert.Spec.combO (F := Ideal) (V c main_v13_0) (V c main_v24_0) (V c main_v35_0) :=
  (dat3 V c).arrAt_eq_of_cover 3 _ (fun t _ => reg3_flushed V c t) reg3_cover

end Cert.KernelIdeal.KV

end
-- ==== Proof.KReg4.lean ====
import proofs.«149625_j6124623364543_1_alg».proof.Proof.Gen.KernelIdeal.Frame
import proofs.«149625_j6124623364543_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.KV

open Idealize.ShloMosaic Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! Region 4: `h = relu (x · W + b)` and `h · dinv`, by row blocks of 2000.

Both sides are read at one index as the same extended real: at row `r = 2000 t + p` and column `q`,
`max ((∑ k, x (r, k) · W (k, q)) + b (0, q)) 0`, times `dinv (r, q)` for the scaled array. The kernel's block
product accumulates into zero and its format changes are the identity on extended reals; the whole-array product
is the same sum. Every row lies in the block of point `r / 2000`, so the blocks written back make up the array. -/

/-- The matmul's left operand index on the row axis is the output's row. -/
theorem reg4_lhs_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
/-- … and on the contracted axis the contraction coordinate. -/
theorem reg4_lhs_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
/-- The right operand index on the contracted axis is the contraction coordinate … -/
theorem reg4_rhs_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
/-- … and on the column axis the output's column. -/
theorem reg4_rhs_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The block product into a zero accumulator, read at row `p`, column `q`: the sum over the 128 contracted
    coordinates of the left block's row times the right block's column. -/
theorem reg4_mm_apply (a : FVec Ideal S2000x128 .bf16) (b : FVec Ideal S128x64 .bf16) (p : Fin 2000) (q : Fin 64) :
    matmul dot_S2000x128_S128x64_S2000x64_1_0_0_1_n_n none a b (constant (F := Ideal) S2000x64 .f32 0x00000000#32) (ValueIdx.ix2 p q)
      = ∑ k : Fin 128, a (ValueIdx.ix2 p k) * b (ValueIdx.ix2 k q) := by
  simp only [matmul]
  rw [Ideal.matmul_constant_zero_apply, ← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx (ValueIdx.ix2 p q) ((ValueIdx.contrEquiv1 dot_S2000x128_S128x64_S2000x64_1_0_0_1_n_n 128 rfl rfl).symm k) = ValueIdx.ix2 p k := funext fun a => Fin.ext (by
    match a with
    | ⟨0, _⟩ => exact reg4_lhs_0 _ _
    | ⟨1, _⟩ => exact (reg4_lhs_1 _ _).trans hk)
  have er : dot_S2000x128_S128x64_S2000x64_1_0_0_1_n_n.rhsIdx (ValueIdx.ix2 p q) ((ValueIdx.contrEquiv1 dot_S2000x128_S128x64_S2000x64_1_0_0_1_n_n 128 rfl rfl).symm k) = ValueIdx.ix2 k q := funext fun a => Fin.ext (by
    match a with
    | ⟨0, _⟩ => exact (reg4_rhs_0 _ _).trans hk
    | ⟨1, _⟩ => exact reg4_rhs_1 _ _)
  rw [el, er]

/-- What the body stores into the `h` block, read at row `p`, column `q`: the positive part of the row of the
    left block times the column of the right block plus the bias row's entry at `q`. -/
theorem reg4_pay1_apply (x0 : Vec Ideal S2000x128 .f32) (x1 : Vec Ideal S128x64 .f32) (x2 : Vec Ideal S1x64 .f32)
    (p : Fin 2000) (q : Fin 64) :
    k4_pay1 x0 x1 x2 (ValueIdx.ix2 p q)
      = max ((∑ k : Fin 128, x0 (ValueIdx.ix2 p k) * x1 (ValueIdx.ix2 k q)) + x2 (ValueIdx.ix2 (0 : Fin 1) q)) 0 := by
  unfold k4_pay1
  show max (matmul dot_S2000x128_S128x64_S2000x64_1_0_0_1_n_n none (truncf .bf16 x0 bitsLt_bf16_f32) (truncf .bf16 x1 bitsLt_bf16_f32)
        (constant (F := Ideal) S2000x64 .f32 0x00000000#32) (ValueIdx.ix2 p q)
      + broadcastTo S2000x64 (shapeCast S1x64 (shapeCast S1x64 x2 shapeCasts_S1x64_S1x64) shapeCasts_S1x64_S1x64) broadcasts_S1x64_S2000x64 (ValueIdx.ix2 p q))
      (Ideal.ofBits .f32 0x00000000#32) = _
  rw [reg4_mm_apply, shapeCast_self, shapeCast_self, Ideal.ofBits_zero_f32,
    broadcastTo_apply x2 broadcasts_S1x64_S2000x64 (ValueIdx.ix2 p q) (ValueIdx.ix2 (0 : Fin 1) q) (fun a => by
      match a with
      | ⟨0, _⟩ => show (0 : Nat) = if (1 : Nat) = 1 then 0 else _; rw [if_pos rfl]
      | ⟨1, _⟩ => show q.val = if (64 : Nat) = 1 then 0 else q.val; rw [if_neg (by decide)])]
  rfl

/-- The reference product's left operand index on the row axis is the output's row. -/
theorem reg4_hlhs_0 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x64_S50000x64_1_0_0_1_n_n.lhsBatch by decide), dif_pos (show (0 : Fin Cert.ReferenceIdeal.S50000x128.rank) ∈ Cert.ReferenceIdeal.dot_S50000x128_S128x64_S50000x64_1_0_0_1_n_n.lhsNonContracting by decide)]
  rfl
/-- … and on the contracted axis the contraction coordinate. -/
theorem reg4_hlhs_1 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.lhsIdx i q 1).val = (q ⟨0, by decide⟩).val :=
  Cert.ReferenceIdeal.dot_S50000x128_S128x64_S50000x64_1_0_0_1_n_n.lhsIdx_val_of_single rfl i q
/-- Its right operand index on the contracted axis is the contraction coordinate … -/
theorem reg4_hrhs_0 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.rhsIdx i q 0).val = (q ⟨0, by decide⟩).val :=
  Cert.ReferenceIdeal.dot_S50000x128_S128x64_S50000x64_1_0_0_1_n_n.rhsIdx_val_of_single rfl i q
/-- … and on the column axis the output's column. -/
theorem reg4_hrhs_1 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.rhsIdx i q 1).val = (i 1).val := by
  unfold DotDims.rhsIdx
  rw [dif_neg (show ¬(1 : Fin Cert.ReferenceIdeal.S128x64.rank) ∈ Cert.ReferenceIdeal.dot_S50000x128_S128x64_S50000x64_1_0_0_1_n_n.rhsBatch by decide), dif_pos (show (1 : Fin Cert.ReferenceIdeal.S128x64.rank) ∈ Cert.ReferenceIdeal.dot_S50000x128_S128x64_S50000x64_1_0_0_1_n_n.rhsNonContracting by decide)]
  rfl

/-- The whole-array product read at row `r`, column `q`: the sum over the 128 contracted coordinates. -/
theorem reg4_dot_apply (x : FVec Ideal Cert.ReferenceIdeal.S50000x128 .f32) (W : FVec Ideal Cert.ReferenceIdeal.S128x64 .f32)
    (r : Fin 50000) (q : Fin 64) :
    Host.dotGeneral Cert.ReferenceIdeal.dot_S50000x128_S128x64_S50000x64_1_0_0_1_n_n none x W (ValueIdx.ix2 r q)
      = ∑ k : Fin 128, x (ValueIdx.ix2 r k) * W (ValueIdx.ix2 k q) := by
  simp only [Host.dotGeneral]
  rw [Ideal.dotGeneral_apply, ← Equiv.sum_comp (ValueIdx.contrEquiv1 Cert.ReferenceIdeal.dot_S50000x128_S128x64_S50000x64_1_0_0_1_n_n 128 rfl rfl).symm]
  refine Finset.sum_congr rfl fun k _ => ?_
  have hk := ValueIdx.contrEquiv1_symm_val Cert.ReferenceIdeal.dot_S50000x128_S128x64_S50000x64_1_0_0_1_n_n 128 rfl rfl k
  have el : Cert.ReferenceIdeal.dot_S50000x128_S128x64_S50000x64_1_0_0_1_n_n.lhsIdx (ValueIdx.ix2 r q) ((ValueIdx.contrEquiv1 Cert.ReferenceIdeal.dot_S50000x128_S128x64_S50000x64_1_0_0_1_n_n 128 rfl rfl).symm k) = ValueIdx.ix2 r k := funext fun a => Fin.ext (by
    match a with
    | ⟨0, _⟩ => exact reg4_hlhs_0 _ _
    | ⟨1, _⟩ => exact (reg4_hlhs_1 _ _).trans hk)
  have er : Cert.ReferenceIdeal.dot_S50000x128_S128x64_S50000x64_1_0_0_1_n_n.rhsIdx (ValueIdx.ix2 r q) ((ValueIdx.contrEquiv1 Cert.ReferenceIdeal.dot_S50000x128_S128x64_S50000x64_1_0_0_1_n_n 128 rfl rfl).symm k) = ValueIdx.ix2 k q := funext fun a => Fin.ext (by
    match a with
    | ⟨0, _⟩ => exact (reg4_hrhs_0 _ _).trans hk
    | ⟨1, _⟩ => exact reg4_hrhs_1 _ _)
  rw [el, er]

/-- The whole-array `relu (x · W + b)` read at row `r`, column `q`. -/
theorem reg4_lin_apply (x : FVec Ideal Cert.ReferenceIdeal.S50000x128 .f32) (W : FVec Ideal Cert.ReferenceIdeal.S128x64 .f32)
    (b : FVec Ideal Cert.ReferenceIdeal.S1x64 .f32) (r : Fin 50000) (q : Fin 64) :
    Cert.Spec.lin (F := Ideal) x W b (ValueIdx.ix2 r q)
      = max ((∑ k : Fin 128, x (ValueIdx.ix2 r k) * W (ValueIdx.ix2 k q)) + b (ValueIdx.ix2 (0 : Fin 1) q)) 0 := by
  unfold Cert.Spec.lin Cert.Spec.cst64
  show max (Host.dotGeneral Cert.ReferenceIdeal.dot_S50000x128_S128x64_S50000x64_1_0_0_1_n_n none x W (ValueIdx.ix2 r q)
      + broadcastInDim Cert.ReferenceIdeal.S50000x64 ![0, 1] _ b (ValueIdx.ix2 r q))
      (broadcastInDim Cert.ReferenceIdeal.S50000x64 ![] _ (constant (F := Ideal) Cert.ReferenceIdeal.S_ .f32 0x00000000#32) (ValueIdx.ix2 r q)) = _
  rw [reg4_dot_apply,
    broadcastInDim_apply _ _ b (ValueIdx.ix2 r q) (ValueIdx.ix2 (0 : Fin 1) q) (fun a => by
      match a with
      | ⟨0, _⟩ => show (0 : Nat) = if (1 : Nat) = 1 then 0 else _; rw [if_pos rfl]
      | ⟨1, _⟩ => show q.val = if (64 : Nat) = 1 then 0 else q.val; rw [if_neg (by decide)]),
    broadcastInDim_apply _ _ (constant (F := Ideal) Cert.ReferenceIdeal.S_ .f32 0x00000000#32) (ValueIdx.ix2 r q) (fun a => a.elim0) (fun a => a.elim0)]
  show max _ (Ideal.ofBits .f32 0x00000000#32) = _
  rw [Ideal.ofBits_zero_f32]

theorem reg4_hz : (![0, 0] : Fin 2 → Nat) = fun _ => 0 := funext fun a => by fin_cases a <;> rfl

/-- The block index maps over the grid: the row-blocked windows are at block `t` of the rows, the whole-array
    windows at block 0. -/
theorem reg4_idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

/-- Row `p` of block `t` is a row of the array. -/
theorem reg4_row_lt (t : Fin cfg4.N) (p : Fin 2000) : 2000 * t.val + p.val < 50000 := by
  have ht : t.val < 25 := Nat.lt_of_lt_of_eq t.isLt (N_4 : cfg4.N = 25)
  have := p.isLt
  omega

/-- The block of `x` at point `t` is rows `2000 t … 2000 t + 1999` of `x`. -/
theorem reg4_blk0_apply (c : Dev nD) (t : Fin cfg4.N) (p : Fin 2000) (k : Fin 128) :
    (iblk4 V c 0 t : Vec Ideal S2000x128 .f32) (ValueIdx.ix2 p k)
      = (V c main_arg1 : S50000x128.Idx → Ideal .f32) (ValueIdx.ix2 ⟨2000 * t.val + p.val, reg4_row_lt t p⟩ k) := by
  obtain ⟨e0, e1, -⟩ := reg4_idx_facts t
  unfold iblk4
  rw [View.read_apply]
  show V c main_arg1 _ = V c main_arg1 _
  congr 1
  funext a
  apply Fin.ext
  match a with
  | ⟨0, _⟩ => show win4_0.index t (0 : Fin 2) * 2000 + 1 * p.val = 2000 * t.val + p.val; rw [e0]; omega
  | ⟨1, _⟩ => show win4_0.index t (1 : Fin 2) * 128 + 1 * k.val = k.val; rw [e1]; omega

/-- The block of `W` at every point is `W`. -/
theorem reg4_blk1_apply (c : Dev nD) (t : Fin cfg4.N) (k : Fin 128) (q : Fin 64) :
    (iblk4 V c 1 t : Vec Ideal S128x64 .f32) (ValueIdx.ix2 k q)
      = (V c main_arg8 : S128x64.Idx → Ideal .f32) (ValueIdx.ix2 k q) := by
  obtain ⟨-, -, e0, e1, -⟩ := reg4_idx_facts t
  unfold iblk4
  rw [View.read_apply]
  show V c main_arg8 _ = V c main_arg8 _
  congr 1
  funext a
  apply Fin.ext
  match a with
  | ⟨0, _⟩ => show win4_1.index t (0 : Fin 2) * 128 + 1 * k.val = k.val; rw [e0]; omega
  | ⟨1, _⟩ => show win4_1.index t (1 : Fin 2) * 64 + 1 * q.val = q.val; rw [e1]; omega

/-- The block of the bias row at every point is the bias row. -/
theorem reg4_blk2_apply (c : Dev nD) (t : Fin cfg4.N) (z : Fin 1) (q : Fin 64) :
    (iblk4 V c 2 t : Vec Ideal S1x64 .f32) (ValueIdx.ix2 z q)
      = (V c main_v1 : S1x64.Idx → Ideal .f32) (ValueIdx.ix2 z q) := by
  obtain ⟨-, -, -, -, e0, e1, -⟩ := reg4_idx_facts t
  unfold iblk4
  rw [View.read_apply]
  show V c main_v1 _ = V c main_v1 _
  congr 1
  funext a
  apply Fin.ext
  match a with
  | ⟨0, _⟩ => show win4_2.index t (0 : Fin 2) * 1 + 1 * z.val = z.val; rw [e0]; omega
  | ⟨1, _⟩ => show win4_2.index t (1 : Fin 2) * 64 + 1 * q.val = q.val; rw [e1]; omega

/-- The block of `dinv` at point `t` is rows `2000 t … 2000 t + 1999` of `dinv`. -/
theorem reg4_blk3_apply (c : Dev nD) (t : Fin cfg4.N) (p : Fin 2000) (q : Fin 64) :
    (iblk4 V c 3 t : Vec Ideal S2000x64 .f32) (ValueIdx.ix2 p q)
      = (V c main_v45 : S50000x64.Idx → Ideal .f32) (ValueIdx.ix2 ⟨2000 * t.val + p.val, reg4_row_lt t p⟩ q) := by
  obtain ⟨-, -, -, -, -, -, e0, e1, -⟩ := reg4_idx_facts t
  unfold iblk4
  rw [View.read_apply]
  show V c main_v45 _ = V c main_v45 _
  congr 1
  funext a
  apply Fin.ext
  match a with
  | ⟨0, _⟩ => show win4_3.index t (0 : Fin 2) * 2000 + 1 * p.val = 2000 * t.val + p.val; rw [e0]; omega
  | ⟨1, _⟩ => show win4_3.index t (1 : Fin 2) * 64 + 1 * q.val = q.val; rw [e1]; omega

/-- WHAT POINT `t` WRITES BACK to `h` is block `t` of `relu (x · W + b)` of the arrays as the region finds them. -/
theorem reg4_flushed_h (c : Dev nD) (t : Fin cfg4.N) :
    (dat4 V c).flushed 4 t = ((cfg4.win 4).blk t).view.read (Elt Ideal)
      (Cert.Spec.lin (F := Ideal) (V c main_arg1) (V c main_arg8) (V c main_v1)) := by
  show (cfg4.win 4).cut (grid4.coords t) ((dat4 V c).after 4 t) = _
  rw [after4_4]
  unfold out4_4
  rw [View.canon_unit_zero reg4_hz]
  simp only [View.ld_unit_zero (S := S2000x128) reg4_hz, View.ld_unit_zero (S := S128x64) reg4_hz, View.ld_unit_zero (S := S1x64) reg4_hz]
  funext y
  obtain ⟨p, q, rfl⟩ : ∃ (p : Fin 2000) (q : Fin 64), y = ValueIdx.ix2 p q := ⟨y 0, y 1, ValueIdx.eq_ix2 y⟩
  obtain ⟨-, -, -, -, -, -, -, -, e0, e1, -⟩ := reg4_idx_facts t
  have hemb : ((cfg4.win 4).blk t).view.emb (ValueIdx.ix2 p q) = ValueIdx.ix2 ⟨2000 * t.val + p.val, reg4_row_lt t p⟩ q := by
    funext a
    apply Fin.ext
    match a with
    | ⟨0, _⟩ => show win4_4.index t (0 : Fin 2) * 2000 + 1 * p.val = 2000 * t.val + p.val; rw [e0]; omega
    | ⟨1, _⟩ => show win4_4.index t (1 : Fin 2) * 64 + 1 * q.val = q.val; rw [e1]; omega
  refine (reg4_pay1_apply (iblk4 V c 0 t) (iblk4 V c 1 t) (iblk4 V c 2 t) p q).trans ?_
  show _ = Cert.Spec.lin (F := Ideal) (V c main_arg1) (V c main_arg8) (V c main_v1) (((cfg4.win 4).blk t).view.emb (ValueIdx.ix2 p q))
  rw [hemb, reg4_lin_apply, reg4_blk2_apply]
  simp only [reg4_blk0_apply, reg4_blk1_apply]

/-- An index of the array is in point `t`'s block of `h` iff each coordinate is in the block's range on its axis. -/
theorem reg4_mem_blk4 (t : Fin cfg4.N) (i : S50000x64.Idx) :
    i ∈ ((cfg4.win 4).blk t).view.set ↔ ∀ a : Fin 2, win4_4.index t a * S2000x64.size a ≤ (i a).val ∧ (i a).val < win4_4.index t a * S2000x64.size a + S2000x64.size a := by
  show i ∈ ((View.whole main_v46_0).slice (win4_4.rect t)).set ↔ _
  rw [View.set_slice_whole, Rect.mem_set_unit]
  exact Iff.rfl

/-- Every row `r` of `h` is in the block of point `r / 2000`. -/
theorem reg4_cover4 (i : S50000x64.Idx) :
    ∃ t : Fin cfg4.N, (cfg4.win 4).flush t = true ∧ i ∈ ((cfg4.win 4).blk t).view.set := by
  have hi0 : (i 0).val < 50000 := (i 0).isLt
  have hi1 : (i 1).val < 64 := (i 1).isLt
  have hN : cfg4.N = 25 := N_4
  have ht : (i 0).val / 2000 < cfg4.N := by rw [hN]; omega
  obtain ⟨-, -, -, -, -, -, -, -, e0, e1, -⟩ := reg4_idx_facts ⟨(i 0).val / 2000, ht⟩
  refine ⟨⟨(i 0).val / 2000, ht⟩, flush4_4 _, ?_⟩
  rw [reg4_mem_blk4]
  intro a
  match a with
  | ⟨0, _⟩ =>
    show win4_4.index ⟨(i 0).val / 2000, ht⟩ (0 : Fin 2) * 2000 ≤ (i 0).val ∧ (i 0).val < win4_4.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win4_4.index ⟨(i 0).val / 2000, ht⟩ (1 : Fin 2) * 64 ≤ (i 1).val ∧ (i 1).val < win4_4.index ⟨(i 0).val / 2000, ht⟩ (1 : Fin 2) * 64 + 64
    rw [e1]; omega

/-- The `h` array after the region: `relu (x · W + b)` of the arrays as the region finds them. -/
theorem reg4_h (c : Dev nD) :
    (dat4 V c).arrAt 4 cfg4.N = Cert.Spec.lin (F := Ideal) (V c main_arg1) (V c main_arg8) (V c main_v1) :=
  (dat4 V c).arrAt_eq_of_cover 4 _ (fun t _ => reg4_flushed_h V c t) reg4_cover4

/-- What the body stores into the scaled block, read at row `p`, column `q`: the `h` block's entry times `dinv`'s. -/
theorem reg4_pay2_apply (x0 : Vec Ideal S2000x128 .f32) (x1 : Vec Ideal S128x64 .f32) (x2 : Vec Ideal S1x64 .f32)
    (x3 : Vec Ideal S2000x64 .f32) (p : Fin 2000) (q : Fin 64) :
    k4_pay2 x0 x1 x2 x3 (ValueIdx.ix2 p q)
      = max ((∑ k : Fin 128, x0 (ValueIdx.ix2 p k) * x1 (ValueIdx.ix2 k q)) + x2 (ValueIdx.ix2 (0 : Fin 1) q)) 0
        * x3 (ValueIdx.ix2 p q) := by
  unfold k4_pay2
  show k4_pay1 x0 x1 x2 (ValueIdx.ix2 p q) * shapeCast S2000x64 x3 shapeCasts_S2000x64_S2000x64 (ValueIdx.ix2 p q) = _
  rw [reg4_pay1_apply, shapeCast_self]

/-- WHAT POINT `t` WRITES BACK to the scaled array is block `t` of `relu (x · W + b) · dinv`. -/
theorem reg4_flushed_s (c : Dev nD) (t : Fin cfg4.N) :
    (dat4 V c).flushed 5 t = ((cfg4.win 5).blk t).view.read (Elt Ideal)
      (Cert.Spec.scale (F := Ideal) (Cert.Spec.lin (F := Ideal) (V c main_arg1) (V c main_arg8) (V c main_v1)) (V c main_v45)) := by
  show (cfg4.win 5).cut (grid4.coords t) ((dat4 V c).after 5 t) = _
  rw [after4_5]
  unfold out4_5
  rw [View.canon_unit_zero reg4_hz]
  simp only [View.ld_unit_zero (S := S2000x128) reg4_hz, View.ld_unit_zero (S := S128x64) reg4_hz, View.ld_unit_zero (S := S1x64) reg4_hz, View.ld_unit_zero (S := S2000x64) reg4_hz]
  funext y
  obtain ⟨p, q, rfl⟩ : ∃ (p : Fin 2000) (q : Fin 64), y = ValueIdx.ix2 p q := ⟨y 0, y 1, ValueIdx.eq_ix2 y⟩
  obtain ⟨-, -, -, -, -, -, -, -, -, -, e0, e1⟩ := reg4_idx_facts t
  have hemb : ((cfg4.win 5).blk t).view.emb (ValueIdx.ix2 p q) = ValueIdx.ix2 ⟨2000 * t.val + p.val, reg4_row_lt t p⟩ q := by
    funext a
    apply Fin.ext
    match a with
    | ⟨0, _⟩ => show win4_5.index t (0 : Fin 2) * 2000 + 1 * p.val = 2000 * t.val + p.val; rw [e0]; omega
    | ⟨1, _⟩ => show win4_5.index t (1 : Fin 2) * 64 + 1 * q.val = q.val; rw [e1]; omega
  refine (reg4_pay2_apply (iblk4 V c 0 t) (iblk4 V c 1 t) (iblk4 V c 2 t) (iblk4 V c 3 t) p q).trans ?_
  show _ = Cert.Spec.lin (F := Ideal) (V c main_arg1) (V c main_arg8) (V c main_v1) (((cfg4.win 5).blk t).view.emb (ValueIdx.ix2 p q))
      * (V c main_v45 : S50000x64.Idx → Ideal .f32) (((cfg4.win 5).blk t).view.emb (ValueIdx.ix2 p q))
  rw [hemb, reg4_lin_apply, reg4_blk2_apply, reg4_blk3_apply]
  simp only [reg4_blk0_apply, reg4_blk1_apply]

/-- An index of the array is in point `t`'s block of the scaled array iff each coordinate is in the block's range on its axis. -/
theorem reg4_mem_blk5 (t : Fin cfg4.N) (i : S50000x64.Idx) :
    i ∈ ((cfg4.win 5).blk t).view.set ↔ ∀ a : Fin 2, win4_5.index t a * S2000x64.size a ≤ (i a).val ∧ (i a).val < win4_5.index t a * S2000x64.size a + S2000x64.size a := by
  show i ∈ ((View.whole main_v46_1).slice (win4_5.rect t)).set ↔ _
  rw [View.set_slice_whole, Rect.mem_set_unit]
  exact Iff.rfl

/-- Every row `r` of the scaled array is in the block of point `r / 2000`. -/
theorem reg4_cover5 (i : S50000x64.Idx) :
    ∃ t : Fin cfg4.N, (cfg4.win 5).flush t = true ∧ i ∈ ((cfg4.win 5).blk t).view.set := by
  have hi0 : (i 0).val < 50000 := (i 0).isLt
  have hi1 : (i 1).val < 64 := (i 1).isLt
  have hN : cfg4.N = 25 := N_4
  have ht : (i 0).val / 2000 < cfg4.N := by rw [hN]; omega
  obtain ⟨-, -, -, -, -, -, -, -, -, -, e0, e1⟩ := reg4_idx_facts ⟨(i 0).val / 2000, ht⟩
  refine ⟨⟨(i 0).val / 2000, ht⟩, flush4_5 _, ?_⟩
  rw [reg4_mem_blk5]
  intro a
  match a with
  | ⟨0, _⟩ =>
    show win4_5.index ⟨(i 0).val / 2000, ht⟩ (0 : Fin 2) * 2000 ≤ (i 0).val ∧ (i 0).val < win4_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win4_5.index ⟨(i 0).val / 2000, ht⟩ (1 : Fin 2) * 64 ≤ (i 1).val ∧ (i 1).val < win4_5.index ⟨(i 0).val / 2000, ht⟩ (1 : Fin 2) * 64 + 64
    rw [e1]; omega

/-- The scaled array after the region: `relu (x · W + b) · dinv` of the arrays as the region finds them. -/
theorem reg4_s (c : Dev nD) :
    (dat4 V c).arrAt 5 cfg4.N = Cert.Spec.scale (F := Ideal) (Cert.Spec.lin (F := Ideal) (V c main_arg1) (V c main_arg8) (V c main_v1)) (V c main_v45) :=
  (dat4 V c).arrAt_eq_of_cover 5 _ (fun t _ => reg4_flushed_s V c t) reg4_cover5

end Cert.KernelIdeal.KV

end
-- ==== Proof.KReg5.lean ====
import proofs.«149625_j6124623364543_1_alg».proof.Proof.Gen.KernelIdeal.Frame
import proofs.«149625_j6124623364543_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.KV

open Idealize.ShloMosaic Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## Region 5: one propagation step, `f ↦ f - a · d`, and that times `d`, block by block

The grid has 25 points; at point `t` every window holds rows `2000 t … 2000 t + 1999` of its array (all 64 columns).
The body loads the three input blocks whole and stores `f - a · d` whole into the first output block and
`(f - a · d) · d` whole into the second. So what a point writes back is its block of the whole-array function, and
the 25 blocks tile the 50000 rows. -/

/-- The two zero offsets of a whole-block access, as the constant-zero function. -/
theorem reg5_zero : (![0, 0] : Fin 2 → Nat) = fun _ => 0 := funext fun a => by fin_cases a <;> rfl

/-- The first payload: its shape casts are between equal shapes, so it is `f - a · d` of the loaded blocks. -/
theorem reg5_pay_f (x0 x1 x2 : Vec Ideal S2000x64 .f32) : k5_pay2 x0 x1 x2 = subf x0 (mulf x2 x1) := by
  unfold k5_pay2 k5_pay1
  simp only [shapeCast_self]

/-- The second payload is the first times `d`. -/
theorem reg5_pay_s (x0 x1 x2 : Vec Ideal S2000x64 .f32) : k5_pay3 x0 x1 x2 = mulf (subf x0 (mulf x2 x1)) x1 := by
  unfold k5_pay3 k5_pay1
  rw [reg5_pay_f]
  simp only [shapeCast_self]

/-- All five windows walk the rows together: at grid point `t` each one's block index is `(t, 0)`
    (the printed index maps, evaluated at the 25 points). -/
theorem reg5_idx : ∀ t : Fin cfg5.N,
    (win5_0.index t (0 : Fin 2) = t.val ∧ win5_0.index t (1 : Fin 2) = 0)
    ∧ (win5_1.index t (0 : Fin 2) = t.val ∧ win5_1.index t (1 : Fin 2) = 0)
    ∧ (win5_2.index t (0 : Fin 2) = t.val ∧ win5_2.index t (1 : Fin 2) = 0)
    ∧ (win5_3.index t (0 : Fin 2) = t.val ∧ win5_3.index t (1 : Fin 2) = 0)
    ∧ (win5_4.index t (0 : Fin 2) = t.val ∧ win5_4.index t (1 : Fin 2) = 0) :=
  (by decide +kernel : ∀ t : Fin grid5.N, _)

/-- One element of a step: with the three arrays read at one and the same index, `f - a · d` there. -/
theorem reg5_pt_f (A B C : FVec Ideal S50000x64 .f32) (i0 i1 i2 i : S50000x64.Idx) (e0 : i0 = i) (e1 : i1 = i)
    (e2 : i2 = i) : (A i0 : EReal) - C i2 * B i1 = Cert.Spec.step (F := Ideal) A B C i := by
  subst e0 e1 e2; rfl

/-- One element of the scaled step: that difference times `d` at the same index. -/
theorem reg5_pt_s (A B C : FVec Ideal S50000x64 .f32) (i0 i1 i2 i : S50000x64.Idx) (e0 : i0 = i) (e1 : i1 = i)
    (e2 : i2 = i) :
    ((A i0 : EReal) - C i2 * B i1) * B i1 = Cert.Spec.scale (F := Ideal) (Cert.Spec.step (F := Ideal) A B C) B i := by
  subst e0 e1 e2; rfl

/-- What grid point `t` writes back to the first output array is block `t` of the whole-array step: each input
    block sits in its array exactly where the output block sits in its own. -/
theorem reg5_flushed_f (c : Dev nD) (t : Fin cfg5.N) :
    (dat5 V c).flushed 3 t = ((cfg5.win 3).blk t).view.read (Elt Ideal)
      (Cert.Spec.step (F := Ideal) (V c main_v46_0) (V c main_v45) (V c main_v56)) := by
  show (cfg5.win 3).cut (grid5.coords t) ((dat5 V c).after 3 t) = _
  rw [after5_3]
  unfold out5_3
  rw [View.canon_unit_zero reg5_zero]
  simp only [View.ld_unit_zero (S := S2000x64) reg5_zero]
  rw [reg5_pay_f]
  obtain ⟨⟨a0, b0⟩, ⟨a1, b1⟩, ⟨a2, b2⟩, ⟨a3, b3⟩, -⟩ := reg5_idx t
  funext j
  have h0 : ((cfg5.win 0).blk t).view.emb j = ((cfg5.win 3).blk t).view.emb j := by
    funext a; apply Fin.ext
    match a with
    | ⟨0, _⟩ => show win5_0.index t (0 : Fin 2) * 2000 + 1 * (j 0).val = win5_3.index t (0 : Fin 2) * 2000 + 1 * (j 0).val; omega
    | ⟨1, _⟩ => show win5_0.index t (1 : Fin 2) * 64 + 1 * (j 1).val = win5_3.index t (1 : Fin 2) * 64 + 1 * (j 1).val; omega
  have h1 : ((cfg5.win 1).blk t).view.emb j = ((cfg5.win 3).blk t).view.emb j := by
    funext a; apply Fin.ext
    match a with
    | ⟨0, _⟩ => show win5_1.index t (0 : Fin 2) * 2000 + 1 * (j 0).val = win5_3.index t (0 : Fin 2) * 2000 + 1 * (j 0).val; omega
    | ⟨1, _⟩ => show win5_1.index t (1 : Fin 2) * 64 + 1 * (j 1).val = win5_3.index t (1 : Fin 2) * 64 + 1 * (j 1).val; omega
  have h2 : ((cfg5.win 2).blk t).view.emb j = ((cfg5.win 3).blk t).view.emb j := by
    funext a; apply Fin.ext
    match a with
    | ⟨0, _⟩ => show win5_2.index t (0 : Fin 2) * 2000 + 1 * (j 0).val = win5_3.index t (0 : Fin 2) * 2000 + 1 * (j 0).val; omega
    | ⟨1, _⟩ => show win5_2.index t (1 : Fin 2) * 64 + 1 * (j 1).val = win5_3.index t (1 : Fin 2) * 64 + 1 * (j 1).val; omega
  exact reg5_pt_f (V c main_v46_0) (V c main_v45) (V c main_v56) _ _ _ _ h0 h1 h2

/-- Which indices of the first output array lie in grid point `t`'s block: those whose coordinates are in the
    block's range on each axis. -/
theorem reg5_mem_f (t : Fin cfg5.N) (i : S50000x64.Idx) :
    i ∈ ((cfg5.win 3).blk t).view.set ↔ ∀ a : Fin 2, win5_3.index t a * S2000x64.size a ≤ (i a).val
      ∧ (i a).val < win5_3.index t a * S2000x64.size a + S2000x64.size a := by
  show i ∈ ((View.whole main_v57_0).slice (win5_3.rect t)).set ↔ _
  rw [View.set_slice_whole, Rect.mem_set_unit]
  exact Iff.rfl

/-- The 25 blocks of 2000 rows tile the 50000 rows: row `r` is in the block of point `r / 2000`. -/
theorem reg5_cover_f (i : S50000x64.Idx) :
    ∃ t : Fin cfg5.N, (cfg5.win 3).flush t = true ∧ i ∈ ((cfg5.win 3).blk t).view.set := by
  have hi0 : (i 0).val < 50000 := (i 0).isLt
  have hi1 : (i 1).val < 64 := (i 1).isLt
  have hN : cfg5.N = 25 := N_5
  have ht : (i 0).val / 2000 < cfg5.N := by rw [hN]; omega
  obtain ⟨-, -, -, ⟨a3, b3⟩, -⟩ := reg5_idx ⟨(i 0).val / 2000, ht⟩
  have r0 : win5_3.index ⟨(i 0).val / 2000, ht⟩ (0 : Fin 2) = (i 0).val / 2000 := a3
  refine ⟨⟨(i 0).val / 2000, ht⟩, flush5_3 _, ?_⟩
  rw [reg5_mem_f]
  intro a
  match a with
  | ⟨0, _⟩ =>
    show win5_3.index ⟨(i 0).val / 2000, ht⟩ (0 : Fin 2) * 2000 ≤ (i 0).val
      ∧ (i 0).val < win5_3.index ⟨(i 0).val / 2000, ht⟩ (0 : Fin 2) * 2000 + 2000
    omega
  | ⟨1, _⟩ =>
    show win5_3.index ⟨(i 0).val / 2000, ht⟩ (1 : Fin 2) * 64 ≤ (i 1).val
      ∧ (i 1).val < win5_3.index ⟨(i 0).val / 2000, ht⟩ (1 : Fin 2) * 64 + 64
    omega

/-- Region 5 (one propagation step): its first output array ends at `f - a · dinv` of its three input arrays. -/
theorem reg5_f (c : Dev nD) :
    (dat5 V c).arrAt 3 cfg5.N = Cert.Spec.step (F := Ideal) (V c main_v46_0) (V c main_v45) (V c main_v56) :=
  (dat5 V c).arrAt_eq_of_cover 3 _ (fun t _ => reg5_flushed_f V c t) reg5_cover_f

/-- What grid point `t` writes back to the second output array is block `t` of the scaled step. -/
theorem reg5_flushed_s (c : Dev nD) (t : Fin cfg5.N) :
    (dat5 V c).flushed 4 t = ((cfg5.win 4).blk t).view.read (Elt Ideal)
      (Cert.Spec.scale (F := Ideal) (Cert.Spec.step (F := Ideal) (V c main_v46_0) (V c main_v45) (V c main_v56)) (V c main_v45)) := by
  show (cfg5.win 4).cut (grid5.coords t) ((dat5 V c).after 4 t) = _
  rw [after5_4]
  unfold out5_4
  rw [View.canon_unit_zero reg5_zero]
  simp only [View.ld_unit_zero (S := S2000x64) reg5_zero]
  rw [reg5_pay_s]
  obtain ⟨⟨a0, b0⟩, ⟨a1, b1⟩, ⟨a2, b2⟩, -, ⟨a4, b4⟩⟩ := reg5_idx t
  funext j
  have h0 : ((cfg5.win 0).blk t).view.emb j = ((cfg5.win 4).blk t).view.emb j := by
    funext a; apply Fin.ext
    match a with
    | ⟨0, _⟩ => show win5_0.index t (0 : Fin 2) * 2000 + 1 * (j 0).val = win5_4.index t (0 : Fin 2) * 2000 + 1 * (j 0).val; omega
    | ⟨1, _⟩ => show win5_0.index t (1 : Fin 2) * 64 + 1 * (j 1).val = win5_4.index t (1 : Fin 2) * 64 + 1 * (j 1).val; omega
  have h1 : ((cfg5.win 1).blk t).view.emb j = ((cfg5.win 4).blk t).view.emb j := by
    funext a; apply Fin.ext
    match a with
    | ⟨0, _⟩ => show win5_1.index t (0 : Fin 2) * 2000 + 1 * (j 0).val = win5_4.index t (0 : Fin 2) * 2000 + 1 * (j 0).val; omega
    | ⟨1, _⟩ => show win5_1.index t (1 : Fin 2) * 64 + 1 * (j 1).val = win5_4.index t (1 : Fin 2) * 64 + 1 * (j 1).val; omega
  have h2 : ((cfg5.win 2).blk t).view.emb j = ((cfg5.win 4).blk t).view.emb j := by
    funext a; apply Fin.ext
    match a with
    | ⟨0, _⟩ => show win5_2.index t (0 : Fin 2) * 2000 + 1 * (j 0).val = win5_4.index t (0 : Fin 2) * 2000 + 1 * (j 0).val; omega
    | ⟨1, _⟩ => show win5_2.index t (1 : Fin 2) * 64 + 1 * (j 1).val = win5_4.index t (1 : Fin 2) * 64 + 1 * (j 1).val; omega
  exact reg5_pt_s (V c main_v46_0) (V c main_v45) (V c main_v56) _ _ _ _ h0 h1 h2

/-- Which indices of the second output array lie in grid point `t`'s block. -/
theorem reg5_mem_s (t : Fin cfg5.N) (i : S50000x64.Idx) :
    i ∈ ((cfg5.win 4).blk t).view.set ↔ ∀ a : Fin 2, win5_4.index t a * S2000x64.size a ≤ (i a).val
      ∧ (i a).val < win5_4.index t a * S2000x64.size a + S2000x64.size a := by
  show i ∈ ((View.whole main_v57_1).slice (win5_4.rect t)).set ↔ _
  rw [View.set_slice_whole, Rect.mem_set_unit]
  exact Iff.rfl

/-- The second output's blocks tile its rows the same way. -/
theorem reg5_cover_s (i : S50000x64.Idx) :
    ∃ t : Fin cfg5.N, (cfg5.win 4).flush t = true ∧ i ∈ ((cfg5.win 4).blk t).view.set := by
  have hi0 : (i 0).val < 50000 := (i 0).isLt
  have hi1 : (i 1).val < 64 := (i 1).isLt
  have hN : cfg5.N = 25 := N_5
  have ht : (i 0).val / 2000 < cfg5.N := by rw [hN]; omega
  obtain ⟨-, -, -, -, ⟨a4, b4⟩⟩ := reg5_idx ⟨(i 0).val / 2000, ht⟩
  have r0 : win5_4.index ⟨(i 0).val / 2000, ht⟩ (0 : Fin 2) = (i 0).val / 2000 := a4
  refine ⟨⟨(i 0).val / 2000, ht⟩, flush5_4 _, ?_⟩
  rw [reg5_mem_s]
  intro a
  match a with
  | ⟨0, _⟩ =>
    show win5_4.index ⟨(i 0).val / 2000, ht⟩ (0 : Fin 2) * 2000 ≤ (i 0).val
      ∧ (i 0).val < win5_4.index ⟨(i 0).val / 2000, ht⟩ (0 : Fin 2) * 2000 + 2000
    omega
  | ⟨1, _⟩ =>
    show win5_4.index ⟨(i 0).val / 2000, ht⟩ (1 : Fin 2) * 64 ≤ (i 1).val
      ∧ (i 1).val < win5_4.index ⟨(i 0).val / 2000, ht⟩ (1 : Fin 2) * 64 + 64
    omega

/-- ... and its second output at that times `dinv`. -/
theorem reg5_s (c : Dev nD) :
    (dat5 V c).arrAt 4 cfg5.N = Cert.Spec.scale (F := Ideal) (Cert.Spec.step (F := Ideal) (V c main_v46_0) (V c main_v45) (V c main_v56)) (V c main_v45) :=
  (dat5 V c).arrAt_eq_of_cover 4 _ (fun t _ => reg5_flushed_s V c t) reg5_cover_s

end Cert.KernelIdeal.KV

end
-- ==== Proof.KReg6.lean ====
import proofs.«149625_j6124623364543_1_alg».proof.Proof.Gen.KernelIdeal.Frame
import proofs.«149625_j6124623364543_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.KV

open Idealize.ShloMosaic Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## Region 6: one propagation step, `f ↦ f - a · d`, block by block

The grid has 25 points; at point `t` every window holds rows `2000 t … 2000 t + 1999` of its array (all 64 columns).
The body loads the three input blocks whole and stores `f - a · d` whole into the first output block. So what a point
writes back there is its block of the whole-array function, and the 25 blocks tile the 50000 rows. (Only the first
output array is described here.) -/

/-- The two zero offsets of a whole-block access, as the constant-zero function. -/
theorem reg6_zero : (![0, 0] : Fin 2 → Nat) = fun _ => 0 := funext fun a => by fin_cases a <;> rfl

/-- The first payload: its shape casts are between equal shapes, so it is `f - a · d` of the loaded blocks. -/
theorem reg6_pay_f (x0 x1 x2 : Vec Ideal S2000x64 .f32) : k6_pay2 x0 x1 x2 = subf x0 (mulf x2 x1) := by
  unfold k6_pay2 k6_pay1
  simp only [shapeCast_self]

/-- The three input windows and the first output window walk the rows together: at grid point `t` each one's
    block index is `(t, 0)` (the printed index maps, evaluated at the 25 points). -/
theorem reg6_idx : ∀ t : Fin cfg6.N,
    (win6_0.index t (0 : Fin 2) = t.val ∧ win6_0.index t (1 : Fin 2) = 0)
    ∧ (win6_1.index t (0 : Fin 2) = t.val ∧ win6_1.index t (1 : Fin 2) = 0)
    ∧ (win6_2.index t (0 : Fin 2) = t.val ∧ win6_2.index t (1 : Fin 2) = 0)
    ∧ (win6_3.index t (0 : Fin 2) = t.val ∧ win6_3.index t (1 : Fin 2) = 0) :=
  (by decide +kernel : ∀ t : Fin grid6.N, _)

/-- One element of a step: with the three arrays read at one and the same index, `f - a · d` there. -/
theorem reg6_pt_f (A B C : FVec Ideal S50000x64 .f32) (i0 i1 i2 i : S50000x64.Idx) (e0 : i0 = i) (e1 : i1 = i)
    (e2 : i2 = i) : (A i0 : EReal) - C i2 * B i1 = Cert.Spec.step (F := Ideal) A B C i := by
  subst e0 e1 e2; rfl

/-- What grid point `t` writes back to the first output array is block `t` of the whole-array step: each input
    block sits in its array exactly where the output block sits in its own. -/
theorem reg6_flushed_f (c : Dev nD) (t : Fin cfg6.N) :
    (dat6 V c).flushed 3 t = ((cfg6.win 3).blk t).view.read (Elt Ideal)
      (Cert.Spec.step (F := Ideal) (V c main_v57_0) (V c main_v45) (V c main_v67)) := by
  show (cfg6.win 3).cut (grid6.coords t) ((dat6 V c).after 3 t) = _
  rw [after6_3]
  unfold out6_3
  rw [View.canon_unit_zero reg6_zero]
  simp only [View.ld_unit_zero (S := S2000x64) reg6_zero]
  rw [reg6_pay_f]
  obtain ⟨⟨a0, b0⟩, ⟨a1, b1⟩, ⟨a2, b2⟩, ⟨a3, b3⟩⟩ := reg6_idx t
  funext j
  have h0 : ((cfg6.win 0).blk t).view.emb j = ((cfg6.win 3).blk t).view.emb j := by
    funext a; apply Fin.ext
    match a with
    | ⟨0, _⟩ => show win6_0.index t (0 : Fin 2) * 2000 + 1 * (j 0).val = win6_3.index t (0 : Fin 2) * 2000 + 1 * (j 0).val; omega
    | ⟨1, _⟩ => show win6_0.index t (1 : Fin 2) * 64 + 1 * (j 1).val = win6_3.index t (1 : Fin 2) * 64 + 1 * (j 1).val; omega
  have h1 : ((cfg6.win 1).blk t).view.emb j = ((cfg6.win 3).blk t).view.emb j := by
    funext a; apply Fin.ext
    match a with
    | ⟨0, _⟩ => show win6_1.index t (0 : Fin 2) * 2000 + 1 * (j 0).val = win6_3.index t (0 : Fin 2) * 2000 + 1 * (j 0).val; omega
    | ⟨1, _⟩ => show win6_1.index t (1 : Fin 2) * 64 + 1 * (j 1).val = win6_3.index t (1 : Fin 2) * 64 + 1 * (j 1).val; omega
  have h2 : ((cfg6.win 2).blk t).view.emb j = ((cfg6.win 3).blk t).view.emb j := by
    funext a; apply Fin.ext
    match a with
    | ⟨0, _⟩ => show win6_2.index t (0 : Fin 2) * 2000 + 1 * (j 0).val = win6_3.index t (0 : Fin 2) * 2000 + 1 * (j 0).val; omega
    | ⟨1, _⟩ => show win6_2.index t (1 : Fin 2) * 64 + 1 * (j 1).val = win6_3.index t (1 : Fin 2) * 64 + 1 * (j 1).val; omega
  exact reg6_pt_f (V c main_v57_0) (V c main_v45) (V c main_v67) _ _ _ _ h0 h1 h2

/-- Which indices of the first output array lie in grid point `t`'s block: those whose coordinates are in the
    block's range on each axis. -/
theorem reg6_mem_f (t : Fin cfg6.N) (i : S50000x64.Idx) :
    i ∈ ((cfg6.win 3).blk t).view.set ↔ ∀ a : Fin 2, win6_3.index t a * S2000x64.size a ≤ (i a).val
      ∧ (i a).val < win6_3.index t a * S2000x64.size a + S2000x64.size a := by
  show i ∈ ((View.whole main_v68_0).slice (win6_3.rect t)).set ↔ _
  rw [View.set_slice_whole, Rect.mem_set_unit]
  exact Iff.rfl

/-- The 25 blocks of 2000 rows tile the 50000 rows: row `r` is in the block of point `r / 2000`. -/
theorem reg6_cover_f (i : S50000x64.Idx) :
    ∃ t : Fin cfg6.N, (cfg6.win 3).flush t = true ∧ i ∈ ((cfg6.win 3).blk t).view.set := by
  have hi0 : (i 0).val < 50000 := (i 0).isLt
  have hi1 : (i 1).val < 64 := (i 1).isLt
  have hN : cfg6.N = 25 := N_6
  have ht : (i 0).val / 2000 < cfg6.N := by rw [hN]; omega
  obtain ⟨-, -, -, ⟨a3, b3⟩⟩ := reg6_idx ⟨(i 0).val / 2000, ht⟩
  have r0 : win6_3.index ⟨(i 0).val / 2000, ht⟩ (0 : Fin 2) = (i 0).val / 2000 := a3
  refine ⟨⟨(i 0).val / 2000, ht⟩, flush6_3 _, ?_⟩
  rw [reg6_mem_f]
  intro a
  match a with
  | ⟨0, _⟩ =>
    show win6_3.index ⟨(i 0).val / 2000, ht⟩ (0 : Fin 2) * 2000 ≤ (i 0).val
      ∧ (i 0).val < win6_3.index ⟨(i 0).val / 2000, ht⟩ (0 : Fin 2) * 2000 + 2000
    omega
  | ⟨1, _⟩ =>
    show win6_3.index ⟨(i 0).val / 2000, ht⟩ (1 : Fin 2) * 64 ≤ (i 1).val
      ∧ (i 1).val < win6_3.index ⟨(i 0).val / 2000, ht⟩ (1 : Fin 2) * 64 + 64
    omega

/-- Region 6 (one propagation step): its first output array ends at `f - a · dinv` of its three input arrays. -/
theorem reg6_f (c : Dev nD) :
    (dat6 V c).arrAt 3 cfg6.N = Cert.Spec.step (F := Ideal) (V c main_v57_0) (V c main_v45) (V c main_v67) :=
  (dat6 V c).arrAt_eq_of_cover 3 _ (fun t _ => reg6_flushed_f V c t) reg6_cover_f

end Cert.KernelIdeal.KV

end
-- ==== Proof.KReg7.lean ====
import proofs.«149625_j6124623364543_1_alg».proof.Proof.Gen.KernelIdeal.Frame
import proofs.«149625_j6124623364543_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.KV

open Idealize.ShloMosaic Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

open Idealize.ShloMosaic.ValueIdx

/-- One linear combination of the spec, read at an index: the three constants times the three tables there. -/
theorem reg7_comb_apply (w0 w1 w2 : BitVec 32) (g0 g1 g2 : FVec Ideal Cert.ReferenceIdeal.S50000x64 .f32)
    (i : Cert.ReferenceIdeal.S50000x64.Idx) :
    Cert.Spec.comb (F := Ideal) w0 w1 w2 g0 g1 g2 i
      = Ideal.ofBits .f32 w0 * g0 i + Ideal.ofBits .f32 w1 * g1 i + Ideal.ofBits .f32 w2 * g2 i := rfl

/-- Three tables side by side, read in the first table's columns. -/
theorem reg7_cat3_lo (a b d : FVec Ideal Cert.ReferenceIdeal.S50000x64 .f32) (r : Fin 50000) (q : Fin 64) (h : 0 + q.val < 192) :
    Cert.Spec.cat3 (F := Ideal) a b d (ix2 r (⟨0 + q.val, h⟩ : Fin 192)) = a (ix2 r q) := by
  unfold Cert.Spec.cat3
  refine concatenate_apply_piece (1 : Fin 2) [⟨Cert.ReferenceIdeal.S50000x64, a⟩, ⟨Cert.ReferenceIdeal.S50000x64, b⟩, ⟨Cert.ReferenceIdeal.S50000x64, d⟩] _
    (ix2 r (⟨0 + q.val, h⟩ : Fin 192)) 0 (by show (0 : ℕ) < 3; omega) Cert.ReferenceIdeal.S50000x64 a rfl rfl 0 rfl (ix2 r q) ?_ rfl
  intro b hb
  match b with
  | ⟨0, _⟩ => rfl
  | ⟨1, _⟩ => exact absurd rfl hb

/-- Three tables side by side, read in the second table's columns. -/
theorem reg7_cat3_mid (a b d : FVec Ideal Cert.ReferenceIdeal.S50000x64 .f32) (r : Fin 50000) (q : Fin 64) (h : 64 + q.val < 192) :
    Cert.Spec.cat3 (F := Ideal) a b d (ix2 r (⟨64 + q.val, h⟩ : Fin 192)) = b (ix2 r q) := by
  unfold Cert.Spec.cat3
  refine concatenate_apply_piece (1 : Fin 2) [⟨Cert.ReferenceIdeal.S50000x64, a⟩, ⟨Cert.ReferenceIdeal.S50000x64, b⟩, ⟨Cert.ReferenceIdeal.S50000x64, d⟩] _
    (ix2 r (⟨64 + q.val, h⟩ : Fin 192)) 1 (by show (1 : ℕ) < 3; omega) Cert.ReferenceIdeal.S50000x64 b rfl rfl 64 rfl (ix2 r q) ?_ rfl
  intro b hb
  match b with
  | ⟨0, _⟩ => rfl
  | ⟨1, _⟩ => exact absurd rfl hb

/-- Three tables side by side, read in the third table's columns. -/
theorem reg7_cat3_hi (a b d : FVec Ideal Cert.ReferenceIdeal.S50000x64 .f32) (r : Fin 50000) (q : Fin 64) (h : 128 + q.val < 192) :
    Cert.Spec.cat3 (F := Ideal) a b d (ix2 r (⟨128 + q.val, h⟩ : Fin 192)) = d (ix2 r q) := by
  unfold Cert.Spec.cat3
  refine concatenate_apply_piece (1 : Fin 2) [⟨Cert.ReferenceIdeal.S50000x64, a⟩, ⟨Cert.ReferenceIdeal.S50000x64, b⟩, ⟨Cert.ReferenceIdeal.S50000x64, d⟩] _
    (ix2 r (⟨128 + q.val, h⟩ : Fin 192)) 2 (by show (2 : ℕ) < 3; omega) Cert.ReferenceIdeal.S50000x64 d rfl rfl 128 rfl (ix2 r q) ?_ rfl
  intro b hb
  match b with
  | ⟨0, _⟩ => rfl
  | ⟨1, _⟩ => exact absurd rfl hb

/-- The body's three stored values at a block index: the same constants times the three loaded blocks there. -/
theorem reg7_pay4_apply (x0 x1 x2 : Vec Ideal S2000x64 .f32) (y : S2000x64.Idx) :
    k7_pay4 (F := Ideal) x0 x1 x2 y
      = Ideal.ofBits .f32 0x40800000#32 * x0 y + Ideal.ofBits .f32 0x40800000#32 * x1 y + Ideal.ofBits .f32 0x40800000#32 * x2 y := by
  unfold k7_pay4 k7_pay1 k7_pay2 k7_pay3
  simp only [shapeCast_self]
  rfl

theorem reg7_pay5_apply (x0 x1 x2 : Vec Ideal S2000x64 .f32) (y : S2000x64.Idx) :
    k7_pay5 (F := Ideal) x0 x1 x2 y
      = Ideal.ofBits .f32 0x40800000#32 * x0 y + Ideal.ofBits .f32 0x40800000#32 * x1 y + Ideal.ofBits .f32 0x40800000#32 * x2 y := by
  unfold k7_pay5 k7_pay1 k7_pay2 k7_pay3
  simp only [shapeCast_self]
  rfl

theorem reg7_pay6_apply (x0 x1 x2 : Vec Ideal S2000x64 .f32) (y : S2000x64.Idx) :
    k7_pay6 (F := Ideal) x0 x1 x2 y
      = Ideal.ofBits .f32 0x40800000#32 * x0 y + Ideal.ofBits .f32 0x40800000#32 * x1 y + Ideal.ofBits .f32 0x40800000#32 * x2 y := by
  unfold k7_pay6 k7_pay1 k7_pay2 k7_pay3
  simp only [shapeCast_self]
  rfl

theorem reg7_hz : (![0, 0] : Fin 2 → Nat) = fun _ => 0 := funext fun a => by fin_cases a <;> rfl

/-- The four index maps over the grid: point `t` has block row `t` and block column 0 in every window. -/
theorem reg7_idx : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0 :=
  (by decide +kernel : ∀ t : Fin grid7.N, _)

theorem reg7_t_lt (t : Fin cfg7.N) : t.val < 25 := Nat.lt_of_lt_of_eq t.isLt N_7

/-- Row `p` of point `t`'s blocks is row `2000 t + p` of the arrays. -/
def reg7_row (t : Fin cfg7.N) (p : Fin 2000) : Fin 50000 := ⟨2000 * t.val + p.val, by have := reg7_t_lt t; omega⟩

/-- Each input block at `(p, q)` is its array at `(2000 t + p, q)`. -/
theorem reg7_iblk0_apply (c : Dev nD) (t : Fin cfg7.N) (p : Fin 2000) (q : Fin 64) :
    (iblk7 V c 0 t : Vec Ideal S2000x64 .f32) (ix2 p q) = V c main_v46_0 (ix2 (reg7_row t p) q) := by
  unfold iblk7
  rw [View.read_apply]
  show V c main_v46_0 _ = V c main_v46_0 _
  congr 1
  funext a
  apply Fin.ext
  obtain ⟨e0, e1, -⟩ := reg7_idx t
  match a with
  | ⟨0, _⟩ => show win7_0.index t (0 : Fin 2) * 2000 + 1 * p.val = 2000 * t.val + p.val; rw [e0]; omega
  | ⟨1, _⟩ => show win7_0.index t (1 : Fin 2) * 64 + 1 * q.val = q.val; rw [e1]; omega

theorem reg7_iblk1_apply (c : Dev nD) (t : Fin cfg7.N) (p : Fin 2000) (q : Fin 64) :
    (iblk7 V c 1 t : Vec Ideal S2000x64 .f32) (ix2 p q) = V c main_v57_0 (ix2 (reg7_row t p) q) := by
  unfold iblk7
  rw [View.read_apply]
  show V c main_v57_0 _ = V c main_v57_0 _
  congr 1
  funext a
  apply Fin.ext
  obtain ⟨-, -, e0, e1, -⟩ := reg7_idx t
  match a with
  | ⟨0, _⟩ => show win7_1.index t (0 : Fin 2) * 2000 + 1 * p.val = 2000 * t.val + p.val; rw [e0]; omega
  | ⟨1, _⟩ => show win7_1.index t (1 : Fin 2) * 64 + 1 * q.val = q.val; rw [e1]; omega

theorem reg7_iblk2_apply (c : Dev nD) (t : Fin cfg7.N) (p : Fin 2000) (q : Fin 64) :
    (iblk7 V c 2 t : Vec Ideal S2000x64 .f32) (ix2 p q) = V c main_v68_0 (ix2 (reg7_row t p) q) := by
  unfold iblk7
  rw [View.read_apply]
  show V c main_v68_0 _ = V c main_v68_0 _
  congr 1
  funext a
  apply Fin.ext
  obtain ⟨-, -, -, -, e0, e1, -⟩ := reg7_idx t
  match a with
  | ⟨0, _⟩ => show win7_2.index t (0 : Fin 2) * 2000 + 1 * p.val = 2000 * t.val + p.val; rw [e0]; omega
  | ⟨1, _⟩ => show win7_2.index t (1 : Fin 2) * 64 + 1 * q.val = q.val; rw [e1]; omega

/-- Where the element `(p, q)` of the slab stored at column offset `o` sits in the output array at point `t`. -/
theorem reg7_out_idx (t : Fin cfg7.N) (o : Nat) (ho : o + 64 ≤ 192) (inb) (p : Fin 2000) (q : Fin 64) :
    ((cfg7.win 3).blk t).view.emb ((Rect.unit (s := S2000x192) ![0, o] S2000x64.size inb).emb (ix2 p q))
      = (ix2 (reg7_row t p) (⟨o + q.val, by omega⟩ : Fin 192) : S50000x192.Idx) := by
  funext a
  apply Fin.ext
  obtain ⟨-, -, -, -, -, -, e0, e1⟩ := reg7_idx t
  match a with
  | ⟨0, _⟩ => show win7_3.index t (0 : Fin 2) * 2000 + 1 * (0 + 1 * p.val) = 2000 * t.val + p.val; rw [e0]; omega
  | ⟨1, _⟩ => show win7_3.index t (1 : Fin 2) * 192 + 1 * (o + 1 * q.val) = o + q.val; rw [e1]; omega

/-- The slab stored at columns [0, 64) is the first combination's rows of the point. -/
theorem reg7_piece_lo (c : Dev nD) (t : Fin cfg7.N) (p : Fin 2000) (q : Fin 64) :
    k7_pay4 (F := Ideal) (iblk7 V c 0 t) (iblk7 V c 1 t) (iblk7 V c 2 t) (ix2 p q)
      = Cert.Spec.combS (F := Ideal) (V c main_v46_0) (V c main_v57_0) (V c main_v68_0)
          (((cfg7.win 3).blk t).view.emb (r7_1.emb (ix2 p q))) := by
  refine Eq.trans ?_ (congrArg _ (reg7_out_idx t 0 (by omega) _ p q)).symm
  unfold Cert.Spec.combS
  rw [reg7_cat3_lo, reg7_comb_apply, reg7_pay4_apply, reg7_iblk0_apply, reg7_iblk1_apply, reg7_iblk2_apply]

/-- The slab stored at columns [64, 128) is the second combination's rows of the point. -/
theorem reg7_piece_mid (c : Dev nD) (t : Fin cfg7.N) (p : Fin 2000) (q : Fin 64) :
    k7_pay5 (F := Ideal) (iblk7 V c 0 t) (iblk7 V c 1 t) (iblk7 V c 2 t) (ix2 p q)
      = Cert.Spec.combS (F := Ideal) (V c main_v46_0) (V c main_v57_0) (V c main_v68_0)
          (((cfg7.win 3).blk t).view.emb (r7_2.emb (ix2 p q))) := by
  refine Eq.trans ?_ (congrArg _ (reg7_out_idx t 64 (by omega) _ p q)).symm
  unfold Cert.Spec.combS
  rw [reg7_cat3_mid, reg7_comb_apply, reg7_pay5_apply, reg7_iblk0_apply, reg7_iblk1_apply, reg7_iblk2_apply]

/-- The slab stored at columns [128, 192) is the third combination's rows of the point. -/
theorem reg7_piece_hi (c : Dev nD) (t : Fin cfg7.N) (p : Fin 2000) (q : Fin 64) :
    k7_pay6 (F := Ideal) (iblk7 V c 0 t) (iblk7 V c 1 t) (iblk7 V c 2 t) (ix2 p q)
      = Cert.Spec.combS (F := Ideal) (V c main_v46_0) (V c main_v57_0) (V c main_v68_0)
          (((cfg7.win 3).blk t).view.emb (r7_3.emb (ix2 p q))) := by
  refine Eq.trans ?_ (congrArg _ (reg7_out_idx t 128 (by omega) _ p q)).symm
  unfold Cert.Spec.combS
  rw [reg7_cat3_hi, reg7_comb_apply, reg7_pay6_apply, reg7_iblk0_apply, reg7_iblk1_apply, reg7_iblk2_apply]

/-- What point `t` writes back is its block of the spec's array. -/
theorem reg7_flushed (c : Dev nD) (t : Fin cfg7.N) :
    (dat7 V c).flushed 3 t = ((cfg7.win 3).blk t).view.read (Elt Ideal)
      (Cert.Spec.combS (F := Ideal) (V c main_v46_0) (V c main_v57_0) (V c main_v68_0)) := by
  show (cfg7.win 3).cut (grid7.coords t) ((dat7 V c).after 3 t) = _
  rw [after7_3]
  unfold out7_3
  simp only [View.ld_unit_zero (S := S2000x64) reg7_hz]
  funext y
  rw [View.read_apply]
  refine View.canon_apply_of_pieces (Val := Elt Ideal) (S := S2000x192) (e := .f32)
    (fun y => Cert.Spec.combS (F := Ideal) (V c main_v46_0) (V c main_v57_0) (V c main_v68_0) (((cfg7.win 3).blk t).view.emb y))
    _ ?_ y (cover7_3 _ _ _ y)
  intro pc hpc x
  simp only [List.mem_cons, List.not_mem_nil, or_false] at hpc
  rcases hpc with rfl | rfl | rfl
  · obtain ⟨p, q, rfl⟩ : ∃ (p : Fin 2000) (q : Fin 64), x = ix2 p q := ⟨x 0, x 1, eq_ix2 x⟩
    exact reg7_piece_hi V c t p q
  · obtain ⟨p, q, rfl⟩ : ∃ (p : Fin 2000) (q : Fin 64), x = ix2 p q := ⟨x 0, x 1, eq_ix2 x⟩
    exact reg7_piece_mid V c t p q
  · obtain ⟨p, q, rfl⟩ : ∃ (p : Fin 2000) (q : Fin 64), x = ix2 p q := ⟨x 0, x 1, eq_ix2 x⟩
    exact reg7_piece_lo V c t p q

/-- An index of the output array is in point `t`'s block iff each coordinate is in the block's range on its axis. -/
theorem reg7_mem_blk (t : Fin cfg7.N) (i : S50000x192.Idx) :
    i ∈ ((cfg7.win 3).blk t).view.set ↔ ∀ a : Fin 2, win7_3.index t a * S2000x192.size a ≤ (i a).val ∧ (i a).val < win7_3.index t a * S2000x192.size a + S2000x192.size a := by
  show i ∈ ((View.whole main_v69).slice (win7_3.rect t)).set ↔ _
  rw [View.set_slice_whole, Rect.mem_set_unit]
  exact Iff.rfl

/-- Every index of the output array is in the block of the point its row falls in. -/
theorem reg7_cover (i : S50000x192.Idx) :
    ∃ t : Fin cfg7.N, (cfg7.win 3).flush t = true ∧ i ∈ ((cfg7.win 3).blk t).view.set := by
  have h0 : (i 0).val < 50000 := (i 0).isLt
  have h1 : (i 1).val < 192 := (i 1).isLt
  let t : Fin cfg7.N := ⟨(i 0).val / 2000, Nat.lt_of_lt_of_eq (show (i 0).val / 2000 < 25 by omega) N_7.symm⟩
  refine ⟨t, flush7_3 t, ?_⟩
  rw [reg7_mem_blk]
  obtain ⟨-, -, -, -, -, -, e0, e1⟩ := reg7_idx t
  intro a
  match a with
  | ⟨0, _⟩ =>
    show win7_3.index t (0 : Fin 2) * 2000 ≤ (i 0).val ∧ (i 0).val < win7_3.index t (0 : Fin 2) * 2000 + 2000
    rw [e0]; show (i 0).val / 2000 * 2000 ≤ (i 0).val ∧ (i 0).val < (i 0).val / 2000 * 2000 + 2000; omega
  | ⟨1, _⟩ =>
    show win7_3.index t (1 : Fin 2) * 192 ≤ (i 1).val ∧ (i 1).val < win7_3.index t (1 : Fin 2) * 192 + 192
    rw [e1]; omega

theorem reg7 (c : Dev nD) :
    (dat7 V c).arrAt 3 cfg7.N = Cert.Spec.combS (F := Ideal) (V c main_v46_0) (V c main_v57_0) (V c main_v68_0) :=
  (dat7 V c).arrAt_eq_of_cover 3 _ (fun t _ => reg7_flushed V c t) reg7_cover

end Cert.KernelIdeal.KV

end
-- ==== Proof.KReg8.lean ====
/-
  Region 8 of the kernel program: the two-layer perceptron over the 384 feature columns, 2000 rows at a time.

  Each of the 25 grid points loads one block of 2000 rows of the feature table and the whole weight and bias arrays, and
  stores `max (x · W1 + b1, 0) · W2 + b2` for its rows; the operands of both products are first changed to bf16, which on
  extended reals is the identity, and each product accumulates into a zero splat. Read at one index `(p, q)` of the block
  that is `Σ_{k<64} max ((Σ_{l<384} x(p,l)·W1(l,k)) + b1(0,k), 0) · W2(k,q) + b2(0,q)` (`reg8_row`); the whole-array
  function `Cert.Spec.mlp` read at `(r, q)` is the same expression of row `r` of the table. Row `p` of point `t`'s block
  is row `2000·t + p` of the table, on the input side and on the output side, so what point `t` writes back is block `t`
  of the whole-array function; the 25 blocks cover the 50000 rows, so the result array ends holding it.
-/
import proofs.«149625_j6124623364543_1_alg».proof.Proof.Gen.KernelIdeal.Frame
import proofs.«149625_j6124623364543_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV

open Idealize.ShloMosaic Idealize.ShloMosaic.TcCoe Idealize.SL.Sem
open Idealize.ShloMosaic.Pipeline (Dat Cfg Window)
open Cert.KernelIdeal Cert.KernelIdeal.Gen
open Idealize.ShloMosaic.ValueIdx

variable (V : (c : Dev nD) → (b : Ref sig .tc) → Buf (Elt Ideal) ((c : Thread nD τ).loc b))

/-! ## The perceptron at one row, as extended reals

Row `r` of a feature table `h` (any number of rows), hidden unit `k`:
`max (Σ_l h(r,l)·W1(l,k) + b1(0,k), 0)`; output column `q`: `Σ_k hidden(r,k)·W2(k,q) + b2(0,q)`.
Both the kernel's block payload (2000 rows) and the whole-array function (50000 rows) are this, read at an index. -/

/-- Hidden unit `k` of row `r`. -/
def reg8_hid (n : Nat) (h : (⟨2, ![n, 384]⟩ : Shape).Idx → EReal) (W1 : (⟨2, ![384, 64]⟩ : Shape).Idx → EReal)
    (b1 : (⟨2, ![1, 64]⟩ : Shape).Idx → EReal) (r : Fin n) (k : Fin 64) : EReal :=
  max ((∑ l : Fin 384, h (ix2 r l) * W1 (ix2 l k)) + b1 (ix2 (0 : Fin 1) k)) (Ideal.ofBits .f32 0x00000000#32)

/-- Output column `q` of row `r`. -/
def reg8_row (n : Nat) (h : (⟨2, ![n, 384]⟩ : Shape).Idx → EReal) (W1 : (⟨2, ![384, 64]⟩ : Shape).Idx → EReal)
    (b1 : (⟨2, ![1, 64]⟩ : Shape).Idx → EReal) (W2 : (⟨2, ![64, 2]⟩ : Shape).Idx → EReal)
    (b2 : (⟨2, ![1, 2]⟩ : Shape).Idx → EReal) (r : Fin n) (q : Fin 2) : EReal :=
  (∑ k : Fin 64, reg8_hid n h W1 b1 r k * W2 (ix2 k q)) + b2 (ix2 (0 : Fin 1) q)

/-! ## The kernel's two contractions at an index -/

theorem reg8_kdotA_lhs_0 (i : S2000x64.Idx) (u : dot_S2000x384_S384x64_S2000x64_1_0_0_1_n_n.contr.Idx) :
    (dot_S2000x384_S384x64_S2000x64_1_0_0_1_n_n.lhsIdx i u 0).val = (i 0).val := by
  unfold DotDims.lhsIdx
  rw [dif_neg (show ¬(0 : Fin S2000x384.rank) ∈ dot_S2000x384_S384x64_S2000x64_1_0_0_1_n_n.lhsBatch by decide),
    dif_pos (show (0 : Fin S2000x384.rank) ∈ dot_S2000x384_S384x64_S2000x64_1_0_0_1_n_n.lhsNonContracting by decide)]
  rfl
theorem reg8_kdotA_lhs_1 (i : S2000x64.Idx) (u : dot_S2000x384_S384x64_S2000x64_1_0_0_1_n_n.contr.Idx) :
    (dot_S2000x384_S384x64_S2000x64_1_0_0_1_n_n.lhsIdx i u 1).val = (u ⟨0, by decide⟩).val :=
  dot_S2000x384_S384x64_S2000x64_1_0_0_1_n_n.lhsIdx_val_of_single rfl i u
theorem reg8_kdotA_rhs_0 (i : S2000x64.Idx) (u : dot_S2000x384_S384x64_S2000x64_1_0_0_1_n_n.contr.Idx) :
    (dot_S2000x384_S384x64_S2000x64_1_0_0_1_n_n.rhsIdx i u 0).val = (u ⟨0, by decide⟩).val :=
  dot_S2000x384_S384x64_S2000x64_1_0_0_1_n_n.rhsIdx_val_of_single rfl i u
theorem reg8_kdotA_rhs_1 (i : S2000x64.Idx) (u : dot_S2000x384_S384x64_S2000x64_1_0_0_1_n_n.contr.Idx) :
    (dot_S2000x384_S384x64_S2000x64_1_0_0_1_n_n.rhsIdx i u 1).val = (i 1).val := by
  unfold DotDims.rhsIdx
  rw [dif_neg (show ¬(1 : Fin S384x64.rank) ∈ dot_S2000x384_S384x64_S2000x64_1_0_0_1_n_n.rhsBatch by decide),
    dif_pos (show (1 : Fin S384x64.rank) ∈ dot_S2000x384_S384x64_S2000x64_1_0_0_1_n_n.rhsNonContracting by decide)]
  rfl

/-- The first `tpu.matmul` into the zero accumulator, at `(p, k)`: the sum over the 384 features. -/
theorem reg8_kdotA_apply (a : FVec Ideal S2000x384 .bf16) (b : FVec Ideal S384x64 .bf16) (p : Fin 2000) (k : Fin 64) :
    matmul dot_S2000x384_S384x64_S2000x64_1_0_0_1_n_n none a b (constant (F := Ideal) S2000x64 .f32 0x00000000#32) (ix2 p k)
      = ∑ l : Fin 384, a (ix2 p l) * b (ix2 l k) := by
  simp only [matmul]
  rw [Ideal.matmul_constant_zero_apply,
    ← Equiv.sum_comp (contrEquiv1 dot_S2000x384_S384x64_S2000x64_1_0_0_1_n_n 384 rfl rfl).symm]
  refine Finset.sum_congr rfl fun l _ => ?_
  have hl := contrEquiv1_symm_val dot_S2000x384_S384x64_S2000x64_1_0_0_1_n_n 384 rfl rfl l
  have el : dot_S2000x384_S384x64_S2000x64_1_0_0_1_n_n.lhsIdx (ix2 p k)
      ((contrEquiv1 dot_S2000x384_S384x64_S2000x64_1_0_0_1_n_n 384 rfl rfl).symm l) = ix2 p l :=
    funext fun a => Fin.ext (by
      match a with
      | ⟨0, _⟩ => exact reg8_kdotA_lhs_0 _ _
      | ⟨1, _⟩ => exact (reg8_kdotA_lhs_1 _ _).trans hl)
  have er : dot_S2000x384_S384x64_S2000x64_1_0_0_1_n_n.rhsIdx (ix2 p k)
      ((contrEquiv1 dot_S2000x384_S384x64_S2000x64_1_0_0_1_n_n 384 rfl rfl).symm l) = ix2 l k :=
    funext fun a => Fin.ext (by
      match a with
      | ⟨0, _⟩ => exact (reg8_kdotA_rhs_0 _ _).trans hl
      | ⟨1, _⟩ => exact reg8_kdotA_rhs_1 _ _)
  rw [el, er]

theorem reg8_kdotB_lhs_0 (i : S2000x2.Idx) (u : dot_S2000x64_S64x2_S2000x2_1_0_0_1_n_n.contr.Idx) :
    (dot_S2000x64_S64x2_S2000x2_1_0_0_1_n_n.lhsIdx i u 0).val = (i 0).val := by
  unfold DotDims.lhsIdx
  rw [dif_neg (show ¬(0 : Fin S2000x64.rank) ∈ dot_S2000x64_S64x2_S2000x2_1_0_0_1_n_n.lhsBatch by decide),
    dif_pos (show (0 : Fin S2000x64.rank) ∈ dot_S2000x64_S64x2_S2000x2_1_0_0_1_n_n.lhsNonContracting by decide)]
  rfl
theorem reg8_kdotB_lhs_1 (i : S2000x2.Idx) (u : dot_S2000x64_S64x2_S2000x2_1_0_0_1_n_n.contr.Idx) :
    (dot_S2000x64_S64x2_S2000x2_1_0_0_1_n_n.lhsIdx i u 1).val = (u ⟨0, by decide⟩).val :=
  dot_S2000x64_S64x2_S2000x2_1_0_0_1_n_n.lhsIdx_val_of_single rfl i u
theorem reg8_kdotB_rhs_0 (i : S2000x2.Idx) (u : dot_S2000x64_S64x2_S2000x2_1_0_0_1_n_n.contr.Idx) :
    (dot_S2000x64_S64x2_S2000x2_1_0_0_1_n_n.rhsIdx i u 0).val = (u ⟨0, by decide⟩).val :=
  dot_S2000x64_S64x2_S2000x2_1_0_0_1_n_n.rhsIdx_val_of_single rfl i u
theorem reg8_kdotB_rhs_1 (i : S2000x2.Idx) (u : dot_S2000x64_S64x2_S2000x2_1_0_0_1_n_n.contr.Idx) :
    (dot_S2000x64_S64x2_S2000x2_1_0_0_1_n_n.rhsIdx i u 1).val = (i 1).val := by
  unfold DotDims.rhsIdx
  rw [dif_neg (show ¬(1 : Fin S64x2.rank) ∈ dot_S2000x64_S64x2_S2000x2_1_0_0_1_n_n.rhsBatch by decide),
    dif_pos (show (1 : Fin S64x2.rank) ∈ dot_S2000x64_S64x2_S2000x2_1_0_0_1_n_n.rhsNonContracting by decide)]
  rfl

/-- The second `tpu.matmul` into the zero accumulator, at `(p, q)`: the sum over the 64 hidden units. -/
theorem reg8_kdotB_apply (a : FVec Ideal S2000x64 .bf16) (b : FVec Ideal S64x2 .bf16) (p : Fin 2000) (q : Fin 2) :
    matmul dot_S2000x64_S64x2_S2000x2_1_0_0_1_n_n none a b (constant (F := Ideal) S2000x2 .f32 0x00000000#32) (ix2 p q)
      = ∑ k : Fin 64, a (ix2 p k) * b (ix2 k q) := by
  simp only [matmul]
  rw [Ideal.matmul_constant_zero_apply,
    ← Equiv.sum_comp (contrEquiv1 dot_S2000x64_S64x2_S2000x2_1_0_0_1_n_n 64 rfl rfl).symm]
  refine Finset.sum_congr rfl fun k _ => ?_
  have hk := contrEquiv1_symm_val dot_S2000x64_S64x2_S2000x2_1_0_0_1_n_n 64 rfl rfl k
  have el : dot_S2000x64_S64x2_S2000x2_1_0_0_1_n_n.lhsIdx (ix2 p q)
      ((contrEquiv1 dot_S2000x64_S64x2_S2000x2_1_0_0_1_n_n 64 rfl rfl).symm k) = ix2 p k :=
    funext fun a => Fin.ext (by
      match a with
      | ⟨0, _⟩ => exact reg8_kdotB_lhs_0 _ _
      | ⟨1, _⟩ => exact (reg8_kdotB_lhs_1 _ _).trans hk)
  have er : dot_S2000x64_S64x2_S2000x2_1_0_0_1_n_n.rhsIdx (ix2 p q)
      ((contrEquiv1 dot_S2000x64_S64x2_S2000x2_1_0_0_1_n_n 64 rfl rfl).symm k) = ix2 k q :=
    funext fun a => Fin.ext (by
      match a with
      | ⟨0, _⟩ => exact (reg8_kdotB_rhs_0 _ _).trans hk
      | ⟨1, _⟩ => exact reg8_kdotB_rhs_1 _ _)
  rw [el, er]

/-! ## The whole-array function's two contractions at an index -/

theorem reg8_hdotA_lhs_0 (i : Cert.ReferenceIdeal.S50000x64.Idx)
    (u : Cert.ReferenceIdeal.dot_S50000x384_S384x64_S50000x64_1_0_0_1_n_n.contr.Idx) :
    (Cert.ReferenceIdeal.dot_S50000x384_S384x64_S50000x64_1_0_0_1_n_n.lhsIdx i u 0).val = (i 0).val := by
  unfold DotDims.lhsIdx
  rw [dif_neg (show ¬(0 : Fin Cert.ReferenceIdeal.S50000x384.rank) ∈ Cert.ReferenceIdeal.dot_S50000x384_S384x64_S50000x64_1_0_0_1_n_n.lhsBatch by decide),
    dif_pos (show (0 : Fin Cert.ReferenceIdeal.S50000x384.rank) ∈ Cert.ReferenceIdeal.dot_S50000x384_S384x64_S50000x64_1_0_0_1_n_n.lhsNonContracting by decide)]
  rfl
theorem reg8_hdotA_lhs_1 (i : Cert.ReferenceIdeal.S50000x64.Idx)
    (u : Cert.ReferenceIdeal.dot_S50000x384_S384x64_S50000x64_1_0_0_1_n_n.contr.Idx) :
    (Cert.ReferenceIdeal.dot_S50000x384_S384x64_S50000x64_1_0_0_1_n_n.lhsIdx i u 1).val = (u ⟨0, by decide⟩).val :=
  Cert.ReferenceIdeal.dot_S50000x384_S384x64_S50000x64_1_0_0_1_n_n.lhsIdx_val_of_single rfl i u
theorem reg8_hdotA_rhs_0 (i : Cert.ReferenceIdeal.S50000x64.Idx)
    (u : Cert.ReferenceIdeal.dot_S50000x384_S384x64_S50000x64_1_0_0_1_n_n.contr.Idx) :
    (Cert.ReferenceIdeal.dot_S50000x384_S384x64_S50000x64_1_0_0_1_n_n.rhsIdx i u 0).val = (u ⟨0, by decide⟩).val :=
  Cert.ReferenceIdeal.dot_S50000x384_S384x64_S50000x64_1_0_0_1_n_n.rhsIdx_val_of_single rfl i u
theorem reg8_hdotA_rhs_1 (i : Cert.ReferenceIdeal.S50000x64.Idx)
    (u : Cert.ReferenceIdeal.dot_S50000x384_S384x64_S50000x64_1_0_0_1_n_n.contr.Idx) :
    (Cert.ReferenceIdeal.dot_S50000x384_S384x64_S50000x64_1_0_0_1_n_n.rhsIdx i u 1).val = (i 1).val := by
  unfold DotDims.rhsIdx
  rw [dif_neg (show ¬(1 : Fin Cert.ReferenceIdeal.S384x64.rank) ∈ Cert.ReferenceIdeal.dot_S50000x384_S384x64_S50000x64_1_0_0_1_n_n.rhsBatch by decide),
    dif_pos (show (1 : Fin Cert.ReferenceIdeal.S384x64.rank) ∈ Cert.ReferenceIdeal.dot_S50000x384_S384x64_S50000x64_1_0_0_1_n_n.rhsNonContracting by decide)]
  rfl

/-- The host's first `dot_general` at `(r, k)`: the sum over the 384 features. -/
theorem reg8_hdotA_apply (a : FVec Ideal Cert.ReferenceIdeal.S50000x384 .f32) (b : FVec Ideal Cert.ReferenceIdeal.S384x64 .f32)
    (r : Fin 50000) (k : Fin 64) :
    Host.dotGeneral (F := Ideal) Cert.ReferenceIdeal.dot_S50000x384_S384x64_S50000x64_1_0_0_1_n_n none a b (ix2 r k)
      = ∑ l : Fin 384, a (ix2 r l) * b (ix2 l k) := by
  simp only [Host.dotGeneral]
  rw [Ideal.dotGeneral_apply,
    ← Equiv.sum_comp (contrEquiv1 Cert.ReferenceIdeal.dot_S50000x384_S384x64_S50000x64_1_0_0_1_n_n 384 rfl rfl).symm]
  refine Finset.sum_congr rfl fun l _ => ?_
  have hl := contrEquiv1_symm_val Cert.ReferenceIdeal.dot_S50000x384_S384x64_S50000x64_1_0_0_1_n_n 384 rfl rfl l
  have el : Cert.ReferenceIdeal.dot_S50000x384_S384x64_S50000x64_1_0_0_1_n_n.lhsIdx (ix2 r k)
      ((contrEquiv1 Cert.ReferenceIdeal.dot_S50000x384_S384x64_S50000x64_1_0_0_1_n_n 384 rfl rfl).symm l) = ix2 r l :=
    funext fun a => Fin.ext (by
      match a with
      | ⟨0, _⟩ => exact reg8_hdotA_lhs_0 _ _
      | ⟨1, _⟩ => exact (reg8_hdotA_lhs_1 _ _).trans hl)
  have er : Cert.ReferenceIdeal.dot_S50000x384_S384x64_S50000x64_1_0_0_1_n_n.rhsIdx (ix2 r k)
      ((contrEquiv1 Cert.ReferenceIdeal.dot_S50000x384_S384x64_S50000x64_1_0_0_1_n_n 384 rfl rfl).symm l) = ix2 l k :=
    funext fun a => Fin.ext (by
      match a with
      | ⟨0, _⟩ => exact (reg8_hdotA_rhs_0 _ _).trans hl
      | ⟨1, _⟩ => exact reg8_hdotA_rhs_1 _ _)
  rw [el, er]

theorem reg8_hdotB_lhs_0 (i : Cert.ReferenceIdeal.S50000x2.Idx)
    (u : Cert.ReferenceIdeal.dot_S50000x64_S64x2_S50000x2_1_0_0_1_n_n.contr.Idx) :
    (Cert.ReferenceIdeal.dot_S50000x64_S64x2_S50000x2_1_0_0_1_n_n.lhsIdx i u 0).val = (i 0).val := by
  unfold DotDims.lhsIdx
  rw [dif_neg (show ¬(0 : Fin Cert.ReferenceIdeal.S50000x64.rank) ∈ Cert.ReferenceIdeal.dot_S50000x64_S64x2_S50000x2_1_0_0_1_n_n.lhsBatch by decide),
    dif_pos (show (0 : Fin Cert.ReferenceIdeal.S50000x64.rank) ∈ Cert.ReferenceIdeal.dot_S50000x64_S64x2_S50000x2_1_0_0_1_n_n.lhsNonContracting by decide)]
  rfl
theorem reg8_hdotB_lhs_1 (i : Cert.ReferenceIdeal.S50000x2.Idx)
    (u : Cert.ReferenceIdeal.dot_S50000x64_S64x2_S50000x2_1_0_0_1_n_n.contr.Idx) :
    (Cert.ReferenceIdeal.dot_S50000x64_S64x2_S50000x2_1_0_0_1_n_n.lhsIdx i u 1).val = (u ⟨0, by decide⟩).val :=
  Cert.ReferenceIdeal.dot_S50000x64_S64x2_S50000x2_1_0_0_1_n_n.lhsIdx_val_of_single rfl i u
theorem reg8_hdotB_rhs_0 (i : Cert.ReferenceIdeal.S50000x2.Idx)
    (u : Cert.ReferenceIdeal.dot_S50000x64_S64x2_S50000x2_1_0_0_1_n_n.contr.Idx) :
    (Cert.ReferenceIdeal.dot_S50000x64_S64x2_S50000x2_1_0_0_1_n_n.rhsIdx i u 0).val = (u ⟨0, by decide⟩).val :=
  Cert.ReferenceIdeal.dot_S50000x64_S64x2_S50000x2_1_0_0_1_n_n.rhsIdx_val_of_single rfl i u
theorem reg8_hdotB_rhs_1 (i : Cert.ReferenceIdeal.S50000x2.Idx)
    (u : Cert.ReferenceIdeal.dot_S50000x64_S64x2_S50000x2_1_0_0_1_n_n.contr.Idx) :
    (Cert.ReferenceIdeal.dot_S50000x64_S64x2_S50000x2_1_0_0_1_n_n.rhsIdx i u 1).val = (i 1).val := by
  unfold DotDims.rhsIdx
  rw [dif_neg (show ¬(1 : Fin Cert.ReferenceIdeal.S64x2.rank) ∈ Cert.ReferenceIdeal.dot_S50000x64_S64x2_S50000x2_1_0_0_1_n_n.rhsBatch by decide),
    dif_pos (show (1 : Fin Cert.ReferenceIdeal.S64x2.rank) ∈ Cert.ReferenceIdeal.dot_S50000x64_S64x2_S50000x2_1_0_0_1_n_n.rhsNonContracting by decide)]
  rfl

/-- The host's second `dot_general` at `(r, q)`: the sum over the 64 hidden units. -/
theorem reg8_hdotB_apply (a : FVec Ideal Cert.ReferenceIdeal.S50000x64 .f32) (b : FVec Ideal Cert.ReferenceIdeal.S64x2 .f32)
    (r : Fin 50000) (q : Fin 2) :
    Host.dotGeneral (F := Ideal) Cert.ReferenceIdeal.dot_S50000x64_S64x2_S50000x2_1_0_0_1_n_n none a b (ix2 r q)
      = ∑ k : Fin 64, a (ix2 r k) * b (ix2 k q) := by
  simp only [Host.dotGeneral]
  rw [Ideal.dotGeneral_apply,
    ← Equiv.sum_comp (contrEquiv1 Cert.ReferenceIdeal.dot_S50000x64_S64x2_S50000x2_1_0_0_1_n_n 64 rfl rfl).symm]
  refine Finset.sum_congr rfl fun k _ => ?_
  have hk := contrEquiv1_symm_val Cert.ReferenceIdeal.dot_S50000x64_S64x2_S50000x2_1_0_0_1_n_n 64 rfl rfl k
  have el : Cert.ReferenceIdeal.dot_S50000x64_S64x2_S50000x2_1_0_0_1_n_n.lhsIdx (ix2 r q)
      ((contrEquiv1 Cert.ReferenceIdeal.dot_S50000x64_S64x2_S50000x2_1_0_0_1_n_n 64 rfl rfl).symm k) = ix2 r k :=
    funext fun a => Fin.ext (by
      match a with
      | ⟨0, _⟩ => exact reg8_hdotB_lhs_0 _ _
      | ⟨1, _⟩ => exact (reg8_hdotB_lhs_1 _ _).trans hk)
  have er : Cert.ReferenceIdeal.dot_S50000x64_S64x2_S50000x2_1_0_0_1_n_n.rhsIdx (ix2 r q)
      ((contrEquiv1 Cert.ReferenceIdeal.dot_S50000x64_S64x2_S50000x2_1_0_0_1_n_n 64 rfl rfl).symm k) = ix2 k q :=
    funext fun a => Fin.ext (by
      match a with
      | ⟨0, _⟩ => exact (reg8_hdotB_rhs_0 _ _).trans hk
      | ⟨1, _⟩ => exact reg8_hdotB_rhs_1 _ _)
  rw [el, er]

/-! ## The kernel's payload at an index -/

/-- The hidden layer as the payload computes it, at `(p, k)`: the format changes are the identity on extended reals,
    the bias row is read at its one row, the zero splat at its word. -/
theorem reg8_khid_apply (x0 : FVec Ideal S2000x384 .f32) (x1 : FVec Ideal S384x64 .f32) (x2 : FVec Ideal S1x64 .f32)
    (p : Fin 2000) (k : Fin 64) :
    maximumf (addf (matmul dot_S2000x384_S384x64_S2000x64_1_0_0_1_n_n none
          (truncf .bf16 x0 bitsLt_bf16_f32) (truncf .bf16 x1 bitsLt_bf16_f32)
          (constant (F := Ideal) S2000x64 .f32 0x00000000#32))
        (broadcastTo S2000x64 x2 broadcasts_S1x64_S2000x64))
      (broadcast S2000x64 (Scalar.ofBits (F := Ideal) .f32 0x00000000#32)) (ix2 p k)
      = reg8_hid 2000 x0 x1 x2 p k := by
  rw [maximumf_apply, addf_apply, reg8_kdotA_apply, broadcastTo_1b_ab_apply]
  rfl

/-- The payload at `(p, q)` is the perceptron of the loaded blocks at row `p`, column `q`. -/
theorem reg8_pay_apply (x0 : FVec Ideal S2000x384 .f32) (x1 : FVec Ideal S384x64 .f32) (x2 : FVec Ideal S1x64 .f32)
    (x3 : FVec Ideal S64x2 .f32) (x4 : FVec Ideal S1x2 .f32) (p : Fin 2000) (q : Fin 2) :
    k8_pay1 (F := Ideal) x0 x1 x2 x3 x4 (ix2 p q) = reg8_row 2000 x0 x1 x2 x3 x4 p q := by
  unfold k8_pay1
  simp only [shapeCast_self]
  rw [addf_apply, reg8_kdotB_apply, broadcastTo_1b_ab_apply]
  unfold reg8_row
  refine congrArg (· + x4 (ix2 (0 : Fin 1) q)) (Finset.sum_congr rfl fun k _ => ?_)
  rw [truncf_apply, truncf_apply, reg8_khid_apply]

/-! ## The whole-array function at an index -/

/-- The host's hidden layer at `(r, k)`. -/
theorem reg8_hhid_apply (h : FVec Ideal Cert.ReferenceIdeal.S50000x384 .f32) (W1 : FVec Ideal Cert.ReferenceIdeal.S384x64 .f32)
    (b1 : FVec Ideal Cert.ReferenceIdeal.S1x64 .f32) (r : Fin 50000) (k : Fin 64) :
    maximumf (addf (Host.dotGeneral (F := Ideal) Cert.ReferenceIdeal.dot_S50000x384_S384x64_S50000x64_1_0_0_1_n_n none h W1)
        (broadcastInDim Cert.ReferenceIdeal.S50000x64 ![0, 1] Cert.ReferenceIdeal.Facts₀.bcast_S1x64_S50000x64_0_1 b1))
      (Cert.Spec.cst64 (F := Ideal) 0x00000000#32) (ix2 r k)
      = reg8_hid 50000 h W1 b1 r k := by
  rw [maximumf_apply, addf_apply, reg8_hdotA_apply]
  have eb : broadcastInDim Cert.ReferenceIdeal.S50000x64 ![0, 1] Cert.ReferenceIdeal.Facts₀.bcast_S1x64_S50000x64_0_1 b1 (ix2 r k)
      = b1 (ix2 (0 : Fin 1) k) :=
    broadcastInDim_apply _ _ b1 (ix2 r k) (ix2 (0 : Fin 1) k) (fun a => match a with
      | ⟨0, _⟩ => by show 0 = if (1 : Nat) = 1 then 0 else r.val; rw [if_pos rfl]
      | ⟨1, _⟩ => by show k.val = if (64 : Nat) = 1 then 0 else k.val; rw [if_neg (by decide)])
  have ez : Cert.Spec.cst64 (F := Ideal) 0x00000000#32 (ix2 r k) = Ideal.ofBits .f32 0x00000000#32 := by
    unfold Cert.Spec.cst64
    exact broadcastInDim_apply _ _ (constant (F := Ideal) Cert.ReferenceIdeal.S_ .f32 0x00000000#32) (ix2 r k)
      (fun a => a.elim0) (fun a => a.elim0)
  rw [eb, ez]
  rfl

/-- The whole-array perceptron at `(r, q)`. -/
theorem reg8_mlp_apply (h : FVec Ideal Cert.ReferenceIdeal.S50000x384 .f32) (W1 : FVec Ideal Cert.ReferenceIdeal.S384x64 .f32)
    (b1 : FVec Ideal Cert.ReferenceIdeal.S1x64 .f32) (W2 : FVec Ideal Cert.ReferenceIdeal.S64x2 .f32)
    (b2 : FVec Ideal Cert.ReferenceIdeal.S1x2 .f32) (r : Fin 50000) (q : Fin 2) :
    Cert.Spec.mlp (F := Ideal) h W1 b1 W2 b2 (ix2 r q) = reg8_row 50000 h W1 b1 W2 b2 r q := by
  unfold Cert.Spec.mlp
  rw [addf_apply, reg8_hdotB_apply]
  have eb : broadcastInDim Cert.ReferenceIdeal.S50000x2 ![0, 1] Cert.ReferenceIdeal.Facts₀.bcast_S1x2_S50000x2_0_1 b2 (ix2 r q)
      = b2 (ix2 (0 : Fin 1) q) :=
    broadcastInDim_apply _ _ b2 (ix2 r q) (ix2 (0 : Fin 1) q) (fun a => match a with
      | ⟨0, _⟩ => by show 0 = if (1 : Nat) = 1 then 0 else r.val; rw [if_pos rfl]
      | ⟨1, _⟩ => by show q.val = if (2 : Nat) = 1 then 0 else q.val; rw [if_neg (by decide)])
  rw [eb]
  unfold reg8_row
  refine congrArg (· + b2 (ix2 (0 : Fin 1) q)) (Finset.sum_congr rfl fun k _ => ?_)
  rw [reg8_hhid_apply]

/-- The row function depends on the feature table only through the row read. -/
theorem reg8_row_congr {n n' : Nat} (h : (⟨2, ![n, 384]⟩ : Shape).Idx → EReal) (h' : (⟨2, ![n', 384]⟩ : Shape).Idx → EReal)
    (W1 : (⟨2, ![384, 64]⟩ : Shape).Idx → EReal) (b1 : (⟨2, ![1, 64]⟩ : Shape).Idx → EReal)
    (W2 : (⟨2, ![64, 2]⟩ : Shape).Idx → EReal) (b2 : (⟨2, ![1, 2]⟩ : Shape).Idx → EReal)
    (p : Fin n) (r : Fin n') (q : Fin 2) (e : ∀ l : Fin 384, h (ix2 p l) = h' (ix2 r l)) :
    reg8_row n h W1 b1 W2 b2 p q = reg8_row n' h' W1 b1 W2 b2 r q := by
  unfold reg8_row reg8_hid
  simp only [e]

/-! ## From the blocks to the array -/

theorem reg8_hz : (![0, 0] : Fin 2 → Nat) = fun _ => 0 := funext fun a => by fin_cases a <;> rfl

/-- The printed index maps over the 25 grid points: the feature and result windows move down the rows with the point,
    the weight and bias windows stay on their one block. -/
theorem reg8_idx : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- Row `p` of point `t`'s feature block is row `2000·t + p` of the table. -/
theorem reg8_blk0 (c : Dev nD) (t : Fin cfg8.N) (p : Fin 2000) (l : Fin 384) (r : Fin 50000)
    (hr : r.val = 2000 * t.val + p.val) :
    (iblk8 V c 0 t : S2000x384.Idx → EReal) (ix2 p l) = (V c main_v70 : S50000x384.Idx → EReal) (ix2 r l) := by
  obtain ⟨e0, e1, -⟩ := reg8_idx t
  unfold iblk8
  rw [View.read_apply]
  show V c main_v70 _ = V c main_v70 _
  congr 1
  funext a
  apply Fin.ext
  match a with
  | ⟨0, _⟩ => show win8_0.index t (0 : Fin 2) * 2000 + 1 * p.val = r.val; rw [e0, hr]; omega
  | ⟨1, _⟩ => show win8_0.index t (1 : Fin 2) * 384 + 1 * l.val = l.val; rw [e1]; omega

/-- The weight and bias windows hold their whole arrays at every point. -/
theorem reg8_blk1 (c : Dev nD) (t : Fin cfg8.N) : (iblk8 V c 1 t : S384x64.Idx → EReal) = V c main_arg10 := by
  obtain ⟨-, -, e0, e1, -⟩ := reg8_idx t
  funext y
  unfold iblk8
  rw [View.read_apply]
  show V c main_arg10 _ = V c main_arg10 y
  congr 1
  funext a
  apply Fin.ext
  match a with
  | ⟨0, _⟩ => show win8_1.index t (0 : Fin 2) * 384 + 1 * (y 0).val = (y 0).val; rw [e0]; omega
  | ⟨1, _⟩ => show win8_1.index t (1 : Fin 2) * 64 + 1 * (y 1).val = (y 1).val; rw [e1]; omega
theorem reg8_blk2 (c : Dev nD) (t : Fin cfg8.N) : (iblk8 V c 2 t : S1x64.Idx → EReal) = V c main_v2 := by
  obtain ⟨-, -, -, -, e0, e1, -⟩ := reg8_idx t
  funext y
  unfold iblk8
  rw [View.read_apply]
  show V c main_v2 _ = V c main_v2 y
  congr 1
  funext a
  apply Fin.ext
  match a with
  | ⟨0, _⟩ => show win8_2.index t (0 : Fin 2) * 1 + 1 * (y 0).val = (y 0).val; rw [e0]; omega
  | ⟨1, _⟩ => show win8_2.index t (1 : Fin 2) * 64 + 1 * (y 1).val = (y 1).val; rw [e1]; omega
theorem reg8_blk3 (c : Dev nD) (t : Fin cfg8.N) : (iblk8 V c 3 t : S64x2.Idx → EReal) = V c main_arg12 := by
  obtain ⟨-, -, -, -, -, -, e0, e1, -⟩ := reg8_idx t
  funext y
  unfold iblk8
  rw [View.read_apply]
  show V c main_arg12 _ = V c main_arg12 y
  congr 1
  funext a
  apply Fin.ext
  match a with
  | ⟨0, _⟩ => show win8_3.index t (0 : Fin 2) * 64 + 1 * (y 0).val = (y 0).val; rw [e0]; omega
  | ⟨1, _⟩ => show win8_3.index t (1 : Fin 2) * 2 + 1 * (y 1).val = (y 1).val; rw [e1]; omega
theorem reg8_blk4 (c : Dev nD) (t : Fin cfg8.N) : (iblk8 V c 4 t : S1x2.Idx → EReal) = V c main_v3 := by
  obtain ⟨-, -, -, -, -, -, -, -, e0, e1, -⟩ := reg8_idx t
  funext y
  unfold iblk8
  rw [View.read_apply]
  show V c main_v3 _ = V c main_v3 y
  congr 1
  funext a
  apply Fin.ext
  match a with
  | ⟨0, _⟩ => show win8_4.index t (0 : Fin 2) * 1 + 1 * (y 0).val = (y 0).val; rw [e0]; omega
  | ⟨1, _⟩ => show win8_4.index t (1 : Fin 2) * 2 + 1 * (y 1).val = (y 1).val; rw [e1]; omega

/-- What point `t` writes back to the result array is block `t` of the whole-array perceptron of the arrays the region
    finds: row `p` of the block is row `2000·t + p` of the table on both sides. -/
theorem reg8_flushed (c : Dev nD) (t : Fin cfg8.N) :
    (dat8 V c).flushed 5 t = ((cfg8.win 5).blk t).view.read (Elt Ideal)
      (Cert.Spec.mlp (F := Ideal) (V c main_v70) (V c main_arg10) (V c main_v2) (V c main_arg12) (V c main_v3)) := by
  show (cfg8.win 5).cut (grid8.coords t) ((dat8 V c).after 5 t) = _
  rw [after8_5]
  unfold out8_5
  rw [View.canon_unit_zero reg8_hz]
  simp only [View.ld_unit_zero (S := S2000x384) reg8_hz, View.ld_unit_zero (S := S384x64) reg8_hz,
    View.ld_unit_zero (S := S1x64) reg8_hz, View.ld_unit_zero (S := S64x2) reg8_hz, View.ld_unit_zero (S := S1x2) reg8_hz]
  rw [reg8_blk1, reg8_blk2, reg8_blk3, reg8_blk4]
  funext y
  obtain ⟨p, q, rfl⟩ : ∃ (p : Fin 2000) (q : Fin 2), y = ix2 p q := ⟨y 0, y 1, eq_ix2 y⟩
  have hp : p.val < 2000 := p.isLt
  have ht : t.val < 25 := Nat.lt_of_lt_of_eq t.isLt (show cfg8.N = 25 from N_8)
  obtain ⟨-, -, -, -, -, -, -, -, -, -, e0, e1⟩ := reg8_idx t
  have hemb : ((cfg8.win 5).blk t).view.emb (ix2 p q)
      = (ix2 (⟨2000 * t.val + p.val, by omega⟩ : Fin 50000) q : S50000x2.Idx) := by
    funext a
    apply Fin.ext
    match a with
    | ⟨0, _⟩ => show win8_5.index t (0 : Fin 2) * 2000 + 1 * p.val = 2000 * t.val + p.val; rw [e0]; omega
    | ⟨1, _⟩ => show win8_5.index t (1 : Fin 2) * 2 + 1 * q.val = q.val; rw [e1]; omega
  show k8_pay1 (F := Ideal) (iblk8 V c 0 t) (V c main_arg10) (V c main_v2) (V c main_arg12) (V c main_v3) (ix2 p q)
    = Cert.Spec.mlp (F := Ideal) (V c main_v70) (V c main_arg10) (V c main_v2) (V c main_arg12) (V c main_v3)
        (((cfg8.win 5).blk t).view.emb (ix2 p q))
  rw [hemb, reg8_pay_apply, reg8_mlp_apply]
  exact reg8_row_congr _ _ _ _ _ _ p _ q fun l => reg8_blk0 V c t p l _ rfl

/-- Every row of the result array is in the block of the point `row / 2000`. -/
theorem reg8_cover (i : S50000x2.Idx) :
    ∃ t : Fin cfg8.N, (cfg8.win 5).flush t = true ∧ i ∈ ((cfg8.win 5).blk t).view.set := by
  have h0 : (i 0).val < 50000 := (i 0).isLt
  have h1 : (i 1).val < 2 := (i 1).isLt
  have hN : cfg8.N = 25 := N_8
  obtain ⟨t, ht⟩ : ∃ t : Fin cfg8.N, t.val = (i 0).val / 2000 := ⟨⟨(i 0).val / 2000, by rw [hN]; omega⟩, rfl⟩
  obtain ⟨-, -, -, -, -, -, -, -, -, -, e0, e1⟩ := reg8_idx t
  refine ⟨t, flush8_5 t, ?_⟩
  show i ∈ ((View.whole main_v71).slice (win8_5.rect t)).set
  rw [View.set_slice_whole, Rect.mem_set_unit]
  intro a
  match a with
  | ⟨0, _⟩ =>
    show win8_5.index t (0 : Fin 2) * 2000 ≤ (i 0).val ∧ (i 0).val < win8_5.index t (0 : Fin 2) * 2000 + 2000
    rw [e0, ht]; omega
  | ⟨1, _⟩ =>
    show win8_5.index t (1 : Fin 2) * 2 ≤ (i 1).val ∧ (i 1).val < win8_5.index t (1 : Fin 2) * 2 + 2
    rw [e1]; omega

/-- REGION 8: after its 25 points the result array is the whole-array perceptron of the arrays the region finds. -/
theorem reg8 (c : Dev nD) :
    (dat8 V c).arrAt 5 cfg8.N = Cert.Spec.mlp (F := Ideal) (V c main_v70) (V c main_arg10) (V c main_v2) (V c main_arg12) (V c main_v3) :=
  (dat8 V c).arrAt_eq_of_cover 5 _ (fun t _ => reg8_flushed V c t) reg8_cover

end Cert.KernelIdeal.KV

end
-- ==== Proof.KTrack1.lean ====
import proofs.«149625_j6124623364543_1_alg».proof.Proof.Gen.KernelIdeal.Frame
import Idealize.ShloMosaic.Lib.StableHlo.Run

/-!
# Which buffers each segment of the run leaves alone

The run of @main is twenty segments between twenty-one boundaries: stretches of host operations and pipelined
regions. A host stretch rewrites the result buffers of its operations and nothing else; a region rewrites the
arrays of its output windows and nothing else (an input window's array ends as it entered, a buffer that is no
window's array is not touched). Listing, per segment, the references it writes, a buffer keeps its contents
across any run of consecutive segments none of which lists it.
-/

set_option maxRecDepth 16384

noncomputable section

namespace Cert.KernelIdeal.KV

open Idealize.ShloMosaic Idealize.ShloMosaic.TcCoe Idealize.SL.Sem Idealize.ShloMosaic.StableHlo
open Cert.KernelIdeal Cert.KernelIdeal.Gen

variable {F : FTy → Type} [FloatOps F]

/-- The references segment `k` writes (`k = 1 … 20`, none otherwise): the results of a host stretch's operations,
    the arrays of a region's output windows. -/
noncomputable def ktrack_wr : Nat → List (Ref sig .tc)
  | 1 => [main_v0, main_v1, main_v2, main_v3, main_cst, main_v4, main_cst_0, main_v5, main_v6, main_v7, main_cst_1]
  | 2 => [main_call0_v0, main_call0_v1, main_v8]
  | 3 => [main_cst_2, main_v9, main_v10, main_v11, main_v12]
  | 4 => [main_v13_0, main_v13_1]
  | 5 => [main_c, main_v14, main_v15, main_c_3, main_v16, main_v17, main_v18, main_v19, main_v20, main_cst_4,
          main_v21, main_v22, main_v23]
  | 6 => [main_v24_0, main_v24_1]
  | 7 => [main_c_5, main_v25, main_v26, main_c_6, main_v27, main_v28, main_v29, main_v30, main_v31, main_cst_7,
          main_v32, main_v33, main_v34]
  | 8 => [main_v35_0, main_v35_1]
  | 9 => [main_v36]
  | 10 => [main_cst_8, main_v37, main_cst_9, main_v38, main_v39, main_v40, main_cst_10]
  | 11 => [main_call1_v0, main_call1_v1, main_v41]
  | 12 => [main_cst_11, main_v42, main_v43, main_v44, main_v45]
  | 13 => [main_v46_0, main_v46_1]
  | 14 => [main_c_12, main_v47, main_v48, main_c_13, main_v49, main_v50, main_v51, main_v52, main_v53, main_cst_14,
           main_v54, main_v55, main_v56]
  | 15 => [main_v57_0, main_v57_1]
  | 16 => [main_c_15, main_v58, main_v59, main_c_16, main_v60, main_v61, main_v62, main_v63, main_v64, main_cst_17,
           main_v65, main_v66, main_v67]
  | 17 => [main_v68_0, main_v68_1]
  | 18 => [main_v69]
  | 19 => [main_v70]
  | 20 => [main_v71]
  | _ => []

/-! ## Host stretches: every operation's result buffer is on the stretch's list -/

/-- A listed reference's buffer, as a singleton, lies inside the listed buffers. -/
theorem ktrack_single_sub {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map.mpr ⟨y, h, rfl⟩))

theorem ktrack_writes1 : (hostOps0 : List (HloOp τ sig (Elt F))).Forall fun op =>
    op.writes ⊆ ((ktrack_wr 1).map (Proc.devRef (τ := τ) .tc)).toFinset := by
  simp only [hostOps0, List.Forall, nullary_writes, unary_writes, ternary_writes, reshape_writes]
  repeat' apply And.intro
  all_goals exact ktrack_single_sub (by decide)

theorem ktrack_writes2 : (hostOps0_1 : List (HloOp τ sig (Elt F))).Forall fun op =>
    op.writes ⊆ ((ktrack_wr 2).map (Proc.devRef (τ := τ) .tc)).toFinset := by
  simp only [hostOps0_1, List.Forall, unary_writes, binary_writes]
  repeat' apply And.intro
  all_goals exact ktrack_single_sub (by decide)

theorem ktrack_writes3 : (hostOps0_2 : List (HloOp τ sig (Elt F))).Forall fun op =>
    op.writes ⊆ ((ktrack_wr 3).map (Proc.devRef (τ := τ) .tc)).toFinset := by
  simp only [hostOps0_2, List.Forall, nullary_writes, unary_writes, binary_writes]
  repeat' apply And.intro
  all_goals exact ktrack_single_sub (by decide)

theorem ktrack_writes5 : (hostOps1 : List (HloOp τ sig (Elt F))).Forall fun op =>
    op.writes ⊆ ((ktrack_wr 5).map (Proc.devRef (τ := τ) .tc)).toFinset := by
  simp only [hostOps1, List.Forall, nullary_writes, unary_writes, binary_writes, ternary_writes]
  repeat' apply And.intro
  all_goals exact ktrack_single_sub (by decide)

theorem ktrack_writes7 : (hostOps2 : List (HloOp τ sig (Elt F))).Forall fun op =>
    op.writes ⊆ ((ktrack_wr 7).map (Proc.devRef (τ := τ) .tc)).toFinset := by
  simp only [hostOps2, List.Forall, nullary_writes, unary_writes, binary_writes, ternary_writes]
  repeat' apply And.intro
  all_goals exact ktrack_single_sub (by decide)

theorem ktrack_writes10 : (hostOps4 : List (HloOp τ sig (Elt F))).Forall fun op =>
    op.writes ⊆ ((ktrack_wr 10).map (Proc.devRef (τ := τ) .tc)).toFinset := by
  simp only [hostOps4, List.Forall, nullary_writes, unary_writes, ternary_writes]
  repeat' apply And.intro
  all_goals exact ktrack_single_sub (by decide)

theorem ktrack_writes11 : (hostOps4_1 : List (HloOp τ sig (Elt F))).Forall fun op =>
    op.writes ⊆ ((ktrack_wr 11).map (Proc.devRef (τ := τ) .tc)).toFinset := by
  simp only [hostOps4_1, List.Forall, unary_writes, binary_writes]
  repeat' apply And.intro
  all_goals exact ktrack_single_sub (by decide)

theorem ktrack_writes12 : (hostOps4_2 : List (HloOp τ sig (Elt F))).Forall fun op =>
    op.writes ⊆ ((ktrack_wr 12).map (Proc.devRef (τ := τ) .tc)).toFinset := by
  simp only [hostOps4_2, List.Forall, nullary_writes, unary_writes, binary_writes]
  repeat' apply And.intro
  all_goals exact ktrack_single_sub (by decide)

theorem ktrack_writes14 : (hostOps5 : List (HloOp τ sig (Elt F))).Forall fun op =>
    op.writes ⊆ ((ktrack_wr 14).map (Proc.devRef (τ := τ) .tc)).toFinset := by
  simp only [hostOps5, List.Forall, nullary_writes, unary_writes, binary_writes, ternary_writes]
  repeat' apply And.intro
  all_goals exact ktrack_single_sub (by decide)

theorem ktrack_writes16 : (hostOps6 : List (HloOp τ sig (Elt F))).Forall fun op =>
    op.writes ⊆ ((ktrack_wr 16).map (Proc.devRef (τ := τ) .tc)).toFinset := by
  simp only [hostOps6, List.Forall, nullary_writes, unary_writes, binary_writes, ternary_writes]
  repeat' apply And.intro
  all_goals exact ktrack_single_sub (by decide)

theorem ktrack_writes19 : (hostOps8 : List (HloOp τ sig (Elt F))).Forall fun op =>
    op.writes ⊆ ((ktrack_wr 19).map (Proc.devRef (τ := τ) .tc)).toFinset := by
  simp only [hostOps8, List.Forall, binary_writes]
  exact ktrack_single_sub (by decide)

variable (m : (ℓ : Loc nD τ sig) → Buf (Elt F) ℓ) (ρ : Dev nD → PrngReg)

/-! ## One segment

Across a host stretch: no operation's result buffer is the one read. Across a region: either the buffer is no
window's array, or it is the array of a window that is not on the list, hence of an input window, which the
pipeline hands back as it took it. -/

theorem ktrack_keep1 (c : Dev nD) (b : Ref sig .tc) (hb : b ∉ ktrack_wr 1) :
    W1 m ρ c (Proc.devRef .tc b) = W0 m ρ c (Proc.devRef .tc b) :=
  after_of_writes_sub hostOps0 _ ktrack_writes1 hb

theorem ktrack_keep2 (c : Dev nD) (b : Ref sig .tc) (hb : b ∉ ktrack_wr 2) :
    W2 m ρ c (Proc.devRef .tc b) = W1 m ρ c (Proc.devRef .tc b) :=
  after_of_writes_sub hostOps0_1 _ ktrack_writes2 hb

theorem ktrack_keep3 (c : Dev nD) (b : Ref sig .tc) (hb : b ∉ ktrack_wr 3) :
    W3 m ρ c (Proc.devRef .tc b) = W2 m ρ c (Proc.devRef .tc b) :=
  after_of_writes_sub hostOps0_2 _ ktrack_writes3 hb

theorem ktrack_keep4 (c : Dev nD) (b : Ref sig .tc) (hb : b ∉ ktrack_wr 4) :
    W4 m ρ c (Proc.devRef .tc b) = W3 m ρ c (Proc.devRef .tc b) := by
  by_cases h : ∃ w, Pipeline.arrRef spec0 w = b
  · obtain ⟨w, rfl⟩ := h
    have hin : (cfg0.win w).isOut = false :=
      (by decide : ∀ w : Fin cfg0.W, Pipeline.arrRef spec0 w ∉ ktrack_wr 4 → (cfg0.win w).isOut = false) w hb
    exact (W4_arr m ρ c w).trans (((dat0 (V3 m ρ) c).arrAt_in w hin _).trans (A_eq0 (V3 m ρ) c w))
  · exact W4_of_ne m ρ c b fun w e => h ⟨w, e⟩

theorem ktrack_keep5 (c : Dev nD) (b : Ref sig .tc) (hb : b ∉ ktrack_wr 5) :
    W5 m ρ c (Proc.devRef .tc b) = W4 m ρ c (Proc.devRef .tc b) :=
  after_of_writes_sub hostOps1 _ ktrack_writes5 hb

theorem ktrack_keep6 (c : Dev nD) (b : Ref sig .tc) (hb : b ∉ ktrack_wr 6) :
    W6 m ρ c (Proc.devRef .tc b) = W5 m ρ c (Proc.devRef .tc b) := by
  by_cases h : ∃ w, Pipeline.arrRef spec1 w = b
  · obtain ⟨w, rfl⟩ := h
    have hin : (cfg1.win w).isOut = false :=
      (by decide : ∀ w : Fin cfg1.W, Pipeline.arrRef spec1 w ∉ ktrack_wr 6 → (cfg1.win w).isOut = false) w hb
    exact (W6_arr m ρ c w).trans (((dat1 (V5 m ρ) c).arrAt_in w hin _).trans (A_eq1 (V5 m ρ) c w))
  · exact W6_of_ne m ρ c b fun w e => h ⟨w, e⟩

theorem ktrack_keep7 (c : Dev nD) (b : Ref sig .tc) (hb : b ∉ ktrack_wr 7) :
    W7 m ρ c (Proc.devRef .tc b) = W6 m ρ c (Proc.devRef .tc b) :=
  after_of_writes_sub hostOps2 _ ktrack_writes7 hb

theorem ktrack_keep8 (c : Dev nD) (b : Ref sig .tc) (hb : b ∉ ktrack_wr 8) :
    W8 m ρ c (Proc.devRef .tc b) = W7 m ρ c (Proc.devRef .tc b) := by
  by_cases h : ∃ w, Pipeline.arrRef spec2 w = b
  · obtain ⟨w, rfl⟩ := h
    have hin : (cfg2.win w).isOut = false :=
      (by decide : ∀ w : Fin cfg2.W, Pipeline.arrRef spec2 w ∉ ktrack_wr 8 → (cfg2.win w).isOut = false) w hb
    exact (W8_arr m ρ c w).trans (((dat2 (V7 m ρ) c).arrAt_in w hin _).trans (A_eq2 (V7 m ρ) c w))
  · exact W8_of_ne m ρ c b fun w e => h ⟨w, e⟩

theorem ktrack_keep9 (c : Dev nD) (b : Ref sig .tc) (hb : b ∉ ktrack_wr 9) :
    W9 m ρ c (Proc.devRef .tc b) = W8 m ρ c (Proc.devRef .tc b) := by
  by_cases h : ∃ w, Pipeline.arrRef spec3 w = b
  · obtain ⟨w, rfl⟩ := h
    have hin : (cfg3.win w).isOut = false :=
      (by decide : ∀ w : Fin cfg3.W, Pipeline.arrRef spec3 w ∉ ktrack_wr 9 → (cfg3.win w).isOut = false) w hb
    exact (W9_arr m ρ c w).trans (((dat3 (V8 m ρ) c).arrAt_in w hin _).trans (A_eq3 (V8 m ρ) c w))
  · exact W9_of_ne m ρ c b fun w e => h ⟨w, e⟩

theorem ktrack_keep10 (c : Dev nD) (b : Ref sig .tc) (hb : b ∉ ktrack_wr 10) :
    W10 m ρ c (Proc.devRef .tc b) = W9 m ρ c (Proc.devRef .tc b) :=
  after_of_writes_sub hostOps4 _ ktrack_writes10 hb

theorem ktrack_keep11 (c : Dev nD) (b : Ref sig .tc) (hb : b ∉ ktrack_wr 11) :
    W11 m ρ c (Proc.devRef .tc b) = W10 m ρ c (Proc.devRef .tc b) :=
  after_of_writes_sub hostOps4_1 _ ktrack_writes11 hb

theorem ktrack_keep12 (c : Dev nD) (b : Ref sig .tc) (hb : b ∉ ktrack_wr 12) :
    W12 m ρ c (Proc.devRef .tc b) = W11 m ρ c (Proc.devRef .tc b) :=
  after_of_writes_sub hostOps4_2 _ ktrack_writes12 hb

theorem ktrack_keep13 (c : Dev nD) (b : Ref sig .tc) (hb : b ∉ ktrack_wr 13) :
    W13 m ρ c (Proc.devRef .tc b) = W12 m ρ c (Proc.devRef .tc b) := by
  by_cases h : ∃ w, Pipeline.arrRef spec4 w = b
  · obtain ⟨w, rfl⟩ := h
    have hin : (cfg4.win w).isOut = false :=
      (by decide : ∀ w : Fin cfg4.W, Pipeline.arrRef spec4 w ∉ ktrack_wr 13 → (cfg4.win w).isOut = false) w hb
    exact (W13_arr m ρ c w).trans (((dat4 (V12 m ρ) c).arrAt_in w hin _).trans (A_eq4 (V12 m ρ) c w))
  · exact W13_of_ne m ρ c b fun w e => h ⟨w, e⟩

theorem ktrack_keep14 (c : Dev nD) (b : Ref sig .tc) (hb : b ∉ ktrack_wr 14) :
    W14 m ρ c (Proc.devRef .tc b) = W13 m ρ c (Proc.devRef .tc b) :=
  after_of_writes_sub hostOps5 _ ktrack_writes14 hb

theorem ktrack_keep15 (c : Dev nD) (b : Ref sig .tc) (hb : b ∉ ktrack_wr 15) :
    W15 m ρ c (Proc.devRef .tc b) = W14 m ρ c (Proc.devRef .tc b) := by
  by_cases h : ∃ w, Pipeline.arrRef spec5 w = b
  · obtain ⟨w, rfl⟩ := h
    have hin : (cfg5.win w).isOut = false :=
      (by decide : ∀ w : Fin cfg5.W, Pipeline.arrRef spec5 w ∉ ktrack_wr 15 → (cfg5.win w).isOut = false) w hb
    exact (W15_arr m ρ c w).trans (((dat5 (V14 m ρ) c).arrAt_in w hin _).trans (A_eq5 (V14 m ρ) c w))
  · exact W15_of_ne m ρ c b fun w e => h ⟨w, e⟩

theorem ktrack_keep16 (c : Dev nD) (b : Ref sig .tc) (hb : b ∉ ktrack_wr 16) :
    W16 m ρ c (Proc.devRef .tc b) = W15 m ρ c (Proc.devRef .tc b) :=
  after_of_writes_sub hostOps6 _ ktrack_writes16 hb

theorem ktrack_keep17 (c : Dev nD) (b : Ref sig .tc) (hb : b ∉ ktrack_wr 17) :
    W17 m ρ c (Proc.devRef .tc b) = W16 m ρ c (Proc.devRef .tc b) := by
  by_cases h : ∃ w, Pipeline.arrRef spec6 w = b
  · obtain ⟨w, rfl⟩ := h
    have hin : (cfg6.win w).isOut = false :=
      (by decide : ∀ w : Fin cfg6.W, Pipeline.arrRef spec6 w ∉ ktrack_wr 17 → (cfg6.win w).isOut = false) w hb
    exact (W17_arr m ρ c w).trans (((dat6 (V16 m ρ) c).arrAt_in w hin _).trans (A_eq6 (V16 m ρ) c w))
  · exact W17_of_ne m ρ c b fun w e => h ⟨w, e⟩

theorem ktrack_keep18 (c : Dev nD) (b : Ref sig .tc) (hb : b ∉ ktrack_wr 18) :
    W18 m ρ c (Proc.devRef .tc b) = W17 m ρ c (Proc.devRef .tc b) := by
  by_cases h : ∃ w, Pipeline.arrRef spec7 w = b
  · obtain ⟨w, rfl⟩ := h
    have hin : (cfg7.win w).isOut = false :=
      (by decide : ∀ w : Fin cfg7.W, Pipeline.arrRef spec7 w ∉ ktrack_wr 18 → (cfg7.win w).isOut = false) w hb
    exact (W18_arr m ρ c w).trans (((dat7 (V17 m ρ) c).arrAt_in w hin _).trans (A_eq7 (V17 m ρ) c w))
  · exact W18_of_ne m ρ c b fun w e => h ⟨w, e⟩

theorem ktrack_keep19 (c : Dev nD) (b : Ref sig .tc) (hb : b ∉ ktrack_wr 19) :
    W19 m ρ c (Proc.devRef .tc b) = W18 m ρ c (Proc.devRef .tc b) :=
  after_of_writes_sub hostOps8 _ ktrack_writes19 hb

theorem ktrack_keep20 (c : Dev nD) (b : Ref sig .tc) (hb : b ∉ ktrack_wr 20) :
    W20 m ρ c (Proc.devRef .tc b) = W19 m ρ c (Proc.devRef .tc b) := by
  by_cases h : ∃ w, Pipeline.arrRef spec8 w = b
  · obtain ⟨w, rfl⟩ := h
    have hin : (cfg8.win w).isOut = false :=
      (by decide : ∀ w : Fin cfg8.W, Pipeline.arrRef spec8 w ∉ ktrack_wr 20 → (cfg8.win w).isOut = false) w hb
    exact (W20_arr m ρ c w).trans (((dat8 (V19 m ρ) c).arrAt_in w hin _).trans (A_eq8 (V19 m ρ) c w))
  · exact W20_of_ne m ρ c b fun w e => h ⟨w, e⟩

/-! ## Any number of segments in a row -/

/-- The buffer contents at boundary `k` of the run (`k = 0 … 20`; the last one from there on). -/
def ktrack_bd : Nat → Dev nD → Valuation τ sig (Elt F)
  | 0 => W0 m ρ | 1 => W1 m ρ | 2 => W2 m ρ | 3 => W3 m ρ | 4 => W4 m ρ | 5 => W5 m ρ | 6 => W6 m ρ
  | 7 => W7 m ρ | 8 => W8 m ρ | 9 => W9 m ρ | 10 => W10 m ρ | 11 => W11 m ρ | 12 => W12 m ρ | 13 => W13 m ρ
  | 14 => W14 m ρ | 15 => W15 m ρ | 16 => W16 m ρ | 17 => W17 m ρ | 18 => W18 m ρ | 19 => W19 m ρ
  | _ => W20 m ρ

set_option maxHeartbeats 1600000 in
/-- Segment `k + 1` leaves a buffer it does not list as it was at boundary `k`. -/
theorem ktrack_bd_step (c : Dev nD) (b : Ref sig .tc) (k : Nat) (h : b ∉ ktrack_wr (k + 1)) :
    ktrack_bd m ρ (k + 1) c (Proc.devRef .tc b) = ktrack_bd m ρ k c (Proc.devRef .tc b) := by
  rcases Nat.lt_or_ge k 20 with hk | hk
  · have hk' : k = 0 ∨ k = 1 ∨ k = 2 ∨ k = 3 ∨ k = 4 ∨ k = 5 ∨ k = 6 ∨ k = 7 ∨ k = 8 ∨ k = 9 ∨ k = 10 ∨ k = 11
        ∨ k = 12 ∨ k = 13 ∨ k = 14 ∨ k = 15 ∨ k = 16 ∨ k = 17 ∨ k = 18 ∨ k = 19 := by omega
    rcases hk' with rfl | rfl | rfl | rfl | rfl | rfl | rfl | rfl | rfl | rfl | rfl | rfl | rfl | rfl | rfl | rfl
      | rfl | rfl | rfl | rfl
    · exact ktrack_keep1 m ρ c b h
    · exact ktrack_keep2 m ρ c b h
    · exact ktrack_keep3 m ρ c b h
    · exact ktrack_keep4 m ρ c b h
    · exact ktrack_keep5 m ρ c b h
    · exact ktrack_keep6 m ρ c b h
    · exact ktrack_keep7 m ρ c b h
    · exact ktrack_keep8 m ρ c b h
    · exact ktrack_keep9 m ρ c b h
    · exact ktrack_keep10 m ρ c b h
    · exact ktrack_keep11 m ρ c b h
    · exact ktrack_keep12 m ρ c b h
    · exact ktrack_keep13 m ρ c b h
    · exact ktrack_keep14 m ρ c b h
    · exact ktrack_keep15 m ρ c b h
    · exact ktrack_keep16 m ρ c b h
    · exact ktrack_keep17 m ρ c b h
    · exact ktrack_keep18 m ρ c b h
    · exact ktrack_keep19 m ρ c b h
    · exact ktrack_keep20 m ρ c b h
  · obtain ⟨j, rfl⟩ : ∃ j, k = j + 20 := ⟨k - 20, by omega⟩
    rfl

/-- A buffer that none of the segments `i + 1, …, i + d` lists holds at boundary `i + d` what it held at
    boundary `i`. -/
theorem ktrack_bd_keep (c : Dev nD) (b : Ref sig .tc) (i : Nat) :
    ∀ d, (∀ k ∈ List.range' (i + 1) d, b ∉ ktrack_wr k) →
      ktrack_bd m ρ (i + d) c (Proc.devRef .tc b) = ktrack_bd m ρ i c (Proc.devRef .tc b)
  | 0, _ => rfl
  | d + 1, h =>
    (ktrack_bd_step m ρ c b (i + d) (h (i + d + 1) (List.mem_range'_1.mpr ⟨by omega, by omega⟩))).trans
      (ktrack_bd_keep c b i d fun k hk =>
        h k (List.mem_range'_1.mpr ⟨(List.mem_range'_1.mp hk).1, by have := (List.mem_range'_1.mp hk).2; omega⟩))

end Cert.KernelIdeal.KV

end
-- ==== Proof.KTrack2.lean ====
import proofs.«149625_j6124623364543_1_alg».proof.Proof.Gen.KernelIdeal.Frame
import proofs.«149625_j6124623364543_1_alg».proof.Proof.Spec
import Idealize.ShloMosaic.Lib.ValueLayout
import Idealize.ShloMosaic.Lib.StableHlo.Run

/-!
# What the host stretches compute

Run from arbitrary buffer contents `V`, each stretch of host operations leaves, in the buffer a later region or
stretch reads, a shared whole-array function of `V` at the buffers the stretch itself reads: a bias vector as
one row; the normaliser `max(1, deg)^(-1/2)` of a branch, repeated along the features; the aggregation of a
feature table along the edges (rows gathered by the wrapped source indices, scatter-added by the destination
indices); two tables side by side.
-/

set_option maxRecDepth 16384

noncomputable section

namespace Cert.KernelIdeal.KV

open Idealize.ShloMosaic Idealize.ShloMosaic.TcCoe Idealize.SL.Sem Idealize.ShloMosaic.StableHlo
open Idealize.ShloMosaic.ValueIdx
open Cert.KernelIdeal Cert.KernelIdeal.Gen

/-- A vector of `a ≠ 1` entries reshaped to one row is that vector broadcast to one row: entry `(0, i)` of
    either is entry `i` of the vector. -/
theorem ktrack_row_eq {α : Type} {a : ℕ} (ha : a ≠ 1) (x : (⟨1, ![a]⟩ : Shape).Idx → α)
    (hc : (⟨1, ![a]⟩ : Shape).ShapeCasts ⟨2, ![1, a]⟩)
    (hb : (⟨1, ![a]⟩ : Shape).BroadcastsInDim ⟨2, ![1, a]⟩ ![1]) :
    shapeCast ⟨2, ![1, a]⟩ x hc = broadcastInDim ⟨2, ![1, a]⟩ ![1] hb x := by
  funext j
  obtain ⟨u, i, rfl⟩ : ∃ (u : Fin 1) (i : Fin a), j = ix2 u i := ⟨j 0, j 1, eq_ix2 j⟩
  rw [shapeCast_a_1a_apply]
  refine (broadcastInDim_apply ![1] hb x (ix2 u i) (ix1 i) fun d => ?_).symm
  match d with
  | ⟨0, _⟩ =>
    show i.val = if a = 1 then 0 else i.val
    rw [if_neg ha]

variable (V : Valuation τ sig (Elt Ideal))

/-! ## The four bias vectors as rows (first stretch) -/

theorem ktrack_h0_v0 :
    StableHlo.after hostOps0 V (Proc.devRef .tc main_v0)
      = Cert.Spec.row64 (F := Ideal) (V (Proc.devRef .tc main_arg7)) := by
  after_results
  exact ktrack_row_eq (by decide) _ _ _

theorem ktrack_h0_v1 :
    StableHlo.after hostOps0 V (Proc.devRef .tc main_v1)
      = Cert.Spec.row64 (F := Ideal) (V (Proc.devRef .tc main_arg9)) := by
  after_results
  exact ktrack_row_eq (by decide) _ _ _

theorem ktrack_h0_v2 :
    StableHlo.after hostOps0 V (Proc.devRef .tc main_v2)
      = Cert.Spec.row64 (F := Ideal) (V (Proc.devRef .tc main_arg11)) := by
  after_results
  exact ktrack_row_eq (by decide) _ _ _

theorem ktrack_h0_v3 :
    StableHlo.after hostOps0 V (Proc.devRef .tc main_v3)
      = Cert.Spec.row2 (F := Ideal) (V (Proc.devRef .tc main_arg13)) := by
  after_results
  exact ktrack_row_eq (by decide) _ _ _

/-! ## The normalisers (three stretches each): in-degrees from the destination column, clipped below at one,
    raised to the power `-1/2`, repeated along the features

Stretch by stretch: the first leaves the in-degrees and the constant one, the second (an inlined clip) their
maximum, the third the power, as a column, repeated along the features. -/

theorem ktrack_h0_v7 :
    StableHlo.after hostOps0 V (Proc.devRef .tc main_v7)
      = Cert.Spec.deg (F := Ideal) (Cert.Spec.col (V (Proc.devRef .tc main_arg3))) := by
  after_results
  rfl

theorem ktrack_h0_cst_1 :
    StableHlo.after hostOps0 V (Proc.devRef .tc main_cst_1) = constant (F := Ideal) S_ .f32 0x3F800000#32 := by
  after_results

theorem ktrack_h01_v8 :
    StableHlo.after hostOps0_1 V (Proc.devRef .tc main_v8)
      = maximumf (F := Ideal) (s := S50000) (φ := .f32)
          (broadcastInDim S50000 ![] bcast_S_S50000 (V (Proc.devRef .tc main_cst_1))) (V (Proc.devRef .tc main_v7)) := by
  after_results
  rfl

theorem ktrack_h02_v12 :
    StableHlo.after hostOps0_2 V (Proc.devRef .tc main_v12)
      = broadcastInDim S50000x64 ![0, 1] bcast_S50000x1_S50000x64_0_1
          (broadcastInDim S50000x1 ![0] bcast_S50000_S50000x1_0
            (Host.powf (F := Ideal) (s := S50000) (φ := .f32) (V (Proc.devRef .tc main_v8))
              (broadcastInDim S50000 ![] bcast_S_S50000 (constant (F := Ideal) S_ .f32 0xBF000000#32)))) := by
  after_results

theorem ktrack_dinv1 :
    StableHlo.after hostOps0_2 (StableHlo.after hostOps0_1 (StableHlo.after hostOps0 V)) (Proc.devRef .tc main_v12)
      = Cert.Spec.dinvb (F := Ideal) (Cert.Spec.deg (Cert.Spec.col (V (Proc.devRef .tc main_arg3)))) := by
  rw [ktrack_h02_v12, ktrack_h01_v8, ktrack_h0_cst_1, ktrack_h0_v7]
  rfl

theorem ktrack_h4_v40 :
    StableHlo.after hostOps4 V (Proc.devRef .tc main_v40)
      = Cert.Spec.deg (F := Ideal) (Cert.Spec.col (V (Proc.devRef .tc main_arg5))) := by
  after_results
  rfl

theorem ktrack_h4_cst_10 :
    StableHlo.after hostOps4 V (Proc.devRef .tc main_cst_10) = constant (F := Ideal) S_ .f32 0x3F800000#32 := by
  after_results

theorem ktrack_h41_v41 :
    StableHlo.after hostOps4_1 V (Proc.devRef .tc main_v41)
      = maximumf (F := Ideal) (s := S50000) (φ := .f32)
          (broadcastInDim S50000 ![] bcast_S_S50000 (V (Proc.devRef .tc main_cst_10))) (V (Proc.devRef .tc main_v40)) := by
  after_results
  rfl

theorem ktrack_h42_v45 :
    StableHlo.after hostOps4_2 V (Proc.devRef .tc main_v45)
      = broadcastInDim S50000x64 ![0, 1] bcast_S50000x1_S50000x64_0_1
          (broadcastInDim S50000x1 ![0] bcast_S50000_S50000x1_0
            (Host.powf (F := Ideal) (s := S50000) (φ := .f32) (V (Proc.devRef .tc main_v41))
              (broadcastInDim S50000 ![] bcast_S_S50000 (constant (F := Ideal) S_ .f32 0xBF000000#32)))) := by
  after_results

theorem ktrack_dinv2 :
    StableHlo.after hostOps4_2 (StableHlo.after hostOps4_1 (StableHlo.after hostOps4 V)) (Proc.devRef .tc main_v45)
      = Cert.Spec.dinvb (F := Ideal) (Cert.Spec.deg (Cert.Spec.col (V (Proc.devRef .tc main_arg5)))) := by
  rw [ktrack_h42_v45, ktrack_h41_v41, ktrack_h4_cst_10, ktrack_h4_v40]
  rfl

/-! ## The aggregations -/

theorem ktrack_h1_v23 :
    StableHlo.after hostOps1 V (Proc.devRef .tc main_v23)
      = Cert.Spec.agg (F := Ideal) (V (Proc.devRef .tc main_arg2)) (V (Proc.devRef .tc main_arg3))
          (V (Proc.devRef .tc main_v13_1)) := by
  after_results_simp
  rfl

theorem ktrack_h2_v34 :
    StableHlo.after hostOps2 V (Proc.devRef .tc main_v34)
      = Cert.Spec.agg (F := Ideal) (V (Proc.devRef .tc main_arg2)) (V (Proc.devRef .tc main_arg3))
          (V (Proc.devRef .tc main_v24_1)) := by
  after_results_simp
  rfl

theorem ktrack_h5_v56 :
    StableHlo.after hostOps5 V (Proc.devRef .tc main_v56)
      = Cert.Spec.agg (F := Ideal) (V (Proc.devRef .tc main_arg4)) (V (Proc.devRef .tc main_arg5))
          (V (Proc.devRef .tc main_v46_1)) := by
  after_results_simp
  rfl

theorem ktrack_h6_v67 :
    StableHlo.after hostOps6 V (Proc.devRef .tc main_v67)
      = Cert.Spec.agg (F := Ideal) (V (Proc.devRef .tc main_arg4)) (V (Proc.devRef .tc main_arg5))
          (V (Proc.devRef .tc main_v57_1)) := by
  after_results_simp
  rfl

/-! ## The two branches side by side -/

theorem ktrack_h8_v70 :
    StableHlo.after hostOps8 V (Proc.devRef .tc main_v70)
      = Cert.Spec.cat2 (F := Ideal) (V (Proc.devRef .tc main_v36)) (V (Proc.devRef .tc main_v69)) := by
  after_results
  rfl

end Cert.KernelIdeal.KV

end
-- ==== Proof.KTrack.lean ====
import proofs.«149625_j6124623364543_1_alg».proof.Proof.Gen.KernelIdeal.Frame
import proofs.«149625_j6124623364543_1_alg».proof.Proof.Spec
import proofs.«149625_j6124623364543_1_alg».proof.Proof.KReg0
import proofs.«149625_j6124623364543_1_alg».proof.Proof.KReg1
import proofs.«149625_j6124623364543_1_alg».proof.Proof.KReg2
import proofs.«149625_j6124623364543_1_alg».proof.Proof.KReg3
import proofs.«149625_j6124623364543_1_alg».proof.Proof.KReg4
import proofs.«149625_j6124623364543_1_alg».proof.Proof.KReg5
import proofs.«149625_j6124623364543_1_alg».proof.Proof.KReg6
import proofs.«149625_j6124623364543_1_alg».proof.Proof.KReg7
import proofs.«149625_j6124623364543_1_alg».proof.Proof.KReg8
import proofs.«149625_j6124623364543_1_alg».proof.Proof.KTrack1
import proofs.«149625_j6124623364543_1_alg».proof.Proof.KTrack2
import Idealize.ShloMosaic.Lib.Pipeline.Value
import Idealize.ShloMosaic.Lib.StableHlo.Run

/-!
# The buffers' contents through the run

Boundary by boundary, each buffer a region or a host stretch reads is identified with a shared whole-array
function of the launch contents of the arguments: at a region's exit by that region's value lemma, after a host
stretch by what the stretch computes, and in between by the fact that no segment in between writes the buffer.
Branch one runs through boundaries 0 … 9, branch two through 9 … 18; the two are laid side by side at
boundary 19 and the perceptron reads them in the last region.
-/

set_option maxRecDepth 16384

noncomputable section

namespace Cert.KernelIdeal.KV

open Idealize.ShloMosaic Idealize.ShloMosaic.TcCoe Idealize.SL.Sem Idealize.ShloMosaic.StableHlo
open Cert.KernelIdeal Cert.KernelIdeal.Gen

/-- Equal arguments, equal values (two, three and five arguments). -/
theorem ktrack_congr2 {A B D : Type} (f : A → B → D) {a a' : A} {b b' : B} (ha : a = a') (hb : b = b') :
    f a b = f a' b' := by subst ha hb; rfl
theorem ktrack_congr3 {A B C D : Type} (f : A → B → C → D) {a a' : A} {b b' : B} {c c' : C}
    (ha : a = a') (hb : b = b') (hc : c = c') : f a b c = f a' b' c' := by subst ha hb hc; rfl
theorem ktrack_congr5 {A B C D E R : Type} (f : A → B → C → D → E → R) {a a' : A} {b b' : B} {c c' : C} {d d' : D}
    {e e' : E} (ha : a = a') (hb : b = b') (hc : c = c') (hd : d = d') (he : e = e') :
    f a b c d e = f a' b' c' d' e' := by subst ha hb hc hd he; rfl

variable (m : (ℓ : Loc nD τ sig) → Buf (Elt Ideal) ℓ) (ρ : Dev nD → PrngReg)

section Walk

variable (c : Dev nD)

/-- Branch one's features after its linear layer, and its normaliser. -/
def ktrack_hO := Cert.Spec.lin (F := Ideal) (m ((c : Thread nD τ).loc main_arg0)) (m ((c : Thread nD τ).loc main_arg6))
  (Cert.Spec.row64 (F := Ideal) (m ((c : Thread nD τ).loc main_arg7)))
def ktrack_dO := Cert.Spec.dinvb (F := Ideal) (Cert.Spec.deg (Cert.Spec.col (m ((c : Thread nD τ).loc main_arg3))))
/-- Branch two's. -/
def ktrack_hS := Cert.Spec.lin (F := Ideal) (m ((c : Thread nD τ).loc main_arg1)) (m ((c : Thread nD τ).loc main_arg8))
  (Cert.Spec.row64 (F := Ideal) (m ((c : Thread nD τ).loc main_arg9)))
def ktrack_dS := Cert.Spec.dinvb (F := Ideal) (Cert.Spec.deg (Cert.Spec.col (m ((c : Thread nD τ).loc main_arg5))))

/-! ## Branch one -/

/-! ### Region 0's entry (boundary 3) -/

theorem ktrack_e3_arg0 : W3 m ρ c (Proc.devRef .tc main_arg0) = m ((c : Thread nD τ).loc main_arg0) :=
  ktrack_bd_keep m ρ c main_arg0 0 3 (by decide)

theorem ktrack_e3_arg6 : W3 m ρ c (Proc.devRef .tc main_arg6) = m ((c : Thread nD τ).loc main_arg6) :=
  ktrack_bd_keep m ρ c main_arg6 0 3 (by decide)

theorem ktrack_e3_v0 :
    W3 m ρ c (Proc.devRef .tc main_v0) = Cert.Spec.row64 (F := Ideal) (m ((c : Thread nD τ).loc main_arg7)) :=
  (ktrack_bd_keep m ρ c main_v0 1 2 (by decide)).trans (ktrack_h0_v0 (W0 m ρ c))

theorem ktrack_e3_v12 : W3 m ρ c (Proc.devRef .tc main_v12) = ktrack_dO m c :=
  ktrack_dinv1 (W0 m ρ c)

/-! ### Region 0's exit (boundary 4) and the first aggregation (boundary 5) -/

theorem ktrack_e4_v13_0 : W4 m ρ c (Proc.devRef .tc main_v13_0) = ktrack_hO m c :=
  (W4_arr m ρ c 4).trans ((reg0_h (V3 m ρ) c).trans
    (ktrack_congr3 (Cert.Spec.lin (F := Ideal)) (ktrack_e3_arg0 m ρ c) (ktrack_e3_arg6 m ρ c) (ktrack_e3_v0 m ρ c)))

theorem ktrack_e4_v13_1 :
    W4 m ρ c (Proc.devRef .tc main_v13_1) = Cert.Spec.scale (F := Ideal) (ktrack_hO m c) (ktrack_dO m c) :=
  (W4_arr m ρ c 5).trans ((reg0_s (V3 m ρ) c).trans
    (ktrack_congr2 (Cert.Spec.scale (F := Ideal))
      (ktrack_congr3 (Cert.Spec.lin (F := Ideal)) (ktrack_e3_arg0 m ρ c) (ktrack_e3_arg6 m ρ c) (ktrack_e3_v0 m ρ c))
      (ktrack_e3_v12 m ρ c)))

theorem ktrack_e4_arg2 : W4 m ρ c (Proc.devRef .tc main_arg2) = m ((c : Thread nD τ).loc main_arg2) :=
  ktrack_bd_keep m ρ c main_arg2 0 4 (by decide)

theorem ktrack_e4_arg3 : W4 m ρ c (Proc.devRef .tc main_arg3) = m ((c : Thread nD τ).loc main_arg3) :=
  ktrack_bd_keep m ρ c main_arg3 0 4 (by decide)

theorem ktrack_e5_v23 :
    W5 m ρ c (Proc.devRef .tc main_v23)
      = Cert.Spec.agg (F := Ideal) (m ((c : Thread nD τ).loc main_arg2)) (m ((c : Thread nD τ).loc main_arg3))
          (Cert.Spec.scale (F := Ideal) (ktrack_hO m c) (ktrack_dO m c)) :=
  (ktrack_h1_v23 (W4 m ρ c)).trans
    (ktrack_congr3 (Cert.Spec.agg (F := Ideal)) (ktrack_e4_arg2 m ρ c) (ktrack_e4_arg3 m ρ c) (ktrack_e4_v13_1 m ρ c))

theorem ktrack_e5_v13_0 : W5 m ρ c (Proc.devRef .tc main_v13_0) = ktrack_hO m c :=
  (ktrack_bd_keep m ρ c main_v13_0 4 1 (by decide)).trans (ktrack_e4_v13_0 m ρ c)

theorem ktrack_e5_v12 : W5 m ρ c (Proc.devRef .tc main_v12) = ktrack_dO m c :=
  (ktrack_bd_keep m ρ c main_v12 3 2 (by decide)).trans (ktrack_e3_v12 m ρ c)

/-! ### Region 1's exit (boundary 6) and the second aggregation (boundary 7) -/

theorem ktrack_e6_v24_0 :
    W6 m ρ c (Proc.devRef .tc main_v24_0)
      = Cert.Spec.f1 (F := Ideal) (ktrack_hO m c) (ktrack_dO m c) (m ((c : Thread nD τ).loc main_arg2))
          (m ((c : Thread nD τ).loc main_arg3)) :=
  (W6_arr m ρ c 3).trans ((reg1_f (V5 m ρ) c).trans
    (ktrack_congr3 (Cert.Spec.step (F := Ideal)) (ktrack_e5_v13_0 m ρ c) (ktrack_e5_v12 m ρ c) (ktrack_e5_v23 m ρ c)))

theorem ktrack_e6_v24_1 :
    W6 m ρ c (Proc.devRef .tc main_v24_1)
      = Cert.Spec.scale (F := Ideal)
          (Cert.Spec.f1 (F := Ideal) (ktrack_hO m c) (ktrack_dO m c) (m ((c : Thread nD τ).loc main_arg2))
            (m ((c : Thread nD τ).loc main_arg3)))
          (ktrack_dO m c) :=
  (W6_arr m ρ c 4).trans ((reg1_s (V5 m ρ) c).trans
    (ktrack_congr2 (Cert.Spec.scale (F := Ideal))
      (ktrack_congr3 (Cert.Spec.step (F := Ideal)) (ktrack_e5_v13_0 m ρ c) (ktrack_e5_v12 m ρ c) (ktrack_e5_v23 m ρ c))
      (ktrack_e5_v12 m ρ c)))

theorem ktrack_e6_arg2 : W6 m ρ c (Proc.devRef .tc main_arg2) = m ((c : Thread nD τ).loc main_arg2) :=
  ktrack_bd_keep m ρ c main_arg2 0 6 (by decide)

theorem ktrack_e6_arg3 : W6 m ρ c (Proc.devRef .tc main_arg3) = m ((c : Thread nD τ).loc main_arg3) :=
  ktrack_bd_keep m ρ c main_arg3 0 6 (by decide)

theorem ktrack_e7_v34 :
    W7 m ρ c (Proc.devRef .tc main_v34)
      = Cert.Spec.agg (F := Ideal) (m ((c : Thread nD τ).loc main_arg2)) (m ((c : Thread nD τ).loc main_arg3))
          (Cert.Spec.scale (F := Ideal)
            (Cert.Spec.f1 (F := Ideal) (ktrack_hO m c) (ktrack_dO m c) (m ((c : Thread nD τ).loc main_arg2))
              (m ((c : Thread nD τ).loc main_arg3)))
            (ktrack_dO m c)) :=
  (ktrack_h2_v34 (W6 m ρ c)).trans
    (ktrack_congr3 (Cert.Spec.agg (F := Ideal)) (ktrack_e6_arg2 m ρ c) (ktrack_e6_arg3 m ρ c) (ktrack_e6_v24_1 m ρ c))

theorem ktrack_e7_v24_0 :
    W7 m ρ c (Proc.devRef .tc main_v24_0)
      = Cert.Spec.f1 (F := Ideal) (ktrack_hO m c) (ktrack_dO m c) (m ((c : Thread nD τ).loc main_arg2))
          (m ((c : Thread nD τ).loc main_arg3)) :=
  (ktrack_bd_keep m ρ c main_v24_0 6 1 (by decide)).trans (ktrack_e6_v24_0 m ρ c)

theorem ktrack_e7_v12 : W7 m ρ c (Proc.devRef .tc main_v12) = ktrack_dO m c :=
  (ktrack_bd_keep m ρ c main_v12 3 4 (by decide)).trans (ktrack_e3_v12 m ρ c)

/-! ### Region 2's exit (boundary 8) and region 3's (boundary 9) -/

theorem ktrack_e8_v35_0 :
    W8 m ρ c (Proc.devRef .tc main_v35_0)
      = Cert.Spec.f2 (F := Ideal) (ktrack_hO m c) (ktrack_dO m c) (m ((c : Thread nD τ).loc main_arg2))
          (m ((c : Thread nD τ).loc main_arg3)) :=
  (W8_arr m ρ c 3).trans ((reg2_f (V7 m ρ) c).trans
    (ktrack_congr3 (Cert.Spec.step (F := Ideal)) (ktrack_e7_v24_0 m ρ c) (ktrack_e7_v12 m ρ c) (ktrack_e7_v34 m ρ c)))

theorem ktrack_e8_v13_0 : W8 m ρ c (Proc.devRef .tc main_v13_0) = ktrack_hO m c :=
  (ktrack_bd_keep m ρ c main_v13_0 4 4 (by decide)).trans (ktrack_e4_v13_0 m ρ c)

theorem ktrack_e8_v24_0 :
    W8 m ρ c (Proc.devRef .tc main_v24_0)
      = Cert.Spec.f1 (F := Ideal) (ktrack_hO m c) (ktrack_dO m c) (m ((c : Thread nD τ).loc main_arg2))
          (m ((c : Thread nD τ).loc main_arg3)) :=
  (ktrack_bd_keep m ρ c main_v24_0 6 2 (by decide)).trans (ktrack_e6_v24_0 m ρ c)

theorem ktrack_e9_v36 :
    W9 m ρ c (Proc.devRef .tc main_v36)
      = Cert.Spec.branchO (F := Ideal) (ktrack_hO m c) (ktrack_dO m c) (m ((c : Thread nD τ).loc main_arg2))
          (m ((c : Thread nD τ).loc main_arg3)) :=
  (W9_arr m ρ c 3).trans ((reg3 (V8 m ρ) c).trans
    (ktrack_congr3 (Cert.Spec.combO (F := Ideal)) (ktrack_e8_v13_0 m ρ c) (ktrack_e8_v24_0 m ρ c) (ktrack_e8_v35_0 m ρ c)))

/-! ## Branch two -/

/-! ### Region 4's entry (boundary 12) -/

theorem ktrack_e9_arg5 : W9 m ρ c (Proc.devRef .tc main_arg5) = m ((c : Thread nD τ).loc main_arg5) :=
  ktrack_bd_keep m ρ c main_arg5 0 9 (by decide)

theorem ktrack_e12_v45 : W12 m ρ c (Proc.devRef .tc main_v45) = ktrack_dS m c :=
  (ktrack_dinv2 (W9 m ρ c)).trans
    (congrArg (fun i => Cert.Spec.dinvb (F := Ideal) (Cert.Spec.deg (Cert.Spec.col i))) (ktrack_e9_arg5 m ρ c))

theorem ktrack_e12_arg1 : W12 m ρ c (Proc.devRef .tc main_arg1) = m ((c : Thread nD τ).loc main_arg1) :=
  ktrack_bd_keep m ρ c main_arg1 0 12 (by decide)

theorem ktrack_e12_arg8 : W12 m ρ c (Proc.devRef .tc main_arg8) = m ((c : Thread nD τ).loc main_arg8) :=
  ktrack_bd_keep m ρ c main_arg8 0 12 (by decide)

theorem ktrack_e12_v1 :
    W12 m ρ c (Proc.devRef .tc main_v1) = Cert.Spec.row64 (F := Ideal) (m ((c : Thread nD τ).loc main_arg9)) :=
  (ktrack_bd_keep m ρ c main_v1 1 11 (by decide)).trans (ktrack_h0_v1 (W0 m ρ c))

/-! ### Region 4's exit (boundary 13) and the first aggregation (boundary 14) -/

theorem ktrack_e13_v46_0 : W13 m ρ c (Proc.devRef .tc main_v46_0) = ktrack_hS m c :=
  (W13_arr m ρ c 4).trans ((reg4_h (V12 m ρ) c).trans
    (ktrack_congr3 (Cert.Spec.lin (F := Ideal)) (ktrack_e12_arg1 m ρ c) (ktrack_e12_arg8 m ρ c) (ktrack_e12_v1 m ρ c)))

theorem ktrack_e13_v46_1 :
    W13 m ρ c (Proc.devRef .tc main_v46_1) = Cert.Spec.scale (F := Ideal) (ktrack_hS m c) (ktrack_dS m c) :=
  (W13_arr m ρ c 5).trans ((reg4_s (V12 m ρ) c).trans
    (ktrack_congr2 (Cert.Spec.scale (F := Ideal))
      (ktrack_congr3 (Cert.Spec.lin (F := Ideal)) (ktrack_e12_arg1 m ρ c) (ktrack_e12_arg8 m ρ c) (ktrack_e12_v1 m ρ c))
      (ktrack_e12_v45 m ρ c)))

theorem ktrack_e13_arg4 : W13 m ρ c (Proc.devRef .tc main_arg4) = m ((c : Thread nD τ).loc main_arg4) :=
  ktrack_bd_keep m ρ c main_arg4 0 13 (by decide)

theorem ktrack_e13_arg5 : W13 m ρ c (Proc.devRef .tc main_arg5) = m ((c : Thread nD τ).loc main_arg5) :=
  ktrack_bd_keep m ρ c main_arg5 0 13 (by decide)

theorem ktrack_e14_v56 :
    W14 m ρ c (Proc.devRef .tc main_v56)
      = Cert.Spec.agg (F := Ideal) (m ((c : Thread nD τ).loc main_arg4)) (m ((c : Thread nD τ).loc main_arg5))
          (Cert.Spec.scale (F := Ideal) (ktrack_hS m c) (ktrack_dS m c)) :=
  (ktrack_h5_v56 (W13 m ρ c)).trans
    (ktrack_congr3 (Cert.Spec.agg (F := Ideal)) (ktrack_e13_arg4 m ρ c) (ktrack_e13_arg5 m ρ c) (ktrack_e13_v46_1 m ρ c))

theorem ktrack_e14_v46_0 : W14 m ρ c (Proc.devRef .tc main_v46_0) = ktrack_hS m c :=
  (ktrack_bd_keep m ρ c main_v46_0 13 1 (by decide)).trans (ktrack_e13_v46_0 m ρ c)

theorem ktrack_e14_v45 : W14 m ρ c (Proc.devRef .tc main_v45) = ktrack_dS m c :=
  (ktrack_bd_keep m ρ c main_v45 12 2 (by decide)).trans (ktrack_e12_v45 m ρ c)

/-! ### Region 5's exit (boundary 15) and the second aggregation (boundary 16) -/

theorem ktrack_e15_v57_0 :
    W15 m ρ c (Proc.devRef .tc main_v57_0)
      = Cert.Spec.f1 (F := Ideal) (ktrack_hS m c) (ktrack_dS m c) (m ((c : Thread nD τ).loc main_arg4))
          (m ((c : Thread nD τ).loc main_arg5)) :=
  (W15_arr m ρ c 3).trans ((reg5_f (V14 m ρ) c).trans
    (ktrack_congr3 (Cert.Spec.step (F := Ideal)) (ktrack_e14_v46_0 m ρ c) (ktrack_e14_v45 m ρ c) (ktrack_e14_v56 m ρ c)))

theorem ktrack_e15_v57_1 :
    W15 m ρ c (Proc.devRef .tc main_v57_1)
      = Cert.Spec.scale (F := Ideal)
          (Cert.Spec.f1 (F := Ideal) (ktrack_hS m c) (ktrack_dS m c) (m ((c : Thread nD τ).loc main_arg4))
            (m ((c : Thread nD τ).loc main_arg5)))
          (ktrack_dS m c) :=
  (W15_arr m ρ c 4).trans ((reg5_s (V14 m ρ) c).trans
    (ktrack_congr2 (Cert.Spec.scale (F := Ideal))
      (ktrack_congr3 (Cert.Spec.step (F := Ideal)) (ktrack_e14_v46_0 m ρ c) (ktrack_e14_v45 m ρ c) (ktrack_e14_v56 m ρ c))
      (ktrack_e14_v45 m ρ c)))

theorem ktrack_e15_arg4 : W15 m ρ c (Proc.devRef .tc main_arg4) = m ((c : Thread nD τ).loc main_arg4) :=
  ktrack_bd_keep m ρ c main_arg4 0 15 (by decide)

theorem ktrack_e15_arg5 : W15 m ρ c (Proc.devRef .tc main_arg5) = m ((c : Thread nD τ).loc main_arg5) :=
  ktrack_bd_keep m ρ c main_arg5 0 15 (by decide)

theorem ktrack_e16_v67 :
    W16 m ρ c (Proc.devRef .tc main_v67)
      = Cert.Spec.agg (F := Ideal) (m ((c : Thread nD τ).loc main_arg4)) (m ((c : Thread nD τ).loc main_arg5))
          (Cert.Spec.scale (F := Ideal)
            (Cert.Spec.f1 (F := Ideal) (ktrack_hS m c) (ktrack_dS m c) (m ((c : Thread nD τ).loc main_arg4))
              (m ((c : Thread nD τ).loc main_arg5)))
            (ktrack_dS m c)) :=
  (ktrack_h6_v67 (W15 m ρ c)).trans
    (ktrack_congr3 (Cert.Spec.agg (F := Ideal)) (ktrack_e15_arg4 m ρ c) (ktrack_e15_arg5 m ρ c) (ktrack_e15_v57_1 m ρ c))

theorem ktrack_e16_v57_0 :
    W16 m ρ c (Proc.devRef .tc main_v57_0)
      = Cert.Spec.f1 (F := Ideal) (ktrack_hS m c) (ktrack_dS m c) (m ((c : Thread nD τ).loc main_arg4))
          (m ((c : Thread nD τ).loc main_arg5)) :=
  (ktrack_bd_keep m ρ c main_v57_0 15 1 (by decide)).trans (ktrack_e15_v57_0 m ρ c)

theorem ktrack_e16_v45 : W16 m ρ c (Proc.devRef .tc main_v45) = ktrack_dS m c :=
  (ktrack_bd_keep m ρ c main_v45 12 4 (by decide)).trans (ktrack_e12_v45 m ρ c)

/-! ### Region 6's exit (boundary 17) and region 7's (boundary 18) -/

theorem ktrack_e17_v68_0 :
    W17 m ρ c (Proc.devRef .tc main_v68_0)
      = Cert.Spec.f2 (F := Ideal) (ktrack_hS m c) (ktrack_dS m c) (m ((c : Thread nD τ).loc main_arg4))
          (m ((c : Thread nD τ).loc main_arg5)) :=
  (W17_arr m ρ c 3).trans ((reg6_f (V16 m ρ) c).trans
    (ktrack_congr3 (Cert.Spec.step (F := Ideal)) (ktrack_e16_v57_0 m ρ c) (ktrack_e16_v45 m ρ c) (ktrack_e16_v67 m ρ c)))

theorem ktrack_e17_v46_0 : W17 m ρ c (Proc.devRef .tc main_v46_0) = ktrack_hS m c :=
  (ktrack_bd_keep m ρ c main_v46_0 13 4 (by decide)).trans (ktrack_e13_v46_0 m ρ c)

theorem ktrack_e17_v57_0 :
    W17 m ρ c (Proc.devRef .tc main_v57_0)
      = Cert.Spec.f1 (F := Ideal) (ktrack_hS m c) (ktrack_dS m c) (m ((c : Thread nD τ).loc main_arg4))
          (m ((c : Thread nD τ).loc main_arg5)) :=
  (ktrack_bd_keep m ρ c main_v57_0 15 2 (by decide)).trans (ktrack_e15_v57_0 m ρ c)

theorem ktrack_e18_v69 :
    W18 m ρ c (Proc.devRef .tc main_v69)
      = Cert.Spec.branchS (F := Ideal) (ktrack_hS m c) (ktrack_dS m c) (m ((c : Thread nD τ).loc main_arg4))
          (m ((c : Thread nD τ).loc main_arg5)) :=
  (W18_arr m ρ c 3).trans ((reg7 (V17 m ρ) c).trans
    (ktrack_congr3 (Cert.Spec.combS (F := Ideal)) (ktrack_e17_v46_0 m ρ c) (ktrack_e17_v57_0 m ρ c) (ktrack_e17_v68_0 m ρ c)))

/-! ## The two branches side by side (boundary 19), and the perceptron's other operands -/

theorem ktrack_e18_v36 :
    W18 m ρ c (Proc.devRef .tc main_v36)
      = Cert.Spec.branchO (F := Ideal) (ktrack_hO m c) (ktrack_dO m c) (m ((c : Thread nD τ).loc main_arg2))
          (m ((c : Thread nD τ).loc main_arg3)) :=
  (ktrack_bd_keep m ρ c main_v36 9 9 (by decide)).trans (ktrack_e9_v36 m ρ c)

theorem ktrack_e19_v70 :
    W19 m ρ c (Proc.devRef .tc main_v70)
      = Cert.Spec.cat2 (F := Ideal)
          (Cert.Spec.branchO (F := Ideal) (ktrack_hO m c) (ktrack_dO m c) (m ((c : Thread nD τ).loc main_arg2))
            (m ((c : Thread nD τ).loc main_arg3)))
          (Cert.Spec.branchS (F := Ideal) (ktrack_hS m c) (ktrack_dS m c) (m ((c : Thread nD τ).loc main_arg4))
            (m ((c : Thread nD τ).loc main_arg5))) :=
  (ktrack_h8_v70 (W18 m ρ c)).trans
    (ktrack_congr2 (Cert.Spec.cat2 (F := Ideal)) (ktrack_e18_v36 m ρ c) (ktrack_e18_v69 m ρ c))

theorem ktrack_e20_v70 :
    W20 m ρ c (Proc.devRef .tc main_v70) = W19 m ρ c (Proc.devRef .tc main_v70) :=
  ktrack_bd_keep m ρ c main_v70 19 1 (by decide)

theorem ktrack_e19_arg10 : W19 m ρ c (Proc.devRef .tc main_arg10) = m ((c : Thread nD τ).loc main_arg10) :=
  ktrack_bd_keep m ρ c main_arg10 0 19 (by decide)

theorem ktrack_e19_arg12 : W19 m ρ c (Proc.devRef .tc main_arg12) = m ((c : Thread nD τ).loc main_arg12) :=
  ktrack_bd_keep m ρ c main_arg12 0 19 (by decide)

theorem ktrack_e19_v2 :
    W19 m ρ c (Proc.devRef .tc main_v2) = Cert.Spec.row64 (F := Ideal) (m ((c : Thread nD τ).loc main_arg11)) :=
  (ktrack_bd_keep m ρ c main_v2 1 18 (by decide)).trans (ktrack_h0_v2 (W0 m ρ c))

theorem ktrack_e19_v3 :
    W19 m ρ c (Proc.devRef .tc main_v3) = Cert.Spec.row2 (F := Ideal) (m ((c : Thread nD τ).loc main_arg13)) :=
  (ktrack_bd_keep m ρ c main_v3 1 18 (by decide)).trans (ktrack_h0_v3 (W0 m ρ c))

end Walk

/-- The first result's array at the end of @main, as the shared function of the launch contents of the arguments;
    this program makes each branch's in-degrees from the destination column as it is. -/
theorem final70 (c : Dev nD) :
    W20 m ρ c (Proc.devRef .tc main_v70)
      = Cert.Spec.hall (F := Ideal) (m ((c : Thread nD τ).loc main_arg0)) (m ((c : Thread nD τ).loc main_arg1))
          (m ((c : Thread nD τ).loc main_arg2)) (m ((c : Thread nD τ).loc main_arg3)) (m ((c : Thread nD τ).loc main_arg4)) (m ((c : Thread nD τ).loc main_arg5))
          (Cert.Spec.col (m ((c : Thread nD τ).loc main_arg3))) (Cert.Spec.col (m ((c : Thread nD τ).loc main_arg5)))
          (m ((c : Thread nD τ).loc main_arg6)) (Cert.Spec.row64 (F := Ideal) (m ((c : Thread nD τ).loc main_arg7)))
          (m ((c : Thread nD τ).loc main_arg8)) (Cert.Spec.row64 (F := Ideal) (m ((c : Thread nD τ).loc main_arg9))) :=
  (ktrack_e20_v70 m ρ c).trans (ktrack_e19_v70 m ρ c)

/-- The second result's array: the perceptron of the first. -/
theorem final71 (c : Dev nD) :
    W20 m ρ c (Proc.devRef .tc main_v71)
      = Cert.Spec.mlp (F := Ideal) (W20 m ρ c (Proc.devRef .tc main_v70)) (m ((c : Thread nD τ).loc main_arg10))
          (Cert.Spec.row64 (F := Ideal) (m ((c : Thread nD τ).loc main_arg11))) (m ((c : Thread nD τ).loc main_arg12))
          (Cert.Spec.row2 (F := Ideal) (m ((c : Thread nD τ).loc main_arg13))) :=
  (W20_arr m ρ c 5).trans ((reg8 (V19 m ρ) c).trans
    (ktrack_congr5 (Cert.Spec.mlp (F := Ideal)) (ktrack_e20_v70 m ρ c).symm (ktrack_e19_arg10 m ρ c) (ktrack_e19_v2 m ρ c)
      (ktrack_e19_arg12 m ρ c) (ktrack_e19_v3 m ρ c)))

end Cert.KernelIdeal.KV

end
-- ==== Proof.RSpec.lean ====
/-
  Two more pieces of the shared mathematics, for reading the reference program: the normaliser `max(1, deg)^(-1/2)` as
  one COLUMN (one value per node), and a column repeated along the 64 features. The reference keeps the column and repeats
  it at each use; `Spec.dinvb` is the repeated column.
-/
import proofs.«149625_j6124623364543_1_alg».proof.Proof.Spec

noncomputable section

namespace Cert.Spec

open Idealize.ShloMosaic Cert.ReferenceIdeal Cert.ReferenceIdeal.Facts₀ Cert.ReferenceIdeal.Facts

variable {F : FTy → Type} [FloatOps F]

/-- `max(1, deg)^(-1/2)` as a column. -/
def dinvc (d : FVec F S50000 .f32) : FVec F S50000x1 .f32 :=
  broadcastInDim S50000x1 ![0] bcast_S50000_S50000x1_0
    (Host.powf (maximumf (broadcastInDim S50000 ![] bcast_S_S50000 (constant S_ .f32 0x3F800000#32)) d)
      (broadcastInDim S50000 ![] bcast_S_S50000 (constant S_ .f32 0xBF000000#32)))

/-- A column repeated along the features. -/
def bc64 (col : FVec F S50000x1 .f32) : FVec F S50000x64 .f32 :=
  broadcastInDim S50000x64 ![0, 1] bcast_S50000x1_S50000x64_0_1 col

theorem dinvb_eq (d : FVec F S50000 .f32) : dinvb d = bc64 (dinvc d) := rfl

end Cert.Spec

end
-- ==== Proof.RVal1.lean ====
import proofs.«149625_j6124623364543_1_alg».proof.Proof.RefChunks
import proofs.«149625_j6124623364543_1_alg».proof.Proof.RSpec
import Idealize.ShloMosaic.Lib.StableHlo.Run

set_option maxRecDepth 16384

noncomputable section

namespace Cert.ReferenceIdeal.RV

open Idealize.ShloMosaic Idealize.ShloMosaic.TcCoe Idealize.SL.Sem Idealize.ShloMosaic.StableHlo
open Cert.ReferenceIdeal Cert.ReferenceIdeal.Gen Cert.ReferenceIdeal.ValueQ

variable {F : FTy → Type} [FloatOps F]
variable (V : Valuation τ sig (Elt F))

/-- Operations 1–7: the first branch's `relu (x · W + b)`. -/
theorem rc1_v4 : after (rc1 (F := F)) V (Proc.devRef .tc main_v4) = Cert.Spec.lin (V (Proc.devRef .tc main_arg0)) (V (Proc.devRef .tc main_arg6)) (Cert.Spec.row64 (V (Proc.devRef .tc main_arg7))) := by
  unfold rc1
  after_results_simp
  rfl

/-- Operations 8–28: the first branch's normaliser column, the in-degrees from the WRAPPED destination column. -/
theorem rc2_v17 : after (rc2 (F := F)) V (Proc.devRef .tc main_v17) = Cert.Spec.dinvc (Cert.Spec.deg (Cert.Spec.col (Cert.Spec.wrap (V (Proc.devRef .tc main_arg3))))) := by
  unfold rc2
  after_results_simp
  rfl

/-- Operations 171–177: the second branch's `relu (x · W + b)`. -/
theorem rc6_v137 : after (rc6 (F := F)) V (Proc.devRef .tc main_v137) = Cert.Spec.lin (V (Proc.devRef .tc main_arg1)) (V (Proc.devRef .tc main_arg8)) (Cert.Spec.row64 (V (Proc.devRef .tc main_arg9))) := by
  unfold rc6
  after_results_simp
  rfl

/-- Operations 178–198: the second branch's normaliser column. -/
theorem rc7_v150 : after (rc7 (F := F)) V (Proc.devRef .tc main_v150) = Cert.Spec.dinvc (Cert.Spec.deg (Cert.Spec.col (Cert.Spec.wrap (V (Proc.devRef .tc main_arg5))))) := by
  unfold rc7
  after_results_simp
  rfl

/-- Operations 342–352: the perceptron of the first result. -/
theorem rc11_v275 : after (rc11 (F := F)) V (Proc.devRef .tc main_v275) = Cert.Spec.mlp (V (Proc.devRef .tc main_v266)) (V (Proc.devRef .tc main_arg10)) (Cert.Spec.row64 (V (Proc.devRef .tc main_arg11))) (V (Proc.devRef .tc main_arg12)) (Cert.Spec.row2 (V (Proc.devRef .tc main_arg13))) := by
  unfold rc11
  after_results_simp
  rfl

end Cert.ReferenceIdeal.RV

end
-- ==== Proof.RVal2.lean ====
import proofs.«149625_j6124623364543_1_alg».proof.Proof.RefChunks
import proofs.«149625_j6124623364543_1_alg».proof.Proof.RSpec
import Idealize.ShloMosaic.Lib.StableHlo.Run

set_option maxRecDepth 16384

noncomputable section

namespace Cert.ReferenceIdeal.RV

open Idealize.ShloMosaic Idealize.ShloMosaic.TcCoe Idealize.SL.Sem Idealize.ShloMosaic.StableHlo
open Cert.ReferenceIdeal Cert.ReferenceIdeal.Gen Cert.ReferenceIdeal.ValueQ

variable {F : FTy → Type} [FloatOps F]
variable (V : Valuation τ sig (Elt F))

/-- Operations 29–75: the first combination of the first branch, its two propagation steps recomputed from `h` and the column. -/
theorem rc3_v55 : after (rc3 (F := F)) V (Proc.devRef .tc main_v55) = Cert.Spec.comb 0x40400000#32 0xC0400000#32 0x3F400000#32 (V (Proc.devRef .tc main_v4)) (Cert.Spec.f1 (V (Proc.devRef .tc main_v4)) (Cert.Spec.bc64 (V (Proc.devRef .tc main_v17))) (V (Proc.devRef .tc main_arg2)) (V (Proc.devRef .tc main_arg3))) (Cert.Spec.f2 (V (Proc.devRef .tc main_v4)) (Cert.Spec.bc64 (V (Proc.devRef .tc main_v17))) (V (Proc.devRef .tc main_arg2)) (V (Proc.devRef .tc main_arg3))) := by
  unfold rc3
  after_results_simp
  rfl

/-- Operations 76–122: the second combination. -/
theorem rc4_v93 : after (rc4 (F := F)) V (Proc.devRef .tc main_v93) = Cert.Spec.comb 0x00000000#32 0x40400000#32 0xBFC00000#32 (V (Proc.devRef .tc main_v4)) (Cert.Spec.f1 (V (Proc.devRef .tc main_v4)) (Cert.Spec.bc64 (V (Proc.devRef .tc main_v17))) (V (Proc.devRef .tc main_arg2)) (V (Proc.devRef .tc main_arg3))) (Cert.Spec.f2 (V (Proc.devRef .tc main_v4)) (Cert.Spec.bc64 (V (Proc.devRef .tc main_v17))) (V (Proc.devRef .tc main_arg2)) (V (Proc.devRef .tc main_arg3))) := by
  unfold rc4
  after_results_simp
  rfl

/-- Operations 123–170: the third combination, and the three side by side. -/
theorem rc5_v132 : after (rc5 (F := F)) V (Proc.devRef .tc main_v132)
    = Cert.Spec.cat3 (V (Proc.devRef .tc main_v55)) (V (Proc.devRef .tc main_v93)) (Cert.Spec.comb 0x00000000#32 0x00000000#32 0x3F400000#32 (V (Proc.devRef .tc main_v4)) (Cert.Spec.f1 (V (Proc.devRef .tc main_v4)) (Cert.Spec.bc64 (V (Proc.devRef .tc main_v17))) (V (Proc.devRef .tc main_arg2)) (V (Proc.devRef .tc main_arg3))) (Cert.Spec.f2 (V (Proc.devRef .tc main_v4)) (Cert.Spec.bc64 (V (Proc.devRef .tc main_v17))) (V (Proc.devRef .tc main_arg2)) (V (Proc.devRef .tc main_arg3)))) := by
  unfold rc5
  after_results_simp
  rfl

end Cert.ReferenceIdeal.RV

end
-- ==== Proof.RVal3.lean ====
import proofs.«149625_j6124623364543_1_alg».proof.Proof.RefChunks
import proofs.«149625_j6124623364543_1_alg».proof.Proof.RSpec
import Idealize.ShloMosaic.Lib.StableHlo.Run

set_option maxRecDepth 16384

noncomputable section

namespace Cert.ReferenceIdeal.RV

open Idealize.ShloMosaic Idealize.ShloMosaic.TcCoe Idealize.SL.Sem Idealize.ShloMosaic.StableHlo
open Cert.ReferenceIdeal Cert.ReferenceIdeal.Gen Cert.ReferenceIdeal.ValueQ

variable {F : FTy → Type} [FloatOps F]
variable (V : Valuation τ sig (Elt F))

/-- Operations 199–245: the first combination of the second branch. -/
theorem rc8_v188 : after (rc8 (F := F)) V (Proc.devRef .tc main_v188) = Cert.Spec.comb 0x40800000#32 0x40800000#32 0x40800000#32 (V (Proc.devRef .tc main_v137)) (Cert.Spec.f1 (V (Proc.devRef .tc main_v137)) (Cert.Spec.bc64 (V (Proc.devRef .tc main_v150))) (V (Proc.devRef .tc main_arg4)) (V (Proc.devRef .tc main_arg5))) (Cert.Spec.f2 (V (Proc.devRef .tc main_v137)) (Cert.Spec.bc64 (V (Proc.devRef .tc main_v150))) (V (Proc.devRef .tc main_arg4)) (V (Proc.devRef .tc main_arg5))) := by
  unfold rc8
  after_results_simp
  rfl

/-- Operations 246–292: the second combination. -/
theorem rc9_v226 : after (rc9 (F := F)) V (Proc.devRef .tc main_v226) = Cert.Spec.comb 0x40800000#32 0x40800000#32 0x40800000#32 (V (Proc.devRef .tc main_v137)) (Cert.Spec.f1 (V (Proc.devRef .tc main_v137)) (Cert.Spec.bc64 (V (Proc.devRef .tc main_v150))) (V (Proc.devRef .tc main_arg4)) (V (Proc.devRef .tc main_arg5))) (Cert.Spec.f2 (V (Proc.devRef .tc main_v137)) (Cert.Spec.bc64 (V (Proc.devRef .tc main_v150))) (V (Proc.devRef .tc main_arg4)) (V (Proc.devRef .tc main_arg5))) := by
  unfold rc9
  after_results_simp
  rfl

set_option maxHeartbeats 4000000 in
/-- Operations 293–341: the third combination, the three side by side, and both branches side by side. -/
theorem rc10_v266 : after (rc10 (F := F)) V (Proc.devRef .tc main_v266)
    = Cert.Spec.cat2 (V (Proc.devRef .tc main_v132)) (Cert.Spec.cat3 (V (Proc.devRef .tc main_v188)) (V (Proc.devRef .tc main_v226)) (Cert.Spec.comb 0x40800000#32 0x40800000#32 0x40800000#32 (V (Proc.devRef .tc main_v137)) (Cert.Spec.f1 (V (Proc.devRef .tc main_v137)) (Cert.Spec.bc64 (V (Proc.devRef .tc main_v150))) (V (Proc.devRef .tc main_arg4)) (V (Proc.devRef .tc main_arg5))) (Cert.Spec.f2 (V (Proc.devRef .tc main_v137)) (Cert.Spec.bc64 (V (Proc.devRef .tc main_v150))) (V (Proc.devRef .tc main_arg4)) (V (Proc.devRef .tc main_arg5))))) := by
  unfold rc10
  after_results_simp
  rfl

end Cert.ReferenceIdeal.RV

end
-- ==== Proof.RKeep.lean ====
import proofs.«149625_j6124623364543_1_alg».proof.Proof.RefChunks
import Idealize.ShloMosaic.Lib.StableHlo.Run

/-!
# Which buffers each chunk of the reference's operations leaves alone

The reference program's 352 host operations are cut into eleven consecutive chunks. A chunk rewrites the result
buffers of its operations and nothing else: listing, per chunk, the references it writes, a buffer keeps its
contents across any run of consecutive chunks none of which lists it. The contents after the first `k` chunks
are named, so that the whole fold reads as eleven steps.
-/

set_option maxRecDepth 16384

noncomputable section

namespace Cert.ReferenceIdeal.RV

open Idealize.ShloMosaic Idealize.ShloMosaic.TcCoe Idealize.SL.Sem Idealize.ShloMosaic.StableHlo
open Cert.ReferenceIdeal Cert.ReferenceIdeal.Gen Cert.ReferenceIdeal.ValueQ

variable {F : FTy → Type} [FloatOps F]
variable (V : Valuation τ sig (Elt F))

/-- The references chunk `k` writes (`k = 1 … 11`, none otherwise): the results of its operations, in order. -/
noncomputable def rkeep_wr : Nat → List (Ref sig .tc)
  | 1 => [main_v0, main_v1, main_v2, main_v3, main_call0_cst, main_call0_v0, main_v4]
  | 2 => [main_cst, main_v5, main_cst_0, main_v6, main_c, main_v7, main_v8, main_c_1, main_v9, main_v10, main_v11,
          main_v12, main_v13, main_cst_2, main_call1_v0, main_call1_v1, main_v14, main_cst_3, main_v15, main_v16,
          main_v17]
  | 3 => [main_cst_4, main_v18, main_v19, main_v20, main_v21, main_c_5, main_v22, main_v23, main_c_6, main_v24,
          main_v25, main_v26, main_v27, main_v28, main_cst_7, main_v29, main_v30, main_v31, main_v32, main_v33,
          main_v34, main_cst_8, main_v35, main_v36, main_v37, main_v38, main_v39, main_c_9, main_v40, main_v41,
          main_c_10, main_v42, main_v43, main_v44, main_v45, main_v46, main_cst_11, main_v47, main_v48, main_v49,
          main_v50, main_v51, main_v52, main_cst_12, main_v53, main_v54, main_v55]
  | 4 => [main_cst_13, main_v56, main_v57, main_v58, main_v59, main_c_14, main_v60, main_v61, main_c_15, main_v62,
          main_v63, main_v64, main_v65, main_v66, main_cst_16, main_v67, main_v68, main_v69, main_v70, main_v71,
          main_v72, main_cst_17, main_v73, main_v74, main_v75, main_v76, main_v77, main_c_18, main_v78, main_v79,
          main_c_19, main_v80, main_v81, main_v82, main_v83, main_v84, main_cst_20, main_v85, main_v86, main_v87,
          main_v88, main_v89, main_v90, main_cst_21, main_v91, main_v92, main_v93]
  | 5 => [main_cst_22, main_v94, main_v95, main_v96, main_v97, main_c_23, main_v98, main_v99, main_c_24, main_v100,
          main_v101, main_v102, main_v103, main_v104, main_cst_25, main_v105, main_v106, main_v107, main_v108,
          main_v109, main_v110, main_cst_26, main_v111, main_v112, main_v113, main_v114, main_v115, main_c_27,
          main_v116, main_v117, main_c_28, main_v118, main_v119, main_v120, main_v121, main_v122, main_cst_29,
          main_v123, main_v124, main_v125, main_v126, main_v127, main_v128, main_cst_30, main_v129, main_v130,
          main_v131, main_v132]
  | 6 => [main_v133, main_v134, main_v135, main_v136, main_call2_cst, main_call2_v0, main_v137]
  | 7 => [main_cst_31, main_v138, main_cst_32, main_v139, main_c_33, main_v140, main_v141, main_c_34, main_v142,
          main_v143, main_v144, main_v145, main_v146, main_cst_35, main_call3_v0, main_call3_v1, main_v147,
          main_cst_36, main_v148, main_v149, main_v150]
  | 8 => [main_cst_37, main_v151, main_v152, main_v153, main_v154, main_c_38, main_v155, main_v156, main_c_39,
          main_v157, main_v158, main_v159, main_v160, main_v161, main_cst_40, main_v162, main_v163, main_v164,
          main_v165, main_v166, main_v167, main_cst_41, main_v168, main_v169, main_v170, main_v171, main_v172,
          main_c_42, main_v173, main_v174, main_c_43, main_v175, main_v176, main_v177, main_v178, main_v179,
          main_cst_44, main_v180, main_v181, main_v182, main_v183, main_v184, main_v185, main_cst_45, main_v186,
          main_v187, main_v188]
  | 9 => [main_cst_46, main_v189, main_v190, main_v191, main_v192, main_c_47, main_v193, main_v194, main_c_48,
          main_v195, main_v196, main_v197, main_v198, main_v199, main_cst_49, main_v200, main_v201, main_v202,
          main_v203, main_v204, main_v205, main_cst_50, main_v206, main_v207, main_v208, main_v209, main_v210,
          main_c_51, main_v211, main_v212, main_c_52, main_v213, main_v214, main_v215, main_v216, main_v217,
          main_cst_53, main_v218, main_v219, main_v220, main_v221, main_v222, main_v223, main_cst_54, main_v224,
          main_v225, main_v226]
  | 10 => [main_cst_55, main_v227, main_v228, main_v229, main_v230, main_c_56, main_v231, main_v232, main_c_57,
           main_v233, main_v234, main_v235, main_v236, main_v237, main_cst_58, main_v238, main_v239, main_v240,
           main_v241, main_v242, main_v243, main_cst_59, main_v244, main_v245, main_v246, main_v247, main_v248,
           main_c_60, main_v249, main_v250, main_c_61, main_v251, main_v252, main_v253, main_v254, main_v255,
           main_cst_62, main_v256, main_v257, main_v258, main_v259, main_v260, main_v261, main_cst_63, main_v262,
           main_v263, main_v264, main_v265, main_v266]
  | 11 => [main_v267, main_v268, main_v269, main_v270, main_call4_cst, main_call4_v0, main_v271, main_v272,
           main_v273, main_v274, main_v275]
  | _ => []

/-! ## Every operation's result buffer is on its chunk's list -/

/-- A listed reference's buffer, as a singleton, lies inside the listed buffers. -/
theorem rkeep_single_sub {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map.mpr ⟨y, h, rfl⟩))

theorem rkeep_writes1 : (rc1 : List (HloOp τ sig (Elt F))).Forall fun op =>
    op.writes ⊆ ((rkeep_wr 1).map (Proc.devRef (τ := τ) .tc)).toFinset := by
  simp only [rc1, List.Forall, nullary_writes, unary_writes, binary_writes]
  repeat' apply And.intro
  all_goals exact rkeep_single_sub (by decide)

theorem rkeep_writes2 : (rc2 : List (HloOp τ sig (Elt F))).Forall fun op =>
    op.writes ⊆ ((rkeep_wr 2).map (Proc.devRef (τ := τ) .tc)).toFinset := by
  simp only [rc2, List.Forall, nullary_writes, unary_writes, binary_writes, ternary_writes]
  repeat' apply And.intro
  all_goals exact rkeep_single_sub (by decide)

theorem rkeep_writes3 : (rc3 : List (HloOp τ sig (Elt F))).Forall fun op =>
    op.writes ⊆ ((rkeep_wr 3).map (Proc.devRef (τ := τ) .tc)).toFinset := by
  simp only [rc3, List.Forall, nullary_writes, unary_writes, binary_writes, ternary_writes]
  repeat' apply And.intro
  all_goals exact rkeep_single_sub (by decide)

theorem rkeep_writes4 : (rc4 : List (HloOp τ sig (Elt F))).Forall fun op =>
    op.writes ⊆ ((rkeep_wr 4).map (Proc.devRef (τ := τ) .tc)).toFinset := by
  simp only [rc4, List.Forall, nullary_writes, unary_writes, binary_writes, ternary_writes]
  repeat' apply And.intro
  all_goals exact rkeep_single_sub (by decide)

theorem rkeep_writes5 : (rc5 : List (HloOp τ sig (Elt F))).Forall fun op =>
    op.writes ⊆ ((rkeep_wr 5).map (Proc.devRef (τ := τ) .tc)).toFinset := by
  simp only [rc5, List.Forall, nullary_writes, unary_writes, binary_writes, ternary_writes, nary_writes]
  repeat' apply And.intro
  all_goals exact rkeep_single_sub (by decide)

theorem rkeep_writes6 : (rc6 : List (HloOp τ sig (Elt F))).Forall fun op =>
    op.writes ⊆ ((rkeep_wr 6).map (Proc.devRef (τ := τ) .tc)).toFinset := by
  simp only [rc6, List.Forall, nullary_writes, unary_writes, binary_writes]
  repeat' apply And.intro
  all_goals exact rkeep_single_sub (by decide)

theorem rkeep_writes7 : (rc7 : List (HloOp τ sig (Elt F))).Forall fun op =>
    op.writes ⊆ ((rkeep_wr 7).map (Proc.devRef (τ := τ) .tc)).toFinset := by
  simp only [rc7, List.Forall, nullary_writes, unary_writes, binary_writes, ternary_writes]
  repeat' apply And.intro
  all_goals exact rkeep_single_sub (by decide)

theorem rkeep_writes8 : (rc8 : List (HloOp τ sig (Elt F))).Forall fun op =>
    op.writes ⊆ ((rkeep_wr 8).map (Proc.devRef (τ := τ) .tc)).toFinset := by
  simp only [rc8, List.Forall, nullary_writes, unary_writes, binary_writes, ternary_writes]
  repeat' apply And.intro
  all_goals exact rkeep_single_sub (by decide)

theorem rkeep_writes9 : (rc9 : List (HloOp τ sig (Elt F))).Forall fun op =>
    op.writes ⊆ ((rkeep_wr 9).map (Proc.devRef (τ := τ) .tc)).toFinset := by
  simp only [rc9, List.Forall, nullary_writes, unary_writes, binary_writes, ternary_writes]
  repeat' apply And.intro
  all_goals exact rkeep_single_sub (by decide)

theorem rkeep_writes10 : (rc10 : List (HloOp τ sig (Elt F))).Forall fun op =>
    op.writes ⊆ ((rkeep_wr 10).map (Proc.devRef (τ := τ) .tc)).toFinset := by
  simp only [rc10, List.Forall, nullary_writes, unary_writes, binary_writes, ternary_writes, nary_writes]
  repeat' apply And.intro
  all_goals exact rkeep_single_sub (by decide)

theorem rkeep_writes11 : (rc11 : List (HloOp τ sig (Elt F))).Forall fun op =>
    op.writes ⊆ ((rkeep_wr 11).map (Proc.devRef (τ := τ) .tc)).toFinset := by
  simp only [rc11, List.Forall, nullary_writes, unary_writes, binary_writes]
  repeat' apply And.intro
  all_goals exact rkeep_single_sub (by decide)

/-! ## One chunk: a buffer it does not list keeps its contents -/

theorem rkeep1 (b : Ref sig .tc) (hb : b ∉ rkeep_wr 1) :
    after (rc1 (F := F)) V (Proc.devRef .tc b) = V (Proc.devRef .tc b) := after_of_writes_sub rc1 V rkeep_writes1 hb
theorem rkeep2 (b : Ref sig .tc) (hb : b ∉ rkeep_wr 2) :
    after (rc2 (F := F)) V (Proc.devRef .tc b) = V (Proc.devRef .tc b) := after_of_writes_sub rc2 V rkeep_writes2 hb
theorem rkeep3 (b : Ref sig .tc) (hb : b ∉ rkeep_wr 3) :
    after (rc3 (F := F)) V (Proc.devRef .tc b) = V (Proc.devRef .tc b) := after_of_writes_sub rc3 V rkeep_writes3 hb
theorem rkeep4 (b : Ref sig .tc) (hb : b ∉ rkeep_wr 4) :
    after (rc4 (F := F)) V (Proc.devRef .tc b) = V (Proc.devRef .tc b) := after_of_writes_sub rc4 V rkeep_writes4 hb
theorem rkeep5 (b : Ref sig .tc) (hb : b ∉ rkeep_wr 5) :
    after (rc5 (F := F)) V (Proc.devRef .tc b) = V (Proc.devRef .tc b) := after_of_writes_sub rc5 V rkeep_writes5 hb
theorem rkeep6 (b : Ref sig .tc) (hb : b ∉ rkeep_wr 6) :
    after (rc6 (F := F)) V (Proc.devRef .tc b) = V (Proc.devRef .tc b) := after_of_writes_sub rc6 V rkeep_writes6 hb
theorem rkeep7 (b : Ref sig .tc) (hb : b ∉ rkeep_wr 7) :
    after (rc7 (F := F)) V (Proc.devRef .tc b) = V (Proc.devRef .tc b) := after_of_writes_sub rc7 V rkeep_writes7 hb
theorem rkeep8 (b : Ref sig .tc) (hb : b ∉ rkeep_wr 8) :
    after (rc8 (F := F)) V (Proc.devRef .tc b) = V (Proc.devRef .tc b) := after_of_writes_sub rc8 V rkeep_writes8 hb
theorem rkeep9 (b : Ref sig .tc) (hb : b ∉ rkeep_wr 9) :
    after (rc9 (F := F)) V (Proc.devRef .tc b) = V (Proc.devRef .tc b) := after_of_writes_sub rc9 V rkeep_writes9 hb
theorem rkeep10 (b : Ref sig .tc) (hb : b ∉ rkeep_wr 10) :
    after (rc10 (F := F)) V (Proc.devRef .tc b) = V (Proc.devRef .tc b) := after_of_writes_sub rc10 V rkeep_writes10 hb
theorem rkeep11 (b : Ref sig .tc) (hb : b ∉ rkeep_wr 11) :
    after (rc11 (F := F)) V (Proc.devRef .tc b) = V (Proc.devRef .tc b) := after_of_writes_sub rc11 V rkeep_writes11 hb

/-! ## The fold as eleven steps -/

/-- Two lines of operations run one after the other: the second from what the first leaves. -/
theorem rkeep_after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The contents after the first `k` chunks, from contents `V`. -/
def rkeep_s1 : Valuation τ sig (Elt F) := after rc1 V
def rkeep_s2 : Valuation τ sig (Elt F) := after rc2 (rkeep_s1 V)
def rkeep_s3 : Valuation τ sig (Elt F) := after rc3 (rkeep_s2 V)
def rkeep_s4 : Valuation τ sig (Elt F) := after rc4 (rkeep_s3 V)
def rkeep_s5 : Valuation τ sig (Elt F) := after rc5 (rkeep_s4 V)
def rkeep_s6 : Valuation τ sig (Elt F) := after rc6 (rkeep_s5 V)
def rkeep_s7 : Valuation τ sig (Elt F) := after rc7 (rkeep_s6 V)
def rkeep_s8 : Valuation τ sig (Elt F) := after rc8 (rkeep_s7 V)
def rkeep_s9 : Valuation τ sig (Elt F) := after rc9 (rkeep_s8 V)
def rkeep_s10 : Valuation τ sig (Elt F) := after rc10 (rkeep_s9 V)
def rkeep_s11 : Valuation τ sig (Elt F) := after rc11 (rkeep_s10 V)

/-- All 352 operations leave what the eleventh chunk leaves. -/
theorem rkeep_after_ops : after (ops (F := F)) V = rkeep_s11 V := by
  rw [ops_eq]
  simp only [rkeep_after_append]
  rfl

/-- The contents after `k` chunks, by number (`k = 0 … 11`; the last from there on). -/
def rkeep_bd : Nat → Valuation τ sig (Elt F)
  | 0 => V | 1 => rkeep_s1 V | 2 => rkeep_s2 V | 3 => rkeep_s3 V | 4 => rkeep_s4 V | 5 => rkeep_s5 V
  | 6 => rkeep_s6 V | 7 => rkeep_s7 V | 8 => rkeep_s8 V | 9 => rkeep_s9 V | 10 => rkeep_s10 V | _ => rkeep_s11 V

/-- Chunk `k + 1` leaves a buffer it does not list as it was after `k` chunks. -/
theorem rkeep_bd_step (b : Ref sig .tc) (k : Nat) (h : b ∉ rkeep_wr (k + 1)) :
    rkeep_bd V (k + 1) (Proc.devRef .tc b) = rkeep_bd V k (Proc.devRef .tc b) := by
  rcases Nat.lt_or_ge k 11 with hk | hk
  · have hk' : k = 0 ∨ k = 1 ∨ k = 2 ∨ k = 3 ∨ k = 4 ∨ k = 5 ∨ k = 6 ∨ k = 7 ∨ k = 8 ∨ k = 9 ∨ k = 10 := by omega
    rcases hk' with rfl | rfl | rfl | rfl | rfl | rfl | rfl | rfl | rfl | rfl | rfl
    · exact rkeep1 V b h
    · exact rkeep2 (rkeep_s1 V) b h
    · exact rkeep3 (rkeep_s2 V) b h
    · exact rkeep4 (rkeep_s3 V) b h
    · exact rkeep5 (rkeep_s4 V) b h
    · exact rkeep6 (rkeep_s5 V) b h
    · exact rkeep7 (rkeep_s6 V) b h
    · exact rkeep8 (rkeep_s7 V) b h
    · exact rkeep9 (rkeep_s8 V) b h
    · exact rkeep10 (rkeep_s9 V) b h
    · exact rkeep11 (rkeep_s10 V) b h
  · obtain ⟨j, rfl⟩ : ∃ j, k = j + 11 := ⟨k - 11, by omega⟩
    rfl

/-- A buffer that none of the chunks `i + 1, …, i + d` lists holds after `i + d` chunks what it held after `i`. -/
theorem rkeep_bd_keep (b : Ref sig .tc) (i : Nat) :
    ∀ d, (∀ k ∈ List.range' (i + 1) d, b ∉ rkeep_wr k) →
      rkeep_bd V (i + d) (Proc.devRef .tc b) = rkeep_bd V i (Proc.devRef .tc b)
  | 0, _ => rfl
  | d + 1, h =>
    (rkeep_bd_step V b (i + d) (h (i + d + 1) (List.mem_range'_1.mpr ⟨by omega, by omega⟩))).trans
      (rkeep_bd_keep b i d fun k hk =>
        h k (List.mem_range'_1.mpr ⟨(List.mem_range'_1.mp hk).1, by have := (List.mem_range'_1.mp hk).2; omega⟩))

end Cert.ReferenceIdeal.RV

end
-- ==== Proof.RRun.lean ====
import proofs.«149625_j6124623364543_1_alg».proof.Proof.RefChunks
import proofs.«149625_j6124623364543_1_alg».proof.Proof.RSpec
import proofs.«149625_j6124623364543_1_alg».proof.Proof.RefRunQ3
import proofs.«149625_j6124623364543_1_alg».proof.Proof.RefRunQ4
import proofs.«149625_j6124623364543_1_alg».proof.Proof.RefRunQ5
import proofs.«149625_j6124623364543_1_alg».proof.Proof.RefRunQ6
import proofs.«149625_j6124623364543_1_alg».proof.Proof.RVal1
import proofs.«149625_j6124623364543_1_alg».proof.Proof.RVal2
import proofs.«149625_j6124623364543_1_alg».proof.Proof.RVal3
import proofs.«149625_j6124623364543_1_alg».proof.Proof.RKeep
import Idealize.ShloMosaic.Lib.StableHlo.Run

set_option maxRecDepth 16384

noncomputable section

namespace Cert.ReferenceIdeal.RV

open Idealize.ShloMosaic Idealize.ShloMosaic.TcCoe Idealize.SL.Sem Idealize.ShloMosaic.StableHlo
open Cert.ReferenceIdeal Cert.ReferenceIdeal.Gen Cert.ReferenceIdeal.ValueQ

variable {F : FTy → Type} [FloatOps F]
variable (m : (ℓ : Loc nD τ sig) → Buf (Elt F) ℓ)

/-- The first result as the shared function of the reference's argument arrays: in-degrees from the WRAPPED destination columns. -/
abbrev hallR (c : Dev nD) : FVec F S50000x384 .f32 :=
  Cert.Spec.hall (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      (Cert.Spec.col (Cert.Spec.wrap (m ((c.tc : Thread nD τ).loc main_arg3)))) (Cert.Spec.col (Cert.Spec.wrap (m ((c.tc : Thread nD τ).loc main_arg5))))
      (m ((c.tc : Thread nD τ).loc main_arg6)) (Cert.Spec.row64 (m ((c.tc : Thread nD τ).loc main_arg7))) (m ((c.tc : Thread nD τ).loc main_arg8)) (Cert.Spec.row64 (m ((c.tc : Thread nD τ).loc main_arg9)))

/-! ## The walk through the eleven chunks

The contents after `k` chunks from the launch contents are `rkeep_bd (launchContents m c) k`. Each buffer a chunk
reads is identified, at the state the chunk starts from, with a shared function of the argument arrays: by the
chunk that makes it, and from there on by the fact that no chunk in between writes it. -/

/-- Equal arguments, equal values (two to five arguments). -/
theorem rrun_congr2 {A B R : Type} (f : A → B → R) {a a' : A} {b b' : B} (ha : a = a') (hb : b = b') :
    f a b = f a' b' := by subst ha hb; rfl
theorem rrun_congr3 {A B C R : Type} (f : A → B → C → R) {a a' : A} {b b' : B} {c c' : C}
    (ha : a = a') (hb : b = b') (hc : c = c') : f a b c = f a' b' c' := by subst ha hb hc; rfl
theorem rrun_congr4 {A B C D R : Type} (f : A → B → C → D → R) {a a' : A} {b b' : B} {c c' : C} {d d' : D}
    (ha : a = a') (hb : b = b') (hc : c = c') (hd : d = d') : f a b c d = f a' b' c' d' := by
  subst ha hb hc hd; rfl
theorem rrun_congr5 {A B C D E R : Type} (f : A → B → C → D → E → R) {a a' : A} {b b' : B} {c c' : C} {d d' : D}
    {e e' : E} (ha : a = a') (hb : b = b') (hc : c = c') (hd : d = d') (he : e = e') :
    f a b c d e = f a' b' c' d' e' := by subst ha hb hc hd he; rfl

/-- One combination `θ0 f0 + θ1 f1 + θ2 f2` of a branch, from its features `h`, its normaliser column `col`
    and its edges: the form each combination chunk computes. -/
def rrun_cmb (θ0 θ1 θ2 : BitVec 32) (h : FVec F S50000x64 .f32) (col : FVec F S50000x1 .f32)
    (s t : IVec S800000 32) : FVec F S50000x64 .f32 :=
  Cert.Spec.comb θ0 θ1 θ2 h (Cert.Spec.f1 h (Cert.Spec.bc64 col) s t) (Cert.Spec.f2 h (Cert.Spec.bc64 col) s t)

/-- A normaliser column from a vector of destination indices, wrapped. -/
def rrun_col (dst : IVec S800000 32) : FVec F S50000x1 .f32 :=
  Cert.Spec.dinvc (Cert.Spec.deg (Cert.Spec.col (Cert.Spec.wrap dst)))

section Walk

variable (c : Dev nD)

/-- Branch one's features after its linear layer and its normaliser column; branch two's. -/
def rrun_hO : FVec F S50000x64 .f32 :=
  Cert.Spec.lin (m ((c.tc : Thread nD τ).loc main_arg0)) (m ((c.tc : Thread nD τ).loc main_arg6))
    (Cert.Spec.row64 (m ((c.tc : Thread nD τ).loc main_arg7)))
def rrun_cO : FVec F S50000x1 .f32 := rrun_col (m ((c.tc : Thread nD τ).loc main_arg3))
def rrun_hS : FVec F S50000x64 .f32 :=
  Cert.Spec.lin (m ((c.tc : Thread nD τ).loc main_arg1)) (m ((c.tc : Thread nD τ).loc main_arg8))
    (Cert.Spec.row64 (m ((c.tc : Thread nD τ).loc main_arg9)))
def rrun_cS : FVec F S50000x1 .f32 := rrun_col (m ((c.tc : Thread nD τ).loc main_arg5))

/-! ### Branch one: chunks 1 to 5 -/

theorem rrun_e1_v4 : rkeep_bd (launchContents m c) 1 (Proc.devRef .tc main_v4) = rrun_hO m c :=
  rc1_v4 (launchContents m c)

theorem rrun_e2_v4 : rkeep_bd (launchContents m c) 2 (Proc.devRef .tc main_v4) = rrun_hO m c :=
  (rkeep_bd_keep (launchContents m c) main_v4 1 1 (by decide)).trans (rrun_e1_v4 m c)

theorem rrun_e3_v4 : rkeep_bd (launchContents m c) 3 (Proc.devRef .tc main_v4) = rrun_hO m c :=
  (rkeep_bd_keep (launchContents m c) main_v4 1 2 (by decide)).trans (rrun_e1_v4 m c)

theorem rrun_e4_v4 : rkeep_bd (launchContents m c) 4 (Proc.devRef .tc main_v4) = rrun_hO m c :=
  (rkeep_bd_keep (launchContents m c) main_v4 1 3 (by decide)).trans (rrun_e1_v4 m c)

theorem rrun_e1_arg3 :
    rkeep_bd (launchContents m c) 1 (Proc.devRef .tc main_arg3) = m ((c.tc : Thread nD τ).loc main_arg3) :=
  rkeep_bd_keep (launchContents m c) main_arg3 0 1 (by decide)

theorem rrun_e2_v17 : rkeep_bd (launchContents m c) 2 (Proc.devRef .tc main_v17) = rrun_cO m c :=
  (rc2_v17 (rkeep_bd (launchContents m c) 1)).trans (congrArg (rrun_col (F := F)) (rrun_e1_arg3 m c))

theorem rrun_e3_v17 : rkeep_bd (launchContents m c) 3 (Proc.devRef .tc main_v17) = rrun_cO m c :=
  (rkeep_bd_keep (launchContents m c) main_v17 2 1 (by decide)).trans (rrun_e2_v17 m c)

theorem rrun_e4_v17 : rkeep_bd (launchContents m c) 4 (Proc.devRef .tc main_v17) = rrun_cO m c :=
  (rkeep_bd_keep (launchContents m c) main_v17 2 2 (by decide)).trans (rrun_e2_v17 m c)

theorem rrun_e2_arg2 :
    rkeep_bd (launchContents m c) 2 (Proc.devRef .tc main_arg2) = m ((c.tc : Thread nD τ).loc main_arg2) :=
  rkeep_bd_keep (launchContents m c) main_arg2 0 2 (by decide)
theorem rrun_e2_arg3 :
    rkeep_bd (launchContents m c) 2 (Proc.devRef .tc main_arg3) = m ((c.tc : Thread nD τ).loc main_arg3) :=
  rkeep_bd_keep (launchContents m c) main_arg3 0 2 (by decide)
theorem rrun_e3_arg2 :
    rkeep_bd (launchContents m c) 3 (Proc.devRef .tc main_arg2) = m ((c.tc : Thread nD τ).loc main_arg2) :=
  rkeep_bd_keep (launchContents m c) main_arg2 0 3 (by decide)
theorem rrun_e3_arg3 :
    rkeep_bd (launchContents m c) 3 (Proc.devRef .tc main_arg3) = m ((c.tc : Thread nD τ).loc main_arg3) :=
  rkeep_bd_keep (launchContents m c) main_arg3 0 3 (by decide)
theorem rrun_e4_arg2 :
    rkeep_bd (launchContents m c) 4 (Proc.devRef .tc main_arg2) = m ((c.tc : Thread nD τ).loc main_arg2) :=
  rkeep_bd_keep (launchContents m c) main_arg2 0 4 (by decide)
theorem rrun_e4_arg3 :
    rkeep_bd (launchContents m c) 4 (Proc.devRef .tc main_arg3) = m ((c.tc : Thread nD τ).loc main_arg3) :=
  rkeep_bd_keep (launchContents m c) main_arg3 0 4 (by decide)

theorem rrun_e3_v55 :
    rkeep_bd (launchContents m c) 3 (Proc.devRef .tc main_v55)
      = rrun_cmb 0x40400000#32 0xC0400000#32 0x3F400000#32 (rrun_hO m c) (rrun_cO m c)
          (m ((c.tc : Thread nD τ).loc main_arg2)) (m ((c.tc : Thread nD τ).loc main_arg3)) :=
  (rc3_v55 (rkeep_bd (launchContents m c) 2)).trans
    (rrun_congr4 (rrun_cmb (F := F) 0x40400000#32 0xC0400000#32 0x3F400000#32)
      (rrun_e2_v4 m c) (rrun_e2_v17 m c) (rrun_e2_arg2 m c) (rrun_e2_arg3 m c))

theorem rrun_e4_v55 :
    rkeep_bd (launchContents m c) 4 (Proc.devRef .tc main_v55)
      = rrun_cmb 0x40400000#32 0xC0400000#32 0x3F400000#32 (rrun_hO m c) (rrun_cO m c)
          (m ((c.tc : Thread nD τ).loc main_arg2)) (m ((c.tc : Thread nD τ).loc main_arg3)) :=
  (rkeep_bd_keep (launchContents m c) main_v55 3 1 (by decide)).trans (rrun_e3_v55 m c)

theorem rrun_e4_v93 :
    rkeep_bd (launchContents m c) 4 (Proc.devRef .tc main_v93)
      = rrun_cmb 0x00000000#32 0x40400000#32 0xBFC00000#32 (rrun_hO m c) (rrun_cO m c)
          (m ((c.tc : Thread nD τ).loc main_arg2)) (m ((c.tc : Thread nD τ).loc main_arg3)) :=
  (rc4_v93 (rkeep_bd (launchContents m c) 3)).trans
    (rrun_congr4 (rrun_cmb (F := F) 0x00000000#32 0x40400000#32 0xBFC00000#32)
      (rrun_e3_v4 m c) (rrun_e3_v17 m c) (rrun_e3_arg2 m c) (rrun_e3_arg3 m c))

theorem rrun_e5_v132 :
    rkeep_bd (launchContents m c) 5 (Proc.devRef .tc main_v132)
      = Cert.Spec.cat3
          (rrun_cmb 0x40400000#32 0xC0400000#32 0x3F400000#32 (rrun_hO m c) (rrun_cO m c)
            (m ((c.tc : Thread nD τ).loc main_arg2)) (m ((c.tc : Thread nD τ).loc main_arg3)))
          (rrun_cmb 0x00000000#32 0x40400000#32 0xBFC00000#32 (rrun_hO m c) (rrun_cO m c)
            (m ((c.tc : Thread nD τ).loc main_arg2)) (m ((c.tc : Thread nD τ).loc main_arg3)))
          (rrun_cmb 0x00000000#32 0x00000000#32 0x3F400000#32 (rrun_hO m c) (rrun_cO m c)
            (m ((c.tc : Thread nD τ).loc main_arg2)) (m ((c.tc : Thread nD τ).loc main_arg3))) :=
  (rc5_v132 (rkeep_bd (launchContents m c) 4)).trans
    (rrun_congr3 (Cert.Spec.cat3 (F := F)) (rrun_e4_v55 m c) (rrun_e4_v93 m c)
      (rrun_congr4 (rrun_cmb (F := F) 0x00000000#32 0x00000000#32 0x3F400000#32)
        (rrun_e4_v4 m c) (rrun_e4_v17 m c) (rrun_e4_arg2 m c) (rrun_e4_arg3 m c)))

/-! ### Branch two: chunks 6 to 9 -/

theorem rrun_e5_arg1 :
    rkeep_bd (launchContents m c) 5 (Proc.devRef .tc main_arg1) = m ((c.tc : Thread nD τ).loc main_arg1) :=
  rkeep_bd_keep (launchContents m c) main_arg1 0 5 (by decide)
theorem rrun_e5_arg8 :
    rkeep_bd (launchContents m c) 5 (Proc.devRef .tc main_arg8) = m ((c.tc : Thread nD τ).loc main_arg8) :=
  rkeep_bd_keep (launchContents m c) main_arg8 0 5 (by decide)
theorem rrun_e5_arg9 :
    rkeep_bd (launchContents m c) 5 (Proc.devRef .tc main_arg9) = m ((c.tc : Thread nD τ).loc main_arg9) :=
  rkeep_bd_keep (launchContents m c) main_arg9 0 5 (by decide)

theorem rrun_e6_v137 : rkeep_bd (launchContents m c) 6 (Proc.devRef .tc main_v137) = rrun_hS m c :=
  (rc6_v137 (rkeep_bd (launchContents m c) 5)).trans
    (rrun_congr3 (Cert.Spec.lin (F := F)) (rrun_e5_arg1 m c) (rrun_e5_arg8 m c)
      (congrArg (Cert.Spec.row64 (F := F)) (rrun_e5_arg9 m c)))

theorem rrun_e7_v137 : rkeep_bd (launchContents m c) 7 (Proc.devRef .tc main_v137) = rrun_hS m c :=
  (rkeep_bd_keep (launchContents m c) main_v137 6 1 (by decide)).trans (rrun_e6_v137 m c)
theorem rrun_e8_v137 : rkeep_bd (launchContents m c) 8 (Proc.devRef .tc main_v137) = rrun_hS m c :=
  (rkeep_bd_keep (launchContents m c) main_v137 6 2 (by decide)).trans (rrun_e6_v137 m c)
theorem rrun_e9_v137 : rkeep_bd (launchContents m c) 9 (Proc.devRef .tc main_v137) = rrun_hS m c :=
  (rkeep_bd_keep (launchContents m c) main_v137 6 3 (by decide)).trans (rrun_e6_v137 m c)

theorem rrun_e6_arg5 :
    rkeep_bd (launchContents m c) 6 (Proc.devRef .tc main_arg5) = m ((c.tc : Thread nD τ).loc main_arg5) :=
  rkeep_bd_keep (launchContents m c) main_arg5 0 6 (by decide)

theorem rrun_e7_v150 : rkeep_bd (launchContents m c) 7 (Proc.devRef .tc main_v150) = rrun_cS m c :=
  (rc7_v150 (rkeep_bd (launchContents m c) 6)).trans (congrArg (rrun_col (F := F)) (rrun_e6_arg5 m c))
theorem rrun_e8_v150 : rkeep_bd (launchContents m c) 8 (Proc.devRef .tc main_v150) = rrun_cS m c :=
  (rkeep_bd_keep (launchContents m c) main_v150 7 1 (by decide)).trans (rrun_e7_v150 m c)
theorem rrun_e9_v150 : rkeep_bd (launchContents m c) 9 (Proc.devRef .tc main_v150) = rrun_cS m c :=
  (rkeep_bd_keep (launchContents m c) main_v150 7 2 (by decide)).trans (rrun_e7_v150 m c)

theorem rrun_e7_arg4 :
    rkeep_bd (launchContents m c) 7 (Proc.devRef .tc main_arg4) = m ((c.tc : Thread nD τ).loc main_arg4) :=
  rkeep_bd_keep (launchContents m c) main_arg4 0 7 (by decide)
theorem rrun_e7_arg5 :
    rkeep_bd (launchContents m c) 7 (Proc.devRef .tc main_arg5) = m ((c.tc : Thread nD τ).loc main_arg5) :=
  rkeep_bd_keep (launchContents m c) main_arg5 0 7 (by decide)
theorem rrun_e8_arg4 :
    rkeep_bd (launchContents m c) 8 (Proc.devRef .tc main_arg4) = m ((c.tc : Thread nD τ).loc main_arg4) :=
  rkeep_bd_keep (launchContents m c) main_arg4 0 8 (by decide)
theorem rrun_e8_arg5 :
    rkeep_bd (launchContents m c) 8 (Proc.devRef .tc main_arg5) = m ((c.tc : Thread nD τ).loc main_arg5) :=
  rkeep_bd_keep (launchContents m c) main_arg5 0 8 (by decide)
theorem rrun_e9_arg4 :
    rkeep_bd (launchContents m c) 9 (Proc.devRef .tc main_arg4) = m ((c.tc : Thread nD τ).loc main_arg4) :=
  rkeep_bd_keep (launchContents m c) main_arg4 0 9 (by decide)
theorem rrun_e9_arg5 :
    rkeep_bd (launchContents m c) 9 (Proc.devRef .tc main_arg5) = m ((c.tc : Thread nD τ).loc main_arg5) :=
  rkeep_bd_keep (launchContents m c) main_arg5 0 9 (by decide)

theorem rrun_e8_v188 :
    rkeep_bd (launchContents m c) 8 (Proc.devRef .tc main_v188)
      = rrun_cmb 0x40800000#32 0x40800000#32 0x40800000#32 (rrun_hS m c) (rrun_cS m c)
          (m ((c.tc : Thread nD τ).loc main_arg4)) (m ((c.tc : Thread nD τ).loc main_arg5)) :=
  (rc8_v188 (rkeep_bd (launchContents m c) 7)).trans
    (rrun_congr4 (rrun_cmb (F := F) 0x40800000#32 0x40800000#32 0x40800000#32)
      (rrun_e7_v137 m c) (rrun_e7_v150 m c) (rrun_e7_arg4 m c) (rrun_e7_arg5 m c))

theorem rrun_e9_v188 :
    rkeep_bd (launchContents m c) 9 (Proc.devRef .tc main_v188)
      = rrun_cmb 0x40800000#32 0x40800000#32 0x40800000#32 (rrun_hS m c) (rrun_cS m c)
          (m ((c.tc : Thread nD τ).loc main_arg4)) (m ((c.tc : Thread nD τ).loc main_arg5)) :=
  (rkeep_bd_keep (launchContents m c) main_v188 8 1 (by decide)).trans (rrun_e8_v188 m c)

theorem rrun_e9_v226 :
    rkeep_bd (launchContents m c) 9 (Proc.devRef .tc main_v226)
      = rrun_cmb 0x40800000#32 0x40800000#32 0x40800000#32 (rrun_hS m c) (rrun_cS m c)
          (m ((c.tc : Thread nD τ).loc main_arg4)) (m ((c.tc : Thread nD τ).loc main_arg5)) :=
  (rc9_v226 (rkeep_bd (launchContents m c) 8)).trans
    (rrun_congr4 (rrun_cmb (F := F) 0x40800000#32 0x40800000#32 0x40800000#32)
      (rrun_e8_v137 m c) (rrun_e8_v150 m c) (rrun_e8_arg4 m c) (rrun_e8_arg5 m c))

/-! ### Both branches side by side: chunk 10 -/

theorem rrun_e9_v132 :
    rkeep_bd (launchContents m c) 9 (Proc.devRef .tc main_v132)
      = Cert.Spec.cat3
          (rrun_cmb 0x40400000#32 0xC0400000#32 0x3F400000#32 (rrun_hO m c) (rrun_cO m c)
            (m ((c.tc : Thread nD τ).loc main_arg2)) (m ((c.tc : Thread nD τ).loc main_arg3)))
          (rrun_cmb 0x00000000#32 0x40400000#32 0xBFC00000#32 (rrun_hO m c) (rrun_cO m c)
            (m ((c.tc : Thread nD τ).loc main_arg2)) (m ((c.tc : Thread nD τ).loc main_arg3)))
          (rrun_cmb 0x00000000#32 0x00000000#32 0x3F400000#32 (rrun_hO m c) (rrun_cO m c)
            (m ((c.tc : Thread nD τ).loc main_arg2)) (m ((c.tc : Thread nD τ).loc main_arg3))) :=
  (rkeep_bd_keep (launchContents m c) main_v132 5 4 (by decide)).trans (rrun_e5_v132 m c)

/-- The whole first result in the chunks' form: three combinations per branch, the branches side by side. -/
def rrun_all : FVec F S50000x384 .f32 :=
  Cert.Spec.cat2
    (Cert.Spec.cat3
      (rrun_cmb 0x40400000#32 0xC0400000#32 0x3F400000#32 (rrun_hO m c) (rrun_cO m c)
        (m ((c.tc : Thread nD τ).loc main_arg2)) (m ((c.tc : Thread nD τ).loc main_arg3)))
      (rrun_cmb 0x00000000#32 0x40400000#32 0xBFC00000#32 (rrun_hO m c) (rrun_cO m c)
        (m ((c.tc : Thread nD τ).loc main_arg2)) (m ((c.tc : Thread nD τ).loc main_arg3)))
      (rrun_cmb 0x00000000#32 0x00000000#32 0x3F400000#32 (rrun_hO m c) (rrun_cO m c)
        (m ((c.tc : Thread nD τ).loc main_arg2)) (m ((c.tc : Thread nD τ).loc main_arg3))))
    (Cert.Spec.cat3
      (rrun_cmb 0x40800000#32 0x40800000#32 0x40800000#32 (rrun_hS m c) (rrun_cS m c)
        (m ((c.tc : Thread nD τ).loc main_arg4)) (m ((c.tc : Thread nD τ).loc main_arg5)))
      (rrun_cmb 0x40800000#32 0x40800000#32 0x40800000#32 (rrun_hS m c) (rrun_cS m c)
        (m ((c.tc : Thread nD τ).loc main_arg4)) (m ((c.tc : Thread nD τ).loc main_arg5)))
      (rrun_cmb 0x40800000#32 0x40800000#32 0x40800000#32 (rrun_hS m c) (rrun_cS m c)
        (m ((c.tc : Thread nD τ).loc main_arg4)) (m ((c.tc : Thread nD τ).loc main_arg5))))

theorem rrun_e10_v266 : rkeep_bd (launchContents m c) 10 (Proc.devRef .tc main_v266) = rrun_all m c :=
  (rc10_v266 (rkeep_bd (launchContents m c) 9)).trans
    (rrun_congr2 (Cert.Spec.cat2 (F := F)) (rrun_e9_v132 m c)
      (rrun_congr3 (Cert.Spec.cat3 (F := F)) (rrun_e9_v188 m c) (rrun_e9_v226 m c)
        (rrun_congr4 (rrun_cmb (F := F) 0x40800000#32 0x40800000#32 0x40800000#32)
          (rrun_e9_v137 m c) (rrun_e9_v150 m c) (rrun_e9_arg4 m c) (rrun_e9_arg5 m c))))

/-- The chunks' form is the shared function: a branch is its three combinations side by side, and the repeated
    normaliser is the repeated column. -/
theorem rrun_all_eq : rrun_all m c = hallR m c := by
  unfold hallR Cert.Spec.hall Cert.Spec.branchO Cert.Spec.branchS Cert.Spec.combO Cert.Spec.combS
  rw [Cert.Spec.dinvb_eq, Cert.Spec.dinvb_eq]
  rfl

theorem rrun_e10_arg10 :
    rkeep_bd (launchContents m c) 10 (Proc.devRef .tc main_arg10) = m ((c.tc : Thread nD τ).loc main_arg10) :=
  rkeep_bd_keep (launchContents m c) main_arg10 0 10 (by decide)
theorem rrun_e10_arg11 :
    rkeep_bd (launchContents m c) 10 (Proc.devRef .tc main_arg11) = m ((c.tc : Thread nD τ).loc main_arg11) :=
  rkeep_bd_keep (launchContents m c) main_arg11 0 10 (by decide)
theorem rrun_e10_arg12 :
    rkeep_bd (launchContents m c) 10 (Proc.devRef .tc main_arg12) = m ((c.tc : Thread nD τ).loc main_arg12) :=
  rkeep_bd_keep (launchContents m c) main_arg12 0 10 (by decide)
theorem rrun_e10_arg13 :
    rkeep_bd (launchContents m c) 10 (Proc.devRef .tc main_arg13) = m ((c.tc : Thread nD τ).loc main_arg13) :=
  rkeep_bd_keep (launchContents m c) main_arg13 0 10 (by decide)

end Walk

/-- The first result's buffer after all 352 operations. -/
theorem val266 (c : Dev nD) :
    after (ops (F := F)) (launchContents m c) (Proc.devRef .tc main_v266) = hallR m c := by
  rw [rkeep_after_ops]
  exact (rkeep_bd_keep (launchContents m c) main_v266 10 1 (by decide)).trans
    ((rrun_e10_v266 m c).trans (rrun_all_eq m c))

/-- The second result's buffer: the perceptron of the first. -/
theorem val275 (c : Dev nD) :
    after (ops (F := F)) (launchContents m c) (Proc.devRef .tc main_v275)
      = Cert.Spec.mlp (hallR m c) (m ((c.tc : Thread nD τ).loc main_arg10)) (Cert.Spec.row64 (m ((c.tc : Thread nD τ).loc main_arg11))) (m ((c.tc : Thread nD τ).loc main_arg12)) (Cert.Spec.row2 (m ((c.tc : Thread nD τ).loc main_arg13))) := by
  rw [rkeep_after_ops]
  exact (rc11_v275 (rkeep_bd (launchContents m c) 10)).trans
    (rrun_congr5 (Cert.Spec.mlp (F := F)) ((rrun_e10_v266 m c).trans (rrun_all_eq m c)) (rrun_e10_arg10 m c)
      (congrArg (Cert.Spec.row64 (F := F)) (rrun_e10_arg11 m c)) (rrun_e10_arg12 m c)
      (congrArg (Cert.Spec.row2 (F := F)) (rrun_e10_arg13 m c)))

/-- The reference's run: both results at the shared functions of its arguments, the arguments unchanged. -/
theorem ref_run (ρ : Dev nD → PrngReg) :
    θ_run defs (onTc (τ := τ) (main (F := F))) ⟨m, fun _ => 0, ρ⟩ fun r => ∀ c : Dev nD,
      r.2.mem ((c.tc : Thread nD τ).loc main_v266) = hallR m c
      ∧ r.2.mem ((c.tc : Thread nD τ).loc main_v275)
          = Cert.Spec.mlp (hallR m c) (m ((c.tc : Thread nD τ).loc main_arg10)) (Cert.Spec.row64 (m ((c.tc : Thread nD τ).loc main_arg11))) (m ((c.tc : Thread nD τ).loc main_arg12)) (Cert.Spec.row2 (m ((c.tc : Thread nD τ).loc main_arg13)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v266).trans (val266 m c), (h c main_v275).trans (val275 m c),
      (h c main_arg0).trans (post_main_arg0 m c),
      (h c main_arg1).trans (post_main_arg1 m c),
      (h c main_arg2).trans (post_main_arg2 m c),
      (h c main_arg3).trans (post_main_arg3 m c),
      (h c main_arg4).trans (post_main_arg4 m c),
      (h c main_arg5).trans (post_main_arg5 m c),
      (h c main_arg6).trans (post_main_arg6 m c),
      (h c main_arg7).trans (post_main_arg7 m c),
      (h c main_arg8).trans (post_main_arg8 m c),
      (h c main_arg9).trans (post_main_arg9 m c),
      (h c main_arg10).trans (post_main_arg10 m c),
      (h c main_arg11).trans (post_main_arg11 m c),
      (h c main_arg12).trans (post_main_arg12 m c),
      (h c main_arg13).trans (post_main_arg13 m c)⟩)
    (run_all m ρ)

end Cert.ReferenceIdeal.RV

end
-- ==== Proof.PreIdx.lean ====
/-
  What the precondition says of the two destination-index inputs: every entry is nonnegative as a signed word, so
  array indexing's wrap of negative indices (`i < 0 ↦ i + 50000`) leaves them as they are.
-/
import proofs.«149625_j6124623364543_1_alg».proof.Defs
import proofs.«149625_j6124623364543_1_alg».proof.Proof.Gen.Pre_finite_inputs
import proofs.«149625_j6124623364543_1_alg».proof.Proof.Gen.KernelIdeal
import proofs.«149625_j6124623364543_1_alg».proof.Proof.Spec
import Idealize.ShloMosaic.Lib.ReduceAll
import Idealize.ShloMosaic.Lib.ValueIdx

noncomputable section

namespace Cert.PreIdx

open Idealize.ShloMosaic Idealize.SL.Sem

instance : Subsingleton Cert.Pre_finite_inputs.S_.Idx := ⟨fun a b => funext fun d => d.elim0⟩

/-- A signed word that is at least zero is not below zero, so the wrap keeps it. -/
theorem wrap_eq_of_nonneg (ix : IVec Cert.ReferenceIdeal.S800000 32)
    (h : ∀ i, IntOp.cmpi .sge (ix i) (0#32) = 1#1) : Cert.Spec.wrap ix = ix := by
  funext i
  have hi := h i
  have hlt : IntOp.cmpi .slt (ix i) (0#32) = 0#1 := by
    simp only [IntOp.cmpi] at hi ⊢
    rw [BitVec.sle_eq_not_slt] at hi
    cases hb : (ix i).slt 0#32
    · rfl
    · rw [hb] at hi; exact absurd hi (by decide)
  show Scalar.select (IntOp.cmpi .slt (ix i) (0#32)) _ (ix i) = ix i
  rw [hlt]
  rfl

/-- The two conjuncts the precondition ends with, read back. -/
theorem nonneg_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IntOp.cmpi .sge (m ((c.tc : Thread Cert.KernelIdeal.nD Cert.KernelIdeal.τ).loc Cert.KernelIdeal.main_arg3) i) (0#32) = 1#1)
    ∧ (∀ i, IntOp.cmpi .sge (m ((c.tc : Thread Cert.KernelIdeal.nD Cert.KernelIdeal.τ).loc Cert.KernelIdeal.main_arg5) i) (0#32) = 1#1) := by
  have h0 := congrFun (h c) ValueIdx.ix0
  dsimp only [Cert.Pre_finite_inputs.fn, Cert.Pre_finite_inputs.fn_part1, Cert.Pre_finite_inputs.fn_part2,
    Cert.Pre_finite_inputs.fn_part3] at h0
  obtain ⟨h1, h5⟩ := IntOp.andi_eq_one.1 h0
  obtain ⟨_, h3⟩ := IntOp.andi_eq_one.1 h1
  exact ⟨fun i => Host.reduce_andi_all _ _ _ _ _ h3 i, fun i => Host.reduce_andi_all _ _ _ _ _ h5 i⟩

end Cert.PreIdx

end
-- ==== Proof.lean ====
/-
  The certificate's five claims.

  Both programs compute, per branch, `h = relu (x · W + b)`, the in-degrees `deg` of the destination indices,
  `dinv = max(1, deg)^(-1/2)`, two steps of `f ↦ f - dinv · A (dinv · f)` (`A`: gather rows by `src`, scatter-add by
  `dst`) and three fixed linear combinations of `h, f1, f2`; the six combinations side by side are the first result and
  a two-layer perceptron of them the second. The kernel program computes `f1, f2` once per branch and every dense
  stage in row blocks of 2000; the reference recomputes them per combination: the same whole-array functions
  (Proof/Spec.lean). The one difference is how `deg` is made: the reference's indexed add wraps a negative destination
  index (`i < 0 ↦ i + 50000`), the kernel program's segment sum drops it. Under the precondition's last two conjuncts
  (every destination index is nonnegative) the wrap is the identity and the two results coincide.
-/
import proofs.«149625_j6124623364543_1_alg».proof.Defs
import proofs.«149625_j6124623364543_1_alg».proof.Proof.Gen.Kernel
import proofs.«149625_j6124623364543_1_alg».proof.Proof.Gen.Kernel.Frame
import proofs.«149625_j6124623364543_1_alg».proof.Proof.Gen.KernelIdeal
import proofs.«149625_j6124623364543_1_alg».proof.Proof.Gen.KernelIdeal.Frame
import proofs.«149625_j6124623364543_1_alg».proof.Proof.Gen.ReferenceIdeal
import proofs.«149625_j6124623364543_1_alg».proof.Proof.Gen.Pre_finite_inputs
import proofs.«149625_j6124623364543_1_alg».proof.Proof.Spec
import proofs.«149625_j6124623364543_1_alg».proof.Proof.KRun
import proofs.«149625_j6124623364543_1_alg».proof.Proof.KTrack
import proofs.«149625_j6124623364543_1_alg».proof.Proof.RRun
import proofs.«149625_j6124623364543_1_alg».proof.Proof.PreIdx
import Idealize.ShloMosaic.Adequacy
import Idealize.ShloMosaic.Init

set_option maxRecDepth 16384

noncomputable section

namespace Cert.Proof

open Idealize.ShloMosaic Idealize.SL.Sem

/-- The first result as the shared function of the kernel program's argument arrays (in-degrees from the destination
    columns as they are). -/
abbrev hallK (m : (ℓ : Loc Cert.KernelIdeal.nD Cert.KernelIdeal.τ Cert.KernelIdeal.sig) → Buf (Elt Ideal) ℓ)
    (c : Dev Cert.KernelIdeal.nD) : FVec Ideal Cert.ReferenceIdeal.S50000x384 .f32 :=
  Cert.Spec.hall (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
    (Cert.Spec.col (m ((c.tc : Thread Cert.KernelIdeal.nD Cert.KernelIdeal.τ).loc Cert.KernelIdeal.main_arg3))) (Cert.Spec.col (m ((c.tc : Thread Cert.KernelIdeal.nD Cert.KernelIdeal.τ).loc Cert.KernelIdeal.main_arg5)))
    (m ((c.tc : Thread Cert.KernelIdeal.nD Cert.KernelIdeal.τ).loc Cert.KernelIdeal.main_arg6)) (Cert.Spec.row64 (F := Ideal) (m ((c.tc : Thread Cert.KernelIdeal.nD Cert.KernelIdeal.τ).loc Cert.KernelIdeal.main_arg7))) (m ((c.tc : Thread Cert.KernelIdeal.nD Cert.KernelIdeal.τ).loc Cert.KernelIdeal.main_arg8)) (Cert.Spec.row64 (F := Ideal) (m ((c.tc : Thread Cert.KernelIdeal.nD Cert.KernelIdeal.τ).loc Cert.KernelIdeal.main_arg9)))

/-- The second result: the perceptron of the first. -/
abbrev logitsK (m : (ℓ : Loc Cert.KernelIdeal.nD Cert.KernelIdeal.τ Cert.KernelIdeal.sig) → Buf (Elt Ideal) ℓ)
    (c : Dev Cert.KernelIdeal.nD) : FVec Ideal Cert.ReferenceIdeal.S50000x2 .f32 :=
  Cert.Spec.mlp (F := Ideal) (hallK m c) (m ((c.tc : Thread Cert.KernelIdeal.nD Cert.KernelIdeal.τ).loc Cert.KernelIdeal.main_arg10)) (Cert.Spec.row64 (F := Ideal) (m ((c.tc : Thread Cert.KernelIdeal.nD Cert.KernelIdeal.τ).loc Cert.KernelIdeal.main_arg11))) (m ((c.tc : Thread Cert.KernelIdeal.nD Cert.KernelIdeal.τ).loc Cert.KernelIdeal.main_arg12))
    (Cert.Spec.row2 (F := Ideal) (m ((c.tc : Thread Cert.KernelIdeal.nD Cert.KernelIdeal.τ).loc Cert.KernelIdeal.main_arg13)))

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.RV.ref_run (F := Ideal) m ρ)

/-- The kernel program's run with both results at the shared functions of its arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
      r.2.mem ((c.tc : Thread Cert.KernelIdeal.nD Cert.KernelIdeal.τ).loc Cert.KernelIdeal.main_v70) = hallK m c
      ∧ r.2.mem ((c.tc : Thread Cert.KernelIdeal.nD Cert.KernelIdeal.τ).loc Cert.KernelIdeal.main_v71) = logitsK m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)) :=
  (θ_run Cert.KernelIdeal.defs _ _).mono
    (fun r h c => ⟨(h c).1.trans (Cert.KernelIdeal.KV.final70 m ρ c),
      (h c).2.1.trans ((Cert.KernelIdeal.KV.final71 m ρ c).trans
        (congrArg (fun z => Cert.Spec.mlp (F := Ideal) z _ _ _ _) (Cert.KernelIdeal.KV.final70 m ρ c))),
      (h c).2.2⟩)
    (Cert.KernelIdeal.Gen.run_named (F := Ideal) m ρ)

theorem algebraic : Cert.algebraic_KernelIdeal_ReferenceIdeal := by
  intro m ρ m' ρ' hpre hagree
  refine ⟨fun c => hallK m c, fun c => logitsK m c, kernel_run m ρ, ?_⟩
  refine (θ_run Cert.ReferenceIdeal.defs _ _).mono (fun r h c => ?_) (Cert.ReferenceIdeal.RV.ref_run (F := Ideal) m' ρ')
  obtain ⟨h266, h275, hargs⟩ := h c
  obtain ⟨a0, a1, a2, a3, a4, a5, a6, a7, a8, a9, a10, a11, a12, a13⟩ := hagree c
  obtain ⟨n3, n5⟩ := Cert.PreIdx.nonneg_of_pre m hpre c
  have e70 : Cert.ReferenceIdeal.RV.hallR (F := Ideal) m' c = hallK m c := by
    dsimp only [Cert.ReferenceIdeal.RV.hallR, hallK]
    rw [a0, a1, a2, a3, a4, a5, a6, a7, a8, a9,
      Cert.PreIdx.wrap_eq_of_nonneg _ n3, Cert.PreIdx.wrap_eq_of_nonneg _ n5]
  refine ⟨h266.trans e70, h275.trans ?_, hargs⟩
  dsimp only [logitsK]
  rw [e70, a10, a11, a12, a13]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
